-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S4096x4096 .f32) (main_arg8 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S4096x4096 .f32) (main_arg6 : FVec F S4096 .f32) (main_arg7 : FVec F S4096x4096 .f32) (main_arg8 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x12288 : Shape := ⟨2, ![4096, 12288]⟩
abbrev S12288 : Shape := ⟨1, ![12288]⟩
abbrev S1x12288 : Shape := ⟨2, ![1, 12288]⟩
abbrev S8192x12288 : Shape := ⟨2, ![8192, 12288]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩
abbrev S8192x32x128 : Shape := ⟨3, ![8192, 32, 128]⟩
abbrev S256x32x128 : Shape := ⟨3, ![256, 32, 128]⟩
abbrev S256x32x32 : Shape := ⟨3, ![256, 32, 32]⟩
abbrev S256x32 : Shape := ⟨2, ![256, 32]⟩
abbrev S256x32x1 : Shape := ⟨3, ![256, 32, 1]⟩
abbrev S1x4096 : Shape := ⟨2, ![1, 4096]⟩

abbrev nBuf : Space → Nat
  | .hbm => 29
  | .vmem => 26
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S8192x4096, .bf16⟩
  | .hbm, ⟨10, _⟩ => ⟨S4096x4096, .bf16⟩
  | .hbm, ⟨11, _⟩ => ⟨S4096x4096, .bf16⟩
  | .hbm, ⟨12, _⟩ => ⟨S4096x4096, .bf16⟩
  | .hbm, ⟨13, _⟩ => ⟨S4096x4096, .bf16⟩
  | .hbm, ⟨14, _⟩ => ⟨S4096x12288, .bf16⟩
  | .hbm, ⟨15, _⟩ => ⟨S12288, .f32⟩
  | .hbm, ⟨16, _⟩ => ⟨S1x12288, .f32⟩
  | .hbm, ⟨17, _⟩ => ⟨S8192x12288, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .bf16⟩
  | .hbm, ⟨22, _⟩ => ⟨S8192x32x128, .bf16⟩
  | .hbm, ⟨23, _⟩ => ⟨S8192x32x128, .f32⟩
  | .hbm, ⟨24, _⟩ => ⟨S8192x32x128, .f32⟩
  | .hbm, ⟨25, _⟩ => ⟨S8192x32x128, .bf16⟩
  | .hbm, ⟨26, _⟩ => ⟨S8192x4096, .bf16⟩
  | .hbm, ⟨27, _⟩ => ⟨S1x4096, .f32⟩
  | .hbm, ⟨28, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S256x32x128, .bf16⟩
  | .local _ .vmem, ⟨10, _⟩ => ⟨S256x32x128, .bf16⟩
  | .local _ .vmem, ⟨11, _⟩ => ⟨S256x32x128, .f32⟩
  | .local _ .vmem, ⟨12, _⟩ => ⟨S256x32x128, .f32⟩
  | .local _ .vmem, ⟨13, _⟩ => ⟨S256x32x128, .f32⟩
  | .local _ .vmem, ⟨14, _⟩ => ⟨S256x32x128, .f32⟩
  | .local _ .vmem, ⟨15, _⟩ => ⟨S256x32x128, .bf16⟩
  | .local _ .vmem, ⟨16, _⟩ => ⟨S256x32x128, .bf16⟩
  | .local _ .vmem, ⟨17, _⟩ => ⟨S1024x512, .bf16⟩
  | .local _ .vmem, ⟨18, _⟩ => ⟨S1024x512, .bf16⟩
  | .local _ .vmem, ⟨19, _⟩ => ⟨S512x2048, .bf16⟩
  | .local _ .vmem, ⟨20, _⟩ => ⟨S512x2048, .bf16⟩
  | .local _ .vmem, ⟨21, _⟩ => ⟨S1x2048, .f32⟩
  | .local _ .vmem, ⟨22, _⟩ => ⟨S1x2048, .f32⟩
  | .local _ .vmem, ⟨23, _⟩ => ⟨S1024x2048, .f32⟩
  | .local _ .vmem, ⟨24, _⟩ => ⟨S1024x2048, .f32⟩
  | .local _ .vmem, ⟨25, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![8, 6, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x32x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x32x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 2, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  concatenates_S4096x4096_S4096x4096_S4096x4096_S4096x12288_d1 : Shape.Concatenates [S4096x4096, S4096x4096, S4096x4096] S4096x12288 1
  concatenates_S4096_S4096_S4096_S12288_d0 : Shape.Concatenates [S4096, S4096, S4096] S12288 0
  shapeCasts_S12288_S1x12288 : S12288.ShapeCasts S1x12288
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S8192x12288_S8192x4096_0_0 : S8192x12288.Slices ![0, 0] S8192x4096
  slices_S8192x12288_S8192x4096_0_4096 : S8192x12288.Slices ![0, 4096] S8192x4096
  slices_S8192x12288_S8192x4096_0_8192 : S8192x12288.Slices ![0, 8192] S8192x4096
  shapeCasts_S8192x4096_S8192x32x128 : S8192x4096.ShapeCasts S8192x32x128
  inb_S256x32x128_S256x32x128_0_0_0 : ∀ a, (![0, 0, 0] : Fin 3 → Nat) a + S256x32x128.size a ≤ S256x32x128.size a
  h_S256x32x128 : 0 < S256x32x128.numel
  shapeCasts_S256x32x128_S256x32x128 : S256x32x128.ShapeCasts S256x32x128
  reduces_S256x32x32_S256x32 : S256x32x32.Reduces [2] S256x32
  shapeCasts_S256x32_S256x32x1 : S256x32.ShapeCasts S256x32x1
  broadcasts_S256x32x1_S256x32x32 : S256x32x1.Broadcasts S256x32x32
  packedbf16_S256x32x128_S256x32x128_0_0_0 : (Rect.unit (s := S256x32x128) ![0, 0, 0] S256x32x128.size inb_S256x32x128_S256x32x128_0_0_0).PackedRows (EltTy.packing .bf16)
  shapeCasts_S8192x32x128_S8192x4096 : S8192x32x128.ShapeCasts S8192x4096
  shapeCasts_S4096_S1x4096 : S4096.ShapeCasts S1x4096
  dot_S1024x512_S512x2048_S1024x2048_1_0_0_1_n_n_wf : DotDims.WF S1024x512 S512x2048 S1024x2048 [1] [0] [0] [1] [] []
  dot_S256x32x128_S256x32x128_S256x32x32_2_2_1_1_0_0_wf : DotDims.WF S256x32x128 S256x32x128 S256x32x32 [2] [2] [1] [1] [0] [0]
  dot_S256x32x32_S256x32x128_S256x32x128_2_1_1_2_0_0_wf : DotDims.WF S256x32x32 S256x32x128 S256x32x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x12288.size a
  hwx0_1 : ∀ i : grid0.Coords, EltTy.bits .bf16 = 32 ∨ (Rect.block (s := S4096x12288) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x12288.size a
  hwx0_2 : ∀ i : grid0.Coords, EltTy.bits .f32 = 32 ∨ (Rect.block (s := S1x12288) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x12288.size a
  hwx0_3 : ∀ i : grid0.Coords, EltTy.bits .f32 = 32 ∨ (Rect.block (s := S8192x12288) S1024x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32x128.size a ≤ S8192x32x128.size a
  hwx1_0 : ∀ i : grid1.Coords, EltTy.bits .bf16 = 32 ∨ (Rect.block (s := S8192x32x128) S256x32x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x32x128.size a ≤ S8192x32x128.size a
  hwx1_1 : ∀ i : grid1.Coords, EltTy.bits .f32 = 32 ∨ (Rect.block (s := S8192x32x128) S256x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x32x128.size a ≤ S8192x32x128.size a
  hwx1_2 : ∀ i : grid1.Coords, EltTy.bits .f32 = 32 ∨ (Rect.block (s := S8192x32x128) S256x32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x32x128.size a ≤ S8192x32x128.size a
  hwx1_3 : ∀ i : grid1.Coords, EltTy.bits .bf16 = 32 ∨ (Rect.block (s := S8192x32x128) S256x32x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .bf16 = 32 ∨ (Rect.block (s := S8192x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x4096.size a
  hwx2_1 : ∀ i : grid2.Coords, EltTy.bits .bf16 = 32 ∨ (Rect.block (s := S4096x4096) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x4096.size a
  hwx2_2 : ∀ i : grid2.Coords, EltTy.bits .f32 = 32 ∨ (Rect.block (s := S1x4096) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S8192x4096.size a
  hwx2_3 : ∀ i : grid2.Coords, EltTy.bits .f32 = 32 ∨ (Rect.block (s := S8192x4096) S1024x2048.size (cc2_transform_3 i) (hinb2_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S256x32x128_S256x32x128_S256x32x32_2_2_1_1_0_0 : DotDims S256x32x128 S256x32x128 S256x32x32 where
  lhsContracting := [2]
  rhsContracting := [2]
  lhsNonContracting := [1]
  rhsNonContracting := [1]
  lhsBatch := [0]
  rhsBatch := [0]
  wf := dot_S256x32x128_S256x32x128_S256x32x32_2_2_1_1_0_0_wf
def dot_S256x32x32_S256x32x128_S256x32x128_2_1_1_2_0_0 : DotDims S256x32x32 S256x32x128 S256x32x128 where
  lhsContracting := [2]
  rhsContracting := [1]
  lhsNonContracting := [1]
  rhsNonContracting := [2]
  lhsBatch := [0]
  rhsBatch := [0]
  wf := dot_S256x32x32_S256x32x128_S256x32x128_2_1_1_2_0_0_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13) S256x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S256x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S256x32x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S8192x32x128 : Shape := ⟨3, ![8192, 32, 128]⟩
abbrev S8192x32x32 : Shape := ⟨3, ![8192, 32, 32]⟩
abbrev S_ : Shape := ⟨0, ![]⟩
abbrev S8192x32 : Shape := ⟨2, ![8192, 32]⟩
abbrev S8192x32x1 : Shape := ⟨3, ![8192, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x32x128, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x32x128, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x32x128, .f32⟩
  | .hbm, ⟨24, _⟩ => ⟨S8192x32x32, .f32⟩
  | .hbm, ⟨25, _⟩ => ⟨S_, .f32⟩
  | .hbm, ⟨26, _⟩ => ⟨S8192x32x32, .f32⟩
  | .hbm, ⟨27, _⟩ => ⟨S8192x32x32, .f32⟩
  | .hbm, ⟨28, _⟩ => ⟨S_, .f32⟩
  | .hbm, ⟨29, _⟩ => ⟨S8192x32, .f32⟩
  | .hbm, ⟨30, _⟩ => ⟨S_, .f32⟩
  | .hbm, ⟨31, _⟩ => ⟨S8192x32, .f32⟩
  | .hbm, ⟨32, _⟩ => ⟨S8192x32, .f32⟩
  | .hbm, ⟨33, _⟩ => ⟨S8192x32x1, .f32⟩
  | .hbm, ⟨34, _⟩ => ⟨S8192x32x32, .f32⟩
  | .hbm, ⟨35, _⟩ => ⟨S8192x32x32, .f32⟩
  | .hbm, ⟨36, _⟩ => ⟨S8192x32x32, .f32⟩
  | .hbm, ⟨37, _⟩ => ⟨S_, .f32⟩
  | .hbm, ⟨38, _⟩ => ⟨S8192x32, .f32⟩
  | .hbm, ⟨39, _⟩ => ⟨S8192x32x1, .f32⟩
  | .hbm, ⟨40, _⟩ => ⟨S8192x32x32, .f32⟩
  | .hbm, ⟨41, _⟩ => ⟨S8192x32x32, .f32⟩
  | .hbm, ⟨42, _⟩ => ⟨S8192x32x128, .f32⟩
  | .hbm, ⟨43, _⟩ => ⟨S8192x4096, .f32⟩
  | .hbm, ⟨44, _⟩ => ⟨S8192x4096, .f32⟩
  | .hbm, ⟨45, _⟩ => ⟨S1x4096, .f32⟩
  | .hbm, ⟨46, _⟩ => ⟨S8192x4096, .f32⟩
  | .hbm, ⟨47, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  bcast_S_S8192x32x32 : S_.BroadcastsInDim S8192x32x32 (![] : Fin 0 → Fin S8192x32x32.rank)
  reducesTo_S8192x32x32_S8192x32_d2 : S8192x32x32.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x32_0_1_2 : S8192x32x1.BroadcastsInDim S8192x32x32 (![0, 1, 2] : Fin 3 → Fin S8192x32x32.rank)
  shapeCasts_S8192x32x128_S8192x4096 : S8192x32x128.ShapeCasts S8192x4096
  dot_S8192x4096_S4096x4096_S8192x4096_1_0_0_1_n_n_wf : DotDims.WF S8192x4096 S4096x4096 S8192x4096 [1] [0] [0] [1] [] []
  dot_S8192x32x128_S8192x32x128_S8192x32x32_2_2_1_1_0_0_wf : DotDims.WF S8192x32x128 S8192x32x128 S8192x32x32 [2] [2] [1] [1] [0] [0]
  dot_S8192x32x32_S8192x32x128_S8192x32x128_2_1_1_2_0_0_wf : DotDims.WF S8192x32x32 S8192x32x128 S8192x32x128 [2] [1] [1] [2] [0] [0]

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x32x128_S8192x32x128_S8192x32x32_2_2_1_1_0_0 : DotDims S8192x32x128 S8192x32x128 S8192x32x32 where
  lhsContracting := [2]
  rhsContracting := [2]
  lhsNonContracting := [1]
  rhsNonContracting := [1]
  lhsBatch := [0]
  rhsBatch := [0]
  wf := dot_S8192x32x128_S8192x32x128_S8192x32x32_2_2_1_1_0_0_wf
def dot_S8192x32x32_S8192x32x128_S8192x32x128_2_1_1_2_0_0 : DotDims S8192x32x32 S8192x32x128 S8192x32x128 where
  lhsContracting := [2]
  rhsContracting := [1]
  lhsNonContracting := [1]
  rhsNonContracting := [2]
  lhsBatch := [0]
  rhsBatch := [0]
  wf := dot_S8192x32x32_S8192x32x128_S8192x32x128_2_1_1_2_0_0_wf

class Facts : Prop extends Facts₀ where

variable [Facts]
-- ==== Proof.K.Lin0Runs.lean ====
/-
  The first tiled product with bias (the fused projection x·[Wq|Wk|Wv] + [bq|bk|bv]) at ONE grid point, on any whole
  staging memrefs. The grid is (row tile, column tile, contraction block), the contraction block running fastest; a
  point is in one of three cases by its contraction block: the FIRST block zeroes the accumulator and adds its partial
  product; a MIDDLE block adds its partial product to what the block before left; the LAST block does the same and then
  writes accumulator + bias into the output block. For each case the body's run is given as a weakest-precondition
  triple whose store lists (the accumulator's, and in the last case the output block's) are found by running the body.
-/
import proofs.«415280_j32959579030013_3_alg».proof.Proof.Gen.Kernel.Launch
import proofs.«415280_j32959579030013_3_alg».proof.Proof.Gen.Kernel.Skeleton
import proofs.«415280_j32959579030013_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body reads -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile is in its staging buffer at every point: the body never stores into it, and where the pipeline does not
    fetch it anew its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row, which is fetched only when the column tile changes. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Which contraction block a point is on -/

/-- The body's first test: the contraction block is the first one. -/
abbrev first0 (i : grid0.Coords) : Prop := (Scalar.cmpi .ne (Scalar.extui (Scalar.cmpi .eq (BitVec.ofNat 32 (i 2).val) 0#32)) 0#32) = 1#1
/-- It holds exactly at the points whose position is a multiple of 8. -/
theorem first0_iff : ∀ t : Fin cfg0.N, first0 (grid0.coords t) ↔ t.val % 8 = 0 :=
  (by decide +kernel : ∀ t : Fin grid0.N, first0 (grid0.coords t) ↔ t.val % 8 = 0)

/-- The body's second test: the contraction block is the last one. -/
abbrev last0 (i : grid0.Coords) : Prop := k0_cond2 i = 1#1
/-- It holds exactly at the points whose position is 7 modulo 8. -/
theorem last0_iff : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last contraction block nothing is stored into the output block and it is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
/-- On the last contraction block the output block is stored. -/
theorem live0_3 : ∀ t : Fin cfg0.N, last0 (grid0.coords t) → cfg0.idle 3 (grid0.coords t) = false := by decide +kernel

/-! ## The memrefs the pipeline calls the body with -/

abbrev VO0 : View sig .tc .vmem S1024x2048 .f32 := (Memref.whole cc0_stg3_0 : Memref sig .tc .vmem S1024x2048 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM0 : Memref sig .tc .vmem S1024x2048 .f32 := Memref.whole cc0_scratch0
abbrev VA0 : View sig .tc .vmem S1024x2048 .f32 := accM0.view

/-- The other kernels' staging buffers and accumulator, each whole at some contents: scoped buffers this kernel never
    touches, which ride along in the region's invariant. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region's invariant with the accumulator split off as a memref owned at some contents. -/
theorem PhiA0_eq (c : Dev nD) :
    (Pipeline.ΦA spec0 c : sProp 𝕄)
      = iprop(iprop((∃ d, owns (c : Thread nD τ) accM0 fullShare d) ∗ others0 c) ∗ (∃ r, prngReg c r)) := by
  unfold Pipeline.ΦA others0
  rw [Pipeline.scopedRest_eq_of_list spec0 c [cc0_scratch0, cc1_stg0_0, cc1_stg0_1, cc1_stg1_0, cc1_stg1_1, cc1_stg2_0, cc1_stg2_1, cc1_stg3_0, cc1_stg3_1, cc2_stg0_0, cc2_stg0_1, cc2_stg1_0, cc2_stg1_1, cc2_stg2_0, cc2_stg2_1, cc2_stg3_0, cc2_stg3_1, cc2_scratch0] (by decide) (by decide)]
  simp only [accM0, owns_whole]; try rfl

/-! ## The body's run, case by case -/

set_option maxHeartbeats 4000000 in
/-- FIRST contraction block: the accumulator, held at anything, is zeroed and the partial product added; the output block,
    held at `xi3`, is handed back untouched. `LS0` is what the run stores into the accumulator, last store first. -/
noncomputable def runFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A MIDDLE contraction block: the accumulator, held at what the block before left (`xs0`), gets the partial product added;
    the output block is handed back untouched. -/
noncomputable def runMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The LAST contraction block: the partial product is added to the accumulator (held at `xs0`), and accumulator + bias row is
    stored over the whole output block (held at anything). `L3` is what the run stores into the output block. -/
noncomputable def runLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Lin0Frame.lean ====
/-
  The first tiled product with bias over its whole grid: what the accumulator and the output block hold after every point,
  by recursion on the point's position (a first contraction block starts afresh; every other block builds on what the point
  before left in the accumulator), the proof data of the pipeline that follows from it, and the body's obligation at every
  point: the case the point is in decides which run applies.
-/
import proofs.«415280_j32959579030013_3_alg».proof.Proof.Gen.Kernel.Launch
import proofs.«415280_j32959579030013_3_alg».proof.Proof.Gen.Kernel.Skeleton
import proofs.«415280_j32959579030013_3_alg».proof.Proof.Gen.Kernel.Points
import proofs.«415280_j32959579030013_3_alg».proof.Proof.K.Lin0Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block stores nothing into the output block: a placeholder nothing consults (the block is idle there and not written back). -/
def outFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) : Vec F S1024x2048 .f32 :=
  VO0.read (Elt F) (VO0.writes (Elt F) VO0.junk (runFirst0 c i arg3 harg3 arg4 harg4 arg5 harg5 arg6 harg6 arg7 harg7 hc0 hc1 x0 x1 x2).1)

/-- The first block's stores into the accumulator cover it. -/
theorem accCoverFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) (y : S1024x2048.Idx) :
    ∃ pc ∈ (runFirst0 c i arg3 harg3 arg4 harg4 arg5 harg5 arg6 harg6 arg7 harg7 hc0 hc1 x0 x1 x2).2.1, y ∈ pc.1.set :=
  View.cover_of_tiledL (runFirst0 c i arg3 harg3 arg4 harg4 arg5 harg5 arg6 harg6 arg7 harg7 hc0 hc1 x0 x1 x2).2.1 S1024x2048.size (by sl_kernel_rfl) y

/-- What a first block leaves in the accumulator: its stores read back. -/
def accFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) : Vec F S1024x2048 .f32 :=
  VA0.read (Elt F) (VA0.writes (Elt F) VA0.junk (runFirst0 c i arg3 harg3 arg4 harg4 arg5 harg5 arg6 harg6 arg7 harg7 hc0 hc1 x0 x1 x2).2.1)

/-- A middle block stores nothing into the output block either. -/
def outMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) : Vec F S1024x2048 .f32 :=
  VO0.read (Elt F) (VO0.writes (Elt F) VO0.junk (runMid0 c i arg3 harg3 arg4 harg4 arg5 harg5 arg6 harg6 arg7 harg7 hc0 hc1 x0 x1 x2 xs0).1)

/-- A middle block's store into the accumulator covers it. -/
theorem accCoverMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) (y : S1024x2048.Idx) :
    ∃ pc ∈ (runMid0 c i arg3 harg3 arg4 harg4 arg5 harg5 arg6 harg6 arg7 harg7 hc0 hc1 x0 x1 x2 xs0).2.1, y ∈ pc.1.set :=
  View.cover_of_tiledL (runMid0 c i arg3 harg3 arg4 harg4 arg5 harg5 arg6 harg6 arg7 harg7 hc0 hc1 x0 x1 x2 xs0).2.1 S1024x2048.size (by sl_kernel_rfl) y

/-- What a middle block leaves in the accumulator. -/
def accMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) : Vec F S1024x2048 .f32 :=
  VA0.read (Elt F) (VA0.writes (Elt F) VA0.junk (runMid0 c i arg3 harg3 arg4 harg4 arg5 harg5 arg6 harg6 arg7 harg7 hc0 hc1 x0 x1 x2 xs0).2.1)

/-- The last block's store into the output block covers it. -/
theorem outCoverLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) (y : S1024x2048.Idx) :
    ∃ pc ∈ (runLast0 c i arg3 harg3 arg4 harg4 arg5 harg5 arg6 harg6 arg7 harg7 hc0 hc1 x0 x1 x2 xs0).1, y ∈ pc.1.set :=
  View.cover_of_tiledL (runLast0 c i arg3 harg3 arg4 harg4 arg5 harg5 arg6 harg6 arg7 harg7 hc0 hc1 x0 x1 x2 xs0).1 S1024x2048.size (by sl_kernel_rfl) y

/-- What the last block leaves in the output block. -/
def outLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) : Vec F S1024x2048 .f32 :=
  VO0.read (Elt F) (VO0.writes (Elt F) VO0.junk (runLast0 c i arg3 harg3 arg4 harg4 arg5 harg5 arg6 harg6 arg7 harg7 hc0 hc1 x0 x1 x2 xs0).1)

/-- The last block's store into the accumulator covers it. -/
theorem accCoverLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) (y : S1024x2048.Idx) :
    ∃ pc ∈ (runLast0 c i arg3 harg3 arg4 harg4 arg5 harg5 arg6 harg6 arg7 harg7 hc0 hc1 x0 x1 x2 xs0).2.1, y ∈ pc.1.set :=
  View.cover_of_tiledL (runLast0 c i arg3 harg3 arg4 harg4 arg5 harg5 arg6 harg6 arg7 harg7 hc0 hc1 x0 x1 x2 xs0).2.1 S1024x2048.size (by sl_kernel_rfl) y

/-- What the last block leaves in the accumulator. -/
def accLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) : Vec F S1024x2048 .f32 :=
  VA0.read (Elt F) (VA0.writes (Elt F) VA0.junk (runLast0 c i arg3 harg3 arg4 harg4 arg5 harg5 arg6 harg6 arg7 harg7 hc0 hc1 x0 x1 x2 xs0).2.1)

/-! ## Point by point -/

/-- What the output block's staging buffer and the accumulator hold after the body at position `n` (a pair: output block,
    accumulator). A first block depends on nothing before it; the others on the accumulator the point before left. No
    position is both first and last. -/
def outsAt0 (c : Dev nD) : (n : ℕ) → n < cfg0.N → Vec F S1024x2048 .f32 × Vec F S1024x2048 .f32
  | 0, hn => (outFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩), accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (outFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩), accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (outLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first block. -/
theorem outsAt0_first (c : Dev nD) (t : Fin cfg0.N) (h0 : t.val % 8 = 0) (h1 : ¬t.val % 8 = 7) :
    outsAt0 V c t.val t.isLt = (outFirst0 c (grid0.coords t) (ms0_0 t) (hs0_0 t) (ms0_1 t) (hs0_1 t) (ms0_2 t) (hs0_2 t) (ms0_3 t) (hs0_3 t) accM0 (Memref.isWhole_whole _) ((first0_iff t).mpr h0) (fun h => h1 ((last0_iff t).mp h)) (iblk0 V c 0 t) (iblk0 V c 1 t) (iblk0 V c 2 t), accFirst0 c (grid0.coords t) (ms0_0 t) (hs0_0 t) (ms0_1 t) (hs0_1 t) (ms0_2 t) (hs0_2 t) (ms0_3 t) (hs0_3 t) accM0 (Memref.isWhole_whole _) ((first0_iff t).mpr h0) (fun h => h1 ((last0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle block: over what the point before left in the accumulator. -/
theorem outsAt0_mid (c : Dev nD) (t : Fin cfg0.N) (h0 : ¬t.val % 8 = 0) (h1 : ¬t.val % 8 = 7) :
    outsAt0 V c t.val t.isLt = (outMid0 c (grid0.coords t) (ms0_0 t) (hs0_0 t) (ms0_1 t) (hs0_1 t) (ms0_2 t) (hs0_2 t) (ms0_3 t) (hs0_3 t) accM0 (Memref.isWhole_whole _) (fun h => h0 ((first0_iff t).mp h)) (fun h => h1 ((last0_iff t).mp h)) (iblk0 V c 0 t) (iblk0 V c 1 t) (iblk0 V c 2 t) (outsAt0 V c (t.val - 1) (Nat.lt_of_le_of_lt (Nat.sub_le _ _) t.isLt)).2, accMid0 c (grid0.coords t) (ms0_0 t) (hs0_0 t) (ms0_1 t) (hs0_1 t) (ms0_2 t) (hs0_2 t) (ms0_3 t) (hs0_3 t) accM0 (Memref.isWhole_whole _) (fun h => h0 ((first0_iff t).mp h)) (fun h => h1 ((last0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last block: over what the point before left in the accumulator. -/
theorem outsAt0_last (c : Dev nD) (t : Fin cfg0.N) (h0 : ¬t.val % 8 = 0) (h1 : t.val % 8 = 7) :
    outsAt0 V c t.val t.isLt = (outLast0 c (grid0.coords t) (ms0_0 t) (hs0_0 t) (ms0_1 t) (hs0_1 t) (ms0_2 t) (hs0_2 t) (ms0_3 t) (hs0_3 t) accM0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2, accLast0 c (grid0.coords t) (ms0_0 t) (hs0_0 t) (ms0_1 t) (hs0_1 t) (ms0_2 t) (hs0_2 t) (ms0_3 t) (hs0_3 t) accM0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything; the generator register at some state. -/
def PhiS0 (c : Dev nD) : (n : ℕ) → n ≤ cfg0.N → sProp 𝕄
  | 0, _ => Pipeline.ΦA spec0 c
  | n + 1, hn => iprop(iprop(owns (c : Thread nD τ) accM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) accM0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body at point `t` each input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]

set_option maxHeartbeats 4800000 in
/-- The body at any point. The inputs' memrefs hold their blocks; the position modulo 8 says which case the point is in; the
    invariant hands the body the accumulator (at anything before the very first point, else at what the point before left) and
    takes it back at this point's contents; off the last block the output block is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 384 := lt_of_lt_of_eq t.isLt (show cfg0.N = 384 from N_0)
  by_cases h0 : t.val % 8 = 0
  · have h1 : ¬t.val % 8 = 7 := by omega
    rw [Dat.leavesExact_idle (dat0 V c) 3 t (idle0_3 t (fun h => h1 ((last0_iff t).mp h))) (noFlush0_3 t (fun h => h1 ((last0_iff t).mp h)))]
    rw [outsAt0_first V c t h0 h1]
    unfold accFirst0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [live0_3 t ((last0_iff t).mpr h1)], after0_3]
      rw [outsAt0_last V c t h0 h1]
      unfold outLast0 accLast0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((first0_iff t).mp h)) ((last0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverLast0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast0 c _ _ _ _ _ _ _ _ _ _ _ _ _ _ _ _ _)
    · rw [Dat.leavesExact_idle (dat0 V c) 3 t (idle0_3 t (fun h => h1 ((last0_iff t).mp h))) (noFlush0_3 t (fun h => h1 ((last0_iff t).mp h)))]
      rw [outsAt0_mid V c t h0 h1]
      unfold accMid0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((first0_iff t).mp h)) (fun h => h1 ((last0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverMid0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 384 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.Kernel.Hand

end
-- ==== Proof.K.Attn.lean ====
/-
  The per-token attention kernel at one grid point and over its grid. A point handles 256 consecutive tokens: it loads
  their query, key and value heads whole, computes the attention output as ONE pure function of the three blocks, and stores
  it over the whole output block. Nothing is kept between points, so the proof data is immediate: after the body each
  input's buffer holds its block and the output's holds that function of the three input blocks.
-/
import proofs.«415280_j32959579030013_3_alg».proof.Proof.Gen.Kernel.Launch
import proofs.«415280_j32959579030013_3_alg».proof.Proof.Gen.Kernel.Skeleton
import proofs.«415280_j32959579030013_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body reads -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point: the body never stores into it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole block. -/
abbrev rAll1 : Rect S256x32x128 := Rect.unit (s := S256x32x128) ![0, 0, 0] S256x32x128.size inb_S256x32x128_S256x32x128_0_0_0

/-- The output block after the body: its one store, of the attention of the three loaded blocks. -/
def out1_3 (x0 : Vec F S256x32x128 .bf16) (x1 : Vec F S256x32x128 .f32) (x2 : Vec F S256x32x128 .f32) : Vec F S256x32x128 .bf16 :=
  View.canon [⟨rAll1, k1_pay1 (View.ld x0 rAll1) (View.ld x1 rAll1) (View.ld x2 rAll1)⟩]

/-- That one store covers the block. -/
theorem cover1_3 (p0 : Vec F S256x32x128 .bf16) (y : S256x32x128.Idx) :
    ∃ pc ∈ ([⟨rAll1, p0⟩] : List (View.Piece (Elt F) S256x32x128 .bf16)), y ∈ pc.1.set :=
  View.cover_of_tiled [⟨rAll1, p0⟩] S256x32x128.size (by rfl) y

/-! ## The body's run -/

set_option maxHeartbeats 4000000 in
/-- On whole staging memrefs, the inputs' at contents `x0 x1 x2` and the output's at anything, the body runs to the
    continuation holding the inputs' as they were and the output's at `out1_3` of them. -/
theorem sound_kernel1 (c : Dev nD) (E : Set ℕ) (i : grid1.Coords) (arg1 : Memref sig .tc .vmem S256x32x128 .bf16) (harg1 : arg1.IsWhole) (arg2 : Memref sig .tc .vmem S256x32x128 .f32) (harg2 : arg2.IsWhole) (arg3 : Memref sig .tc .vmem S256x32x128 .f32) (harg3 : arg3.IsWhole) (arg4 : Memref sig .tc .vmem S256x32x128 .bf16) (harg4 : arg4.IsWhole)
    (x0 : Vec F S256x32x128 .bf16) (x1 : Vec F S256x32x128 .f32) (x2 : Vec F S256x32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body each input's buffer at its block and the output's at `out1_3` of
    the three input blocks; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Lin2Runs.lean ====
/-
  The second tiled product with bias (the output projection a·Wo + bo) at ONE grid point, on any whole
  staging memrefs. The grid is (row tile, column tile, contraction block), the contraction block running fastest; a
  point is in one of three cases by its contraction block: the FIRST block zeroes the accumulator and adds its partial
  product; a MIDDLE block adds its partial product to what the block before left; the LAST block does the same and then
  writes accumulator + bias into the output block. For each case the body's run is given as a weakest-precondition
  triple whose store lists (the accumulator's, and in the last case the output block's) are found by running the body.
-/
import proofs.«415280_j32959579030013_3_alg».proof.Proof.Gen.Kernel.Launch
import proofs.«415280_j32959579030013_3_alg».proof.Proof.Gen.Kernel.Skeleton
import proofs.«415280_j32959579030013_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body reads -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x tile is in its staging buffer at every point: the body never stores into it, and where the pipeline does not
    fetch it anew its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weight tile. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row, which is fetched only when the column tile changes. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Which contraction block a point is on -/

/-- The body's first test: the contraction block is the first one. -/
abbrev first2 (i : grid2.Coords) : Prop := (Scalar.cmpi .ne (Scalar.extui (Scalar.cmpi .eq (BitVec.ofNat 32 (i 2).val) 0#32)) 0#32) = 1#1
/-- It holds exactly at the points whose position is a multiple of 8. -/
theorem first2_iff : ∀ t : Fin cfg2.N, first2 (grid2.coords t) ↔ t.val % 8 = 0 :=
  (by decide +kernel : ∀ t : Fin grid2.N, first2 (grid2.coords t) ↔ t.val % 8 = 0)

/-- The body's second test: the contraction block is the last one. -/
abbrev last2 (i : grid2.Coords) : Prop := k2_cond2 i = 1#1
/-- It holds exactly at the points whose position is 7 modulo 8. -/
theorem last2_iff : ∀ t : Fin cfg2.N, last2 (grid2.coords t) ↔ t.val % 8 = 7 :=
  (by decide +kernel : ∀ t : Fin grid2.N, last2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Off the last contraction block nothing is stored into the output block and it is not written back. -/
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
/-- On the last contraction block the output block is stored. -/
theorem live2_3 : ∀ t : Fin cfg2.N, last2 (grid2.coords t) → cfg2.idle 3 (grid2.coords t) = false := by decide +kernel

/-! ## The memrefs the pipeline calls the body with -/

abbrev VO2 : View sig .tc .vmem S1024x2048 .f32 := (Memref.whole cc2_stg3_0 : Memref sig .tc .vmem S1024x2048 .f32).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev accM2 : Memref sig .tc .vmem S1024x2048 .f32 := Memref.whole cc2_scratch0
abbrev VA2 : View sig .tc .vmem S1024x2048 .f32 := accM2.view

/-- The other kernels' staging buffers and accumulator, each whole at some contents: scoped buffers this kernel never
    touches, which ride along in the region's invariant. -/
def others2 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant with the accumulator split off as a memref owned at some contents. -/
theorem PhiA2_eq (c : Dev nD) :
    (Pipeline.ΦA spec2 c : sProp 𝕄)
      = iprop(iprop((∃ d, owns (c : Thread nD τ) accM2 fullShare d) ∗ others2 c) ∗ (∃ r, prngReg c r)) := by
  unfold Pipeline.ΦA others2
  rw [Pipeline.scopedRest_eq_of_list spec2 c [cc2_scratch0, cc1_stg0_0, cc1_stg0_1, cc1_stg1_0, cc1_stg1_1, cc1_stg2_0, cc1_stg2_1, cc1_stg3_0, cc1_stg3_1, cc0_stg0_0, cc0_stg0_1, cc0_stg1_0, cc0_stg1_1, cc0_stg2_0, cc0_stg2_1, cc0_stg3_0, cc0_stg3_1, cc0_scratch0] (by decide) (by decide)]
  simp only [accM2, owns_whole]; try rfl

/-! ## The body's run, case by case -/

set_option maxHeartbeats 4000000 in
/-- FIRST contraction block: the accumulator, held at anything, is zeroed and the partial product added; the output block,
    held at `xi3`, is handed back untouched. `LS0` is what the run stores into the accumulator, last store first. -/
noncomputable def runFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A MIDDLE contraction block: the accumulator, held at what the block before left (`xs0`), gets the partial product added;
    the output block is handed back untouched. -/
noncomputable def runMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The LAST contraction block: the partial product is added to the accumulator (held at `xs0`), and accumulator + bias row is
    stored over the whole output block (held at anything). `L3` is what the run stores into the output block. -/
noncomputable def runLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Lin2Frame.lean ====
/-
  The second tiled product with bias over its whole grid: what the accumulator and the output block hold after every point,
  by recursion on the point's position (a first contraction block starts afresh; every other block builds on what the point
  before left in the accumulator), the proof data of the pipeline that follows from it, and the body's obligation at every
  point: the case the point is in decides which run applies.
-/
import proofs.«415280_j32959579030013_3_alg».proof.Proof.Gen.Kernel.Launch
import proofs.«415280_j32959579030013_3_alg».proof.Proof.Gen.Kernel.Skeleton
import proofs.«415280_j32959579030013_3_alg».proof.Proof.Gen.Kernel.Points
import proofs.«415280_j32959579030013_3_alg».proof.Proof.K.Lin2Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block stores nothing into the output block: a placeholder nothing consults (the block is idle there and not written back). -/
def outFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) : Vec F S1024x2048 .f32 :=
  VO2.read (Elt F) (VO2.writes (Elt F) VO2.junk (runFirst2 c i arg3 harg3 arg4 harg4 arg5 harg5 arg6 harg6 arg7 harg7 hc0 hc1 x0 x1 x2).1)

/-- The first block's stores into the accumulator cover it. -/
theorem accCoverFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) (y : S1024x2048.Idx) :
    ∃ pc ∈ (runFirst2 c i arg3 harg3 arg4 harg4 arg5 harg5 arg6 harg6 arg7 harg7 hc0 hc1 x0 x1 x2).2.1, y ∈ pc.1.set :=
  View.cover_of_tiledL (runFirst2 c i arg3 harg3 arg4 harg4 arg5 harg5 arg6 harg6 arg7 harg7 hc0 hc1 x0 x1 x2).2.1 S1024x2048.size (by sl_kernel_rfl) y

/-- What a first block leaves in the accumulator: its stores read back. -/
def accFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) : Vec F S1024x2048 .f32 :=
  VA2.read (Elt F) (VA2.writes (Elt F) VA2.junk (runFirst2 c i arg3 harg3 arg4 harg4 arg5 harg5 arg6 harg6 arg7 harg7 hc0 hc1 x0 x1 x2).2.1)

/-- A middle block stores nothing into the output block either. -/
def outMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) : Vec F S1024x2048 .f32 :=
  VO2.read (Elt F) (VO2.writes (Elt F) VO2.junk (runMid2 c i arg3 harg3 arg4 harg4 arg5 harg5 arg6 harg6 arg7 harg7 hc0 hc1 x0 x1 x2 xs0).1)

/-- A middle block's store into the accumulator covers it. -/
theorem accCoverMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) (y : S1024x2048.Idx) :
    ∃ pc ∈ (runMid2 c i arg3 harg3 arg4 harg4 arg5 harg5 arg6 harg6 arg7 harg7 hc0 hc1 x0 x1 x2 xs0).2.1, y ∈ pc.1.set :=
  View.cover_of_tiledL (runMid2 c i arg3 harg3 arg4 harg4 arg5 harg5 arg6 harg6 arg7 harg7 hc0 hc1 x0 x1 x2 xs0).2.1 S1024x2048.size (by sl_kernel_rfl) y

/-- What a middle block leaves in the accumulator. -/
def accMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) : Vec F S1024x2048 .f32 :=
  VA2.read (Elt F) (VA2.writes (Elt F) VA2.junk (runMid2 c i arg3 harg3 arg4 harg4 arg5 harg5 arg6 harg6 arg7 harg7 hc0 hc1 x0 x1 x2 xs0).2.1)

/-- The last block's store into the output block covers it. -/
theorem outCoverLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) (y : S1024x2048.Idx) :
    ∃ pc ∈ (runLast2 c i arg3 harg3 arg4 harg4 arg5 harg5 arg6 harg6 arg7 harg7 hc0 hc1 x0 x1 x2 xs0).1, y ∈ pc.1.set :=
  View.cover_of_tiledL (runLast2 c i arg3 harg3 arg4 harg4 arg5 harg5 arg6 harg6 arg7 harg7 hc0 hc1 x0 x1 x2 xs0).1 S1024x2048.size (by sl_kernel_rfl) y

/-- What the last block leaves in the output block. -/
def outLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) : Vec F S1024x2048 .f32 :=
  VO2.read (Elt F) (VO2.writes (Elt F) VO2.junk (runLast2 c i arg3 harg3 arg4 harg4 arg5 harg5 arg6 harg6 arg7 harg7 hc0 hc1 x0 x1 x2 xs0).1)

/-- The last block's store into the accumulator covers it. -/
theorem accCoverLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) (y : S1024x2048.Idx) :
    ∃ pc ∈ (runLast2 c i arg3 harg3 arg4 harg4 arg5 harg5 arg6 harg6 arg7 harg7 hc0 hc1 x0 x1 x2 xs0).2.1, y ∈ pc.1.set :=
  View.cover_of_tiledL (runLast2 c i arg3 harg3 arg4 harg4 arg5 harg5 arg6 harg6 arg7 harg7 hc0 hc1 x0 x1 x2 xs0).2.1 S1024x2048.size (by sl_kernel_rfl) y

/-- What the last block leaves in the accumulator. -/
def accLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) : Vec F S1024x2048 .f32 :=
  VA2.read (Elt F) (VA2.writes (Elt F) VA2.junk (runLast2 c i arg3 harg3 arg4 harg4 arg5 harg5 arg6 harg6 arg7 harg7 hc0 hc1 x0 x1 x2 xs0).2.1)

/-! ## Point by point -/

/-- What the output block's staging buffer and the accumulator hold after the body at position `n` (a pair: output block,
    accumulator). A first block depends on nothing before it; the others on the accumulator the point before left. No
    position is both first and last. -/
def outsAt2 (c : Dev nD) : (n : ℕ) → n < cfg2.N → Vec F S1024x2048 .f32 × Vec F S1024x2048 .f32
  | 0, hn => (outFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((first2_iff ⟨0, hn⟩).mpr (Nat.zero_mod _)) (fun h => (fun h => by (try dsimp only at h); omega) ((last2_iff ⟨0, hn⟩).mp h)) (iblk2 V c 0 ⟨0, hn⟩) (iblk2 V c 1 ⟨0, hn⟩) (iblk2 V c 2 ⟨0, hn⟩), accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((first2_iff ⟨0, hn⟩).mpr (Nat.zero_mod _)) (fun h => (fun h => by (try dsimp only at h); omega) ((last2_iff ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (outFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((first2_iff ⟨n + 1, hn⟩).mpr h0) (fun h => h1 ((last2_iff ⟨n + 1, hn⟩).mp h)) (iblk2 V c 0 ⟨n + 1, hn⟩) (iblk2 V c 1 ⟨n + 1, hn⟩) (iblk2 V c 2 ⟨n + 1, hn⟩), accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((first2_iff ⟨n + 1, hn⟩).mpr h0) (fun h => h1 ((last2_iff ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (outLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) ((last2_iff ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) ((last2_iff ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (outMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) (fun h => h1 ((last2_iff ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) (fun h => h1 ((last2_iff ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a first block. -/
theorem outsAt2_first (c : Dev nD) (t : Fin cfg2.N) (h0 : t.val % 8 = 0) (h1 : ¬t.val % 8 = 7) :
    outsAt2 V c t.val t.isLt = (outFirst2 c (grid2.coords t) (ms2_0 t) (hs2_0 t) (ms2_1 t) (hs2_1 t) (ms2_2 t) (hs2_2 t) (ms2_3 t) (hs2_3 t) accM2 (Memref.isWhole_whole _) ((first2_iff t).mpr h0) (fun h => h1 ((last2_iff t).mp h)) (iblk2 V c 0 t) (iblk2 V c 1 t) (iblk2 V c 2 t), accFirst2 c (grid2.coords t) (ms2_0 t) (hs2_0 t) (ms2_1 t) (hs2_1 t) (ms2_2 t) (hs2_2 t) (ms2_3 t) (hs2_3 t) accM2 (Memref.isWhole_whole _) ((first2_iff t).mpr h0) (fun h => h1 ((last2_iff t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a middle block: over what the point before left in the accumulator. -/
theorem outsAt2_mid (c : Dev nD) (t : Fin cfg2.N) (h0 : ¬t.val % 8 = 0) (h1 : ¬t.val % 8 = 7) :
    outsAt2 V c t.val t.isLt = (outMid2 c (grid2.coords t) (ms2_0 t) (hs2_0 t) (ms2_1 t) (hs2_1 t) (ms2_2 t) (hs2_2 t) (ms2_3 t) (hs2_3 t) accM2 (Memref.isWhole_whole _) (fun h => h0 ((first2_iff t).mp h)) (fun h => h1 ((last2_iff t).mp h)) (iblk2 V c 0 t) (iblk2 V c 1 t) (iblk2 V c 2 t) (outsAt2 V c (t.val - 1) (Nat.lt_of_le_of_lt (Nat.sub_le _ _) t.isLt)).2, accMid2 c (grid2.coords t) (ms2_0 t) (hs2_0 t) (ms2_1 t) (hs2_1 t) (ms2_2 t) (hs2_2 t) (ms2_3 t) (hs2_3 t) accM2 (Memref.isWhole_whole _) (fun h => h0 ((first2_iff t).mp h)) (fun h => h1 ((last2_iff t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last block: over what the point before left in the accumulator. -/
theorem outsAt2_last (c : Dev nD) (t : Fin cfg2.N) (h0 : ¬t.val % 8 = 0) (h1 : t.val % 8 = 7) :
    outsAt2 V c t.val t.isLt = (outLast2 c (grid2.coords t) (ms2_0 t) (hs2_0 t) (ms2_1 t) (hs2_1 t) (ms2_2 t) (hs2_2 t) (ms2_3 t) (hs2_3 t) accM2 (Memref.isWhole_whole _) (fun h => h0 ((first2_iff t).mp h)) ((last2_iff t).mpr h1) (iblk2 V c 0 t) (iblk2 V c 1 t) (iblk2 V c 2 t) (outsAt2 V c (t.val - 1) (Nat.lt_of_le_of_lt (Nat.sub_le _ _) t.isLt)).2, accLast2 c (grid2.coords t) (ms2_0 t) (hs2_0 t) (ms2_1 t) (hs2_1 t) (ms2_2 t) (hs2_2 t) (ms2_3 t) (hs2_3 t) accM2 (Memref.isWhole_whole _) (fun h => h0 ((first2_iff t).mp h)) ((last2_iff t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything; the generator register at some state. -/
def PhiS2 (c : Dev nD) : (n : ℕ) → n ≤ cfg2.N → sProp 𝕄
  | 0, _ => Pipeline.ΦA spec2 c
  | n + 1, hn => iprop(iprop(owns (c : Thread nD τ) accM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) accM2 fullShare ((outsAt2 V c n hn).2) ∗ others2 c) ∗ (∃ r, prngReg c r)) := rfl

theorem PhiS2_pos (c : Dev nD) (n : ℕ) (h : n ≤ cfg2.N) (hz : n ≠ 0) :
    PhiS2 V c n h = iprop(iprop(owns (c : Thread nD τ) accM2 fullShare ((outsAt2 V c (n - 1) (by omega)).2) ∗ others2 c) ∗ (∃ r, prngReg c r)) := by
  cases n with
  | zero => exact absurd rfl hz
  | succ n => rfl

/-! ## The pipeline's proof data -/

/-- The arrays as the region finds them; after the body at point `t` each input's buffer at its block and the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [live2_0 t, after2_0]
theorem leaves2_1 (c : Dev nD) (t : Fin cfg2.N) : (dat2 V c).leavesExact 1 t = owns (c : Thread nD τ) (ms2_1 t) fullShare (iblk2 V c 1 t) := by
  unfold Dat.leavesExact; rw [live2_1 t, after2_1]
theorem leaves2_2 (c : Dev nD) (t : Fin cfg2.N) : (dat2 V c).leavesExact 2 t = owns (c : Thread nD τ) (ms2_2 t) fullShare (iblk2 V c 2 t) := by
  unfold Dat.leavesExact; rw [live2_2 t, after2_2]

set_option maxHeartbeats 4800000 in
/-- The body at any point. The inputs' memrefs hold their blocks; the position modulo 8 says which case the point is in; the
    invariant hands the body the accumulator (at anything before the very first point, else at what the point before left) and
    takes it back at this point's contents; off the last block the output block is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 128 := lt_of_lt_of_eq t.isLt (show cfg2.N = 128 from N_2)
  by_cases h0 : t.val % 8 = 0
  · have h1 : ¬t.val % 8 = 7 := by omega
    rw [Dat.leavesExact_idle (dat2 V c) 3 t (idle2_3 t (fun h => h1 ((last2_iff t).mp h))) (noFlush2_3 t (fun h => h1 ((last2_iff t).mp h)))]
    rw [outsAt2_first V c t h0 h1]
    unfold accFirst2; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩⟩
      iapply ((runFirst2 c (grid2.coords t) _ _ _ _ _ _ _ _ _ _ ((first2_iff t).mpr h0) (fun h => h1 ((last2_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst2 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((runFirst2 c (grid2.coords t) _ _ _ _ _ _ _ _ _ _ ((first2_iff t).mpr h0) (fun h => h1 ((last2_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst2 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat2 V c).leavesExact 3 t = owns (c : Thread nD τ) (ms2_3 t) fullShare ((dat2 V c).after 3 t) from by
        unfold Dat.leavesExact; rw [live2_3 t ((last2_iff t).mpr h1)], after2_3]
      rw [outsAt2_last V c t h0 h1]
      unfold outLast2 accLast2; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((runLast2 c (grid2.coords t) _ _ _ _ _ _ _ _ _ _ (fun h => h0 ((first2_iff t).mp h)) ((last2_iff t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverLast2 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast2 c _ _ _ _ _ _ _ _ _ _ _ _ _ _ _ _ _)
    · rw [Dat.leavesExact_idle (dat2 V c) 3 t (idle2_3 t (fun h => h1 ((last2_iff t).mp h))) (noFlush2_3 t (fun h => h1 ((last2_iff t).mp h)))]
      rw [outsAt2_mid V c t h0 h1]
      unfold accMid2; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((runMid2 c (grid2.coords t) _ _ _ _ _ _ _ _ _ _ (fun h => h0 ((first2_iff t).mp h)) (fun h => h1 ((last2_iff t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverMid2 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

end Cert.Kernel.Hand

end
-- ==== Proof.K.Run.lean ====
/-
  The whole program: three host stretches and three kernel regions, in order. Between two items every unscoped buffer of
  the core is held at known contents — the launch memory, then each host stretch applied, then each region's arrays at
  what its pipeline leaves — so the run ends with every unscoped buffer at the last of these valuations; the argument
  arrays are written by no item and read back as launched.
-/
import proofs.«415280_j32959579030013_3_alg».proof.Proof.K.Lin0Frame
import proofs.«415280_j32959579030013_3_alg».proof.Proof.K.Attn
import proofs.«415280_j32959579030013_3_alg».proof.Proof.K.Lin2Frame
import proofs.«415280_j32959579030013_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the first host stretch (the casts, the two concatenations, the bias reshaped to a row). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves (each input as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the three column slices, the cast, the three reshapes into heads). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves (each input as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (the heads flattened, the output bias reshaped to a row). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves (each input as entered, the output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What a host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## No item writes an argument -/

theorem W6_main_arg0 (c : Dev nD) : W6 m c (Proc.devRef .tc main_arg0) = m ((c : Thread nD τ).loc main_arg0) :=
  (W6_of_ne m c main_arg0 (by decide)).trans <| (W5_of m c main_arg0 (by decide)).trans <| (W4_of_ne m c main_arg0 (by decide)).trans <|
    (W3_of m c main_arg0 (by decide)).trans <| (W2_of_ne m c main_arg0 (by decide)).trans <| (W1_of m c main_arg0 (by decide)).trans rfl
theorem W6_main_arg1 (c : Dev nD) : W6 m c (Proc.devRef .tc main_arg1) = m ((c : Thread nD τ).loc main_arg1) :=
  (W6_of_ne m c main_arg1 (by decide)).trans <| (W5_of m c main_arg1 (by decide)).trans <| (W4_of_ne m c main_arg1 (by decide)).trans <|
    (W3_of m c main_arg1 (by decide)).trans <| (W2_of_ne m c main_arg1 (by decide)).trans <| (W1_of m c main_arg1 (by decide)).trans rfl
theorem W6_main_arg2 (c : Dev nD) : W6 m c (Proc.devRef .tc main_arg2) = m ((c : Thread nD τ).loc main_arg2) :=
  (W6_of_ne m c main_arg2 (by decide)).trans <| (W5_of m c main_arg2 (by decide)).trans <| (W4_of_ne m c main_arg2 (by decide)).trans <|
    (W3_of m c main_arg2 (by decide)).trans <| (W2_of_ne m c main_arg2 (by decide)).trans <| (W1_of m c main_arg2 (by decide)).trans rfl
theorem W6_main_arg3 (c : Dev nD) : W6 m c (Proc.devRef .tc main_arg3) = m ((c : Thread nD τ).loc main_arg3) :=
  (W6_of_ne m c main_arg3 (by decide)).trans <| (W5_of m c main_arg3 (by decide)).trans <| (W4_of_ne m c main_arg3 (by decide)).trans <|
    (W3_of m c main_arg3 (by decide)).trans <| (W2_of_ne m c main_arg3 (by decide)).trans <| (W1_of m c main_arg3 (by decide)).trans rfl
theorem W6_main_arg4 (c : Dev nD) : W6 m c (Proc.devRef .tc main_arg4) = m ((c : Thread nD τ).loc main_arg4) :=
  (W6_of_ne m c main_arg4 (by decide)).trans <| (W5_of m c main_arg4 (by decide)).trans <| (W4_of_ne m c main_arg4 (by decide)).trans <|
    (W3_of m c main_arg4 (by decide)).trans <| (W2_of_ne m c main_arg4 (by decide)).trans <| (W1_of m c main_arg4 (by decide)).trans rfl
theorem W6_main_arg5 (c : Dev nD) : W6 m c (Proc.devRef .tc main_arg5) = m ((c : Thread nD τ).loc main_arg5) :=
  (W6_of_ne m c main_arg5 (by decide)).trans <| (W5_of m c main_arg5 (by decide)).trans <| (W4_of_ne m c main_arg5 (by decide)).trans <|
    (W3_of m c main_arg5 (by decide)).trans <| (W2_of_ne m c main_arg5 (by decide)).trans <| (W1_of m c main_arg5 (by decide)).trans rfl
theorem W6_main_arg6 (c : Dev nD) : W6 m c (Proc.devRef .tc main_arg6) = m ((c : Thread nD τ).loc main_arg6) :=
  (W6_of_ne m c main_arg6 (by decide)).trans <| (W5_of m c main_arg6 (by decide)).trans <| (W4_of_ne m c main_arg6 (by decide)).trans <|
    (W3_of m c main_arg6 (by decide)).trans <| (W2_of_ne m c main_arg6 (by decide)).trans <| (W1_of m c main_arg6 (by decide)).trans rfl
theorem W6_main_arg7 (c : Dev nD) : W6 m c (Proc.devRef .tc main_arg7) = m ((c : Thread nD τ).loc main_arg7) :=
  (W6_of_ne m c main_arg7 (by decide)).trans <| (W5_of m c main_arg7 (by decide)).trans <| (W4_of_ne m c main_arg7 (by decide)).trans <|
    (W3_of m c main_arg7 (by decide)).trans <| (W2_of_ne m c main_arg7 (by decide)).trans <| (W1_of m c main_arg7 (by decide)).trans rfl
theorem W6_main_arg8 (c : Dev nD) : W6 m c (Proc.devRef .tc main_arg8) = m ((c : Thread nD τ).loc main_arg8) :=
  (W6_of_ne m c main_arg8 (by decide)).trans <| (W5_of m c main_arg8 (by decide)).trans <| (W4_of_ne m c main_arg8 (by decide)).trans <|
    (W3_of m c main_arg8 (by decide)).trans <| (W2_of_ne m c main_arg8 (by decide)).trans <| (W1_of m c main_arg8 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at `W6`, the generator register at some state. -/
abbrev Tₙ (c : Dev nD) : sProp 𝕄 := iprop(StableHlo.held (c : Thread nD τ) (Pipeline.ucRefs τ sig) (W6 m c) ∗ ∃ r, prngReg c r)

/-- The attention kernel keeps the launch's invariant at every point. -/
theorem hin1 (V : (c : Dev nD) → (b : Ref sig .tc) → Buf (Elt F) ((c : Thread nD τ).loc b)) (c : Dev nD) :
    (Pipeline.ΦA spec1 c : sProp 𝕄) ⊢ (dat1 V c).Φ 0 := Idealize.SL.BI.Entails.refl _
theorem hout1 (V : (c : Dev nD) → (b : Ref sig .tc) → Buf (Elt F) ((c : Thread nD τ).loc b)) (c : Dev nD) :
    (dat1 V c).Φ (Fin.last cfg1.N) ⊢ (Pipeline.ΦA spec1 c : sProp 𝕄) := Idealize.SL.BI.Entails.refl _

/-! ## The regions as segments -/

set_option backward.isDefEq.respectTransparency.types false in
/-- Kernel region 0 between its two thread states: entered with every unscoped buffer at `W1`, left with them at `W2`.
    Its arrays are split out of the unscoped buffers and put back at what the pipeline leaves; the scoped rest and the generator
    register enter the kernel's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 between its two thread states: entered with every unscoped buffer at `W3`, left with them at `W4`.
    Its arrays are split out of the unscoped buffers and put back at what the pipeline leaves; the scoped rest and the generator
    register enter the kernel's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 between its two thread states: entered with every unscoped buffer at `W5`, left with them at `W6`.
    Its arrays are split out of the unscoped buffers and put back at what the pipeline leaves; the scoped rest and the generator
    register enter the kernel's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of each core holds what the last valuation says. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c)⟩) (run_all m ρ)

end Cert.Kernel.Hand

end
-- ==== Proof.KI.Lin0Runs.lean ====
/-
  The first tiled product with bias (the fused projection x·[Wq|Wk|Wv] + [bq|bk|bv]) at ONE grid point, on any whole
  staging memrefs. The grid is (row tile, column tile, contraction block), the contraction block running fastest; a
  point is in one of three cases by its contraction block: the FIRST block zeroes the accumulator and adds its partial
  product; a MIDDLE block adds its partial product to what the block before left; the LAST block does the same and then
  writes accumulator + bias into the output block. For each case the body's run is given as a weakest-precondition
  triple whose store lists (the accumulator's, and in the last case the output block's) are found by running the body.
-/
import proofs.«415280_j32959579030013_3_alg».proof.Proof.Gen.KernelIdeal.Launch
import proofs.«415280_j32959579030013_3_alg».proof.Proof.Gen.KernelIdeal.Skeleton
import proofs.«415280_j32959579030013_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body reads -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile is in its staging buffer at every point: the body never stores into it, and where the pipeline does not
    fetch it anew its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight tile. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row, which is fetched only when the column tile changes. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Which contraction block a point is on -/

/-- The body's first test: the contraction block is the first one. -/
abbrev first0 (i : grid0.Coords) : Prop := (Scalar.cmpi .ne (Scalar.extui (Scalar.cmpi .eq (BitVec.ofNat 32 (i 2).val) 0#32)) 0#32) = 1#1
/-- It holds exactly at the points whose position is a multiple of 8. -/
theorem first0_iff : ∀ t : Fin cfg0.N, first0 (grid0.coords t) ↔ t.val % 8 = 0 :=
  (by decide +kernel : ∀ t : Fin grid0.N, first0 (grid0.coords t) ↔ t.val % 8 = 0)

/-- The body's second test: the contraction block is the last one. -/
abbrev last0 (i : grid0.Coords) : Prop := k0_cond2 i = 1#1
/-- It holds exactly at the points whose position is 7 modulo 8. -/
theorem last0_iff : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last contraction block nothing is stored into the output block and it is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
/-- On the last contraction block the output block is stored. -/
theorem live0_3 : ∀ t : Fin cfg0.N, last0 (grid0.coords t) → cfg0.idle 3 (grid0.coords t) = false := by decide +kernel

/-! ## The memrefs the pipeline calls the body with -/

abbrev VO0 : View sig .tc .vmem S1024x2048 .f32 := (Memref.whole cc0_stg3_0 : Memref sig .tc .vmem S1024x2048 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM0 : Memref sig .tc .vmem S1024x2048 .f32 := Memref.whole cc0_scratch0
abbrev VA0 : View sig .tc .vmem S1024x2048 .f32 := accM0.view

/-- The other kernels' staging buffers and accumulator, each whole at some contents: scoped buffers this kernel never
    touches, which ride along in the region's invariant. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region's invariant with the accumulator split off as a memref owned at some contents. -/
theorem PhiA0_eq (c : Dev nD) :
    (Pipeline.ΦA spec0 c : sProp 𝕄)
      = iprop(iprop((∃ d, owns (c : Thread nD τ) accM0 fullShare d) ∗ others0 c) ∗ (∃ r, prngReg c r)) := by
  unfold Pipeline.ΦA others0
  rw [Pipeline.scopedRest_eq_of_list spec0 c [cc0_scratch0, cc1_stg0_0, cc1_stg0_1, cc1_stg1_0, cc1_stg1_1, cc1_stg2_0, cc1_stg2_1, cc1_stg3_0, cc1_stg3_1, cc2_stg0_0, cc2_stg0_1, cc2_stg1_0, cc2_stg1_1, cc2_stg2_0, cc2_stg2_1, cc2_stg3_0, cc2_stg3_1, cc2_scratch0] (by decide) (by decide)]
  simp only [accM0, owns_whole]; try rfl

/-! ## The body's run, case by case -/

set_option maxHeartbeats 4000000 in
/-- FIRST contraction block: the accumulator, held at anything, is zeroed and the partial product added; the output block,
    held at `xi3`, is handed back untouched. `LS0` is what the run stores into the accumulator, last store first. -/
noncomputable def runFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A MIDDLE contraction block: the accumulator, held at what the block before left (`xs0`), gets the partial product added;
    the output block is handed back untouched. -/
noncomputable def runMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The LAST contraction block: the partial product is added to the accumulator (held at `xs0`), and accumulator + bias row is
    stored over the whole output block (held at anything). `L3` is what the run stores into the output block. -/
noncomputable def runLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Lin0Frame.lean ====
/-
  The first tiled product with bias over its whole grid: what the accumulator and the output block hold after every point,
  by recursion on the point's position (a first contraction block starts afresh; every other block builds on what the point
  before left in the accumulator), the proof data of the pipeline that follows from it, and the body's obligation at every
  point: the case the point is in decides which run applies.
-/
import proofs.«415280_j32959579030013_3_alg».proof.Proof.Gen.KernelIdeal.Launch
import proofs.«415280_j32959579030013_3_alg».proof.Proof.Gen.KernelIdeal.Skeleton
import proofs.«415280_j32959579030013_3_alg».proof.Proof.Gen.KernelIdeal.Points
import proofs.«415280_j32959579030013_3_alg».proof.Proof.KI.Lin0Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block stores nothing into the output block: a placeholder nothing consults (the block is idle there and not written back). -/
def outFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) : Vec F S1024x2048 .f32 :=
  VO0.read (Elt F) (VO0.writes (Elt F) VO0.junk (runFirst0 c i arg3 harg3 arg4 harg4 arg5 harg5 arg6 harg6 arg7 harg7 hc0 hc1 x0 x1 x2).1)

/-- The first block's stores into the accumulator cover it. -/
theorem accCoverFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) (y : S1024x2048.Idx) :
    ∃ pc ∈ (runFirst0 c i arg3 harg3 arg4 harg4 arg5 harg5 arg6 harg6 arg7 harg7 hc0 hc1 x0 x1 x2).2.1, y ∈ pc.1.set :=
  View.cover_of_tiledL (runFirst0 c i arg3 harg3 arg4 harg4 arg5 harg5 arg6 harg6 arg7 harg7 hc0 hc1 x0 x1 x2).2.1 S1024x2048.size (by sl_kernel_rfl) y

/-- What a first block leaves in the accumulator: its stores read back. -/
def accFirst0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) : Vec F S1024x2048 .f32 :=
  VA0.read (Elt F) (VA0.writes (Elt F) VA0.junk (runFirst0 c i arg3 harg3 arg4 harg4 arg5 harg5 arg6 harg6 arg7 harg7 hc0 hc1 x0 x1 x2).2.1)

/-- A middle block stores nothing into the output block either. -/
def outMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) : Vec F S1024x2048 .f32 :=
  VO0.read (Elt F) (VO0.writes (Elt F) VO0.junk (runMid0 c i arg3 harg3 arg4 harg4 arg5 harg5 arg6 harg6 arg7 harg7 hc0 hc1 x0 x1 x2 xs0).1)

/-- A middle block's store into the accumulator covers it. -/
theorem accCoverMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) (y : S1024x2048.Idx) :
    ∃ pc ∈ (runMid0 c i arg3 harg3 arg4 harg4 arg5 harg5 arg6 harg6 arg7 harg7 hc0 hc1 x0 x1 x2 xs0).2.1, y ∈ pc.1.set :=
  View.cover_of_tiledL (runMid0 c i arg3 harg3 arg4 harg4 arg5 harg5 arg6 harg6 arg7 harg7 hc0 hc1 x0 x1 x2 xs0).2.1 S1024x2048.size (by sl_kernel_rfl) y

/-- What a middle block leaves in the accumulator. -/
def accMid0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) : Vec F S1024x2048 .f32 :=
  VA0.read (Elt F) (VA0.writes (Elt F) VA0.junk (runMid0 c i arg3 harg3 arg4 harg4 arg5 harg5 arg6 harg6 arg7 harg7 hc0 hc1 x0 x1 x2 xs0).2.1)

/-- The last block's store into the output block covers it. -/
theorem outCoverLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) (y : S1024x2048.Idx) :
    ∃ pc ∈ (runLast0 c i arg3 harg3 arg4 harg4 arg5 harg5 arg6 harg6 arg7 harg7 hc0 hc1 x0 x1 x2 xs0).1, y ∈ pc.1.set :=
  View.cover_of_tiledL (runLast0 c i arg3 harg3 arg4 harg4 arg5 harg5 arg6 harg6 arg7 harg7 hc0 hc1 x0 x1 x2 xs0).1 S1024x2048.size (by sl_kernel_rfl) y

/-- What the last block leaves in the output block. -/
def outLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) : Vec F S1024x2048 .f32 :=
  VO0.read (Elt F) (VO0.writes (Elt F) VO0.junk (runLast0 c i arg3 harg3 arg4 harg4 arg5 harg5 arg6 harg6 arg7 harg7 hc0 hc1 x0 x1 x2 xs0).1)

/-- The last block's store into the accumulator covers it. -/
theorem accCoverLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) (y : S1024x2048.Idx) :
    ∃ pc ∈ (runLast0 c i arg3 harg3 arg4 harg4 arg5 harg5 arg6 harg6 arg7 harg7 hc0 hc1 x0 x1 x2 xs0).2.1, y ∈ pc.1.set :=
  View.cover_of_tiledL (runLast0 c i arg3 harg3 arg4 harg4 arg5 harg5 arg6 harg6 arg7 harg7 hc0 hc1 x0 x1 x2 xs0).2.1 S1024x2048.size (by sl_kernel_rfl) y

/-- What the last block leaves in the accumulator. -/
def accLast0 (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) : Vec F S1024x2048 .f32 :=
  VA0.read (Elt F) (VA0.writes (Elt F) VA0.junk (runLast0 c i arg3 harg3 arg4 harg4 arg5 harg5 arg6 harg6 arg7 harg7 hc0 hc1 x0 x1 x2 xs0).2.1)

/-! ## Point by point -/

/-- What the output block's staging buffer and the accumulator hold after the body at position `n` (a pair: output block,
    accumulator). A first block depends on nothing before it; the others on the accumulator the point before left. No
    position is both first and last. -/
def outsAt0 (c : Dev nD) : (n : ℕ) → n < cfg0.N → Vec F S1024x2048 .f32 × Vec F S1024x2048 .f32
  | 0, hn => (outFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩), accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM0 (Memref.isWhole_whole _) ((first0_iff ⟨0, hn⟩).mpr (Nat.zero_mod _)) (fun h => (fun h => by (try dsimp only at h); omega) ((last0_iff ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (outFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩), accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) ((first0_iff ⟨n + 1, hn⟩).mpr h0) (fun h => h1 ((last0_iff ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (outLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM0 (Memref.isWhole_whole _) (fun h => h0 ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first block. -/
theorem outsAt0_first (c : Dev nD) (t : Fin cfg0.N) (h0 : t.val % 8 = 0) (h1 : ¬t.val % 8 = 7) :
    outsAt0 V c t.val t.isLt = (outFirst0 c (grid0.coords t) (ms0_0 t) (hs0_0 t) (ms0_1 t) (hs0_1 t) (ms0_2 t) (hs0_2 t) (ms0_3 t) (hs0_3 t) accM0 (Memref.isWhole_whole _) ((first0_iff t).mpr h0) (fun h => h1 ((last0_iff t).mp h)) (iblk0 V c 0 t) (iblk0 V c 1 t) (iblk0 V c 2 t), accFirst0 c (grid0.coords t) (ms0_0 t) (hs0_0 t) (ms0_1 t) (hs0_1 t) (ms0_2 t) (hs0_2 t) (ms0_3 t) (hs0_3 t) accM0 (Memref.isWhole_whole _) ((first0_iff t).mpr h0) (fun h => h1 ((last0_iff t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle block: over what the point before left in the accumulator. -/
theorem outsAt0_mid (c : Dev nD) (t : Fin cfg0.N) (h0 : ¬t.val % 8 = 0) (h1 : ¬t.val % 8 = 7) :
    outsAt0 V c t.val t.isLt = (outMid0 c (grid0.coords t) (ms0_0 t) (hs0_0 t) (ms0_1 t) (hs0_1 t) (ms0_2 t) (hs0_2 t) (ms0_3 t) (hs0_3 t) accM0 (Memref.isWhole_whole _) (fun h => h0 ((first0_iff t).mp h)) (fun h => h1 ((last0_iff t).mp h)) (iblk0 V c 0 t) (iblk0 V c 1 t) (iblk0 V c 2 t) (outsAt0 V c (t.val - 1) (Nat.lt_of_le_of_lt (Nat.sub_le _ _) t.isLt)).2, accMid0 c (grid0.coords t) (ms0_0 t) (hs0_0 t) (ms0_1 t) (hs0_1 t) (ms0_2 t) (hs0_2 t) (ms0_3 t) (hs0_3 t) accM0 (Memref.isWhole_whole _) (fun h => h0 ((first0_iff t).mp h)) (fun h => h1 ((last0_iff t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last block: over what the point before left in the accumulator. -/
theorem outsAt0_last (c : Dev nD) (t : Fin cfg0.N) (h0 : ¬t.val % 8 = 0) (h1 : t.val % 8 = 7) :
    outsAt0 V c t.val t.isLt = (outLast0 c (grid0.coords t) (ms0_0 t) (hs0_0 t) (ms0_1 t) (hs0_1 t) (ms0_2 t) (hs0_2 t) (ms0_3 t) (hs0_3 t) accM0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2, accLast0 c (grid0.coords t) (ms0_0 t) (hs0_0 t) (ms0_1 t) (hs0_1 t) (ms0_2 t) (hs0_2 t) (ms0_3 t) (hs0_3 t) accM0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything; the generator register at some state. -/
def PhiS0 (c : Dev nD) : (n : ℕ) → n ≤ cfg0.N → sProp 𝕄
  | 0, _ => Pipeline.ΦA spec0 c
  | n + 1, hn => iprop(iprop(owns (c : Thread nD τ) accM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) accM0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body at point `t` each input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]

set_option maxHeartbeats 4800000 in
/-- The body at any point. The inputs' memrefs hold their blocks; the position modulo 8 says which case the point is in; the
    invariant hands the body the accumulator (at anything before the very first point, else at what the point before left) and
    takes it back at this point's contents; off the last block the output block is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 384 := lt_of_lt_of_eq t.isLt (show cfg0.N = 384 from N_0)
  by_cases h0 : t.val % 8 = 0
  · have h1 : ¬t.val % 8 = 7 := by omega
    rw [Dat.leavesExact_idle (dat0 V c) 3 t (idle0_3 t (fun h => h1 ((last0_iff t).mp h))) (noFlush0_3 t (fun h => h1 ((last0_iff t).mp h)))]
    rw [outsAt0_first V c t h0 h1]
    unfold accFirst0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runFirst0 c (grid0.coords t) _ _ _ _ _ _ _ _ _ _ ((first0_iff t).mpr h0) (fun h => h1 ((last0_iff t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [live0_3 t ((last0_iff t).mpr h1)], after0_3]
      rw [outsAt0_last V c t h0 h1]
      unfold outLast0 accLast0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((first0_iff t).mp h)) ((last0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverLast0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast0 c _ _ _ _ _ _ _ _ _ _ _ _ _ _ _ _ _)
    · rw [Dat.leavesExact_idle (dat0 V c) 3 t (idle0_3 t (fun h => h1 ((last0_iff t).mp h))) (noFlush0_3 t (fun h => h1 ((last0_iff t).mp h)))]
      rw [outsAt0_mid V c t h0 h1]
      unfold accMid0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((first0_iff t).mp h)) (fun h => h1 ((last0_iff t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverMid0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 384 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.KI.Attn.lean ====
/-
  The per-token attention kernel at one grid point and over its grid. A point handles 256 consecutive tokens: it loads
  their query, key and value heads whole, computes the attention output as ONE pure function of the three blocks, and stores
  it over the whole output block. Nothing is kept between points, so the proof data is immediate: after the body each
  input's buffer holds its block and the output's holds that function of the three input blocks.
-/
import proofs.«415280_j32959579030013_3_alg».proof.Proof.Gen.KernelIdeal.Launch
import proofs.«415280_j32959579030013_3_alg».proof.Proof.Gen.KernelIdeal.Skeleton
import proofs.«415280_j32959579030013_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body reads -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point: the body never stores into it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole block. -/
abbrev rAll1 : Rect S256x32x128 := Rect.unit (s := S256x32x128) ![0, 0, 0] S256x32x128.size inb_S256x32x128_S256x32x128_0_0_0

/-- The output block after the body: its one store, of the attention of the three loaded blocks. -/
def out1_3 (x0 : Vec F S256x32x128 .bf16) (x1 : Vec F S256x32x128 .f32) (x2 : Vec F S256x32x128 .f32) : Vec F S256x32x128 .bf16 :=
  View.canon [⟨rAll1, k1_pay1 (View.ld x0 rAll1) (View.ld x1 rAll1) (View.ld x2 rAll1)⟩]

/-- That one store covers the block. -/
theorem cover1_3 (p0 : Vec F S256x32x128 .bf16) (y : S256x32x128.Idx) :
    ∃ pc ∈ ([⟨rAll1, p0⟩] : List (View.Piece (Elt F) S256x32x128 .bf16)), y ∈ pc.1.set :=
  View.cover_of_tiled [⟨rAll1, p0⟩] S256x32x128.size (by rfl) y

/-! ## The body's run -/

set_option maxHeartbeats 4000000 in
/-- On whole staging memrefs, the inputs' at contents `x0 x1 x2` and the output's at anything, the body runs to the
    continuation holding the inputs' as they were and the output's at `out1_3` of them. -/
theorem sound_kernel1 (c : Dev nD) (E : Set ℕ) (i : grid1.Coords) (arg1 : Memref sig .tc .vmem S256x32x128 .bf16) (harg1 : arg1.IsWhole) (arg2 : Memref sig .tc .vmem S256x32x128 .f32) (harg2 : arg2.IsWhole) (arg3 : Memref sig .tc .vmem S256x32x128 .f32) (harg3 : arg3.IsWhole) (arg4 : Memref sig .tc .vmem S256x32x128 .bf16) (harg4 : arg4.IsWhole)
    (x0 : Vec F S256x32x128 .bf16) (x1 : Vec F S256x32x128 .f32) (x2 : Vec F S256x32x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body each input's buffer at its block and the output's at `out1_3` of
    the three input blocks; the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2Runs.lean ====
/-
  The second tiled product with bias (the output projection a·Wo + bo) at ONE grid point, on any whole
  staging memrefs. The grid is (row tile, column tile, contraction block), the contraction block running fastest; a
  point is in one of three cases by its contraction block: the FIRST block zeroes the accumulator and adds its partial
  product; a MIDDLE block adds its partial product to what the block before left; the LAST block does the same and then
  writes accumulator + bias into the output block. For each case the body's run is given as a weakest-precondition
  triple whose store lists (the accumulator's, and in the last case the output block's) are found by running the body.
-/
import proofs.«415280_j32959579030013_3_alg».proof.Proof.Gen.KernelIdeal.Launch
import proofs.«415280_j32959579030013_3_alg».proof.Proof.Gen.KernelIdeal.Skeleton
import proofs.«415280_j32959579030013_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body reads -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x tile is in its staging buffer at every point: the body never stores into it, and where the pipeline does not
    fetch it anew its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weight tile. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row, which is fetched only when the column tile changes. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Which contraction block a point is on -/

/-- The body's first test: the contraction block is the first one. -/
abbrev first2 (i : grid2.Coords) : Prop := (Scalar.cmpi .ne (Scalar.extui (Scalar.cmpi .eq (BitVec.ofNat 32 (i 2).val) 0#32)) 0#32) = 1#1
/-- It holds exactly at the points whose position is a multiple of 8. -/
theorem first2_iff : ∀ t : Fin cfg2.N, first2 (grid2.coords t) ↔ t.val % 8 = 0 :=
  (by decide +kernel : ∀ t : Fin grid2.N, first2 (grid2.coords t) ↔ t.val % 8 = 0)

/-- The body's second test: the contraction block is the last one. -/
abbrev last2 (i : grid2.Coords) : Prop := k2_cond2 i = 1#1
/-- It holds exactly at the points whose position is 7 modulo 8. -/
theorem last2_iff : ∀ t : Fin cfg2.N, last2 (grid2.coords t) ↔ t.val % 8 = 7 :=
  (by decide +kernel : ∀ t : Fin grid2.N, last2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Off the last contraction block nothing is stored into the output block and it is not written back. -/
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
/-- On the last contraction block the output block is stored. -/
theorem live2_3 : ∀ t : Fin cfg2.N, last2 (grid2.coords t) → cfg2.idle 3 (grid2.coords t) = false := by decide +kernel

/-! ## The memrefs the pipeline calls the body with -/

abbrev VO2 : View sig .tc .vmem S1024x2048 .f32 := (Memref.whole cc2_stg3_0 : Memref sig .tc .vmem S1024x2048 .f32).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev accM2 : Memref sig .tc .vmem S1024x2048 .f32 := Memref.whole cc2_scratch0
abbrev VA2 : View sig .tc .vmem S1024x2048 .f32 := accM2.view

/-- The other kernels' staging buffers and accumulator, each whole at some contents: scoped buffers this kernel never
    touches, which ride along in the region's invariant. -/
def others2 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant with the accumulator split off as a memref owned at some contents. -/
theorem PhiA2_eq (c : Dev nD) :
    (Pipeline.ΦA spec2 c : sProp 𝕄)
      = iprop(iprop((∃ d, owns (c : Thread nD τ) accM2 fullShare d) ∗ others2 c) ∗ (∃ r, prngReg c r)) := by
  unfold Pipeline.ΦA others2
  rw [Pipeline.scopedRest_eq_of_list spec2 c [cc2_scratch0, cc1_stg0_0, cc1_stg0_1, cc1_stg1_0, cc1_stg1_1, cc1_stg2_0, cc1_stg2_1, cc1_stg3_0, cc1_stg3_1, cc0_stg0_0, cc0_stg0_1, cc0_stg1_0, cc0_stg1_1, cc0_stg2_0, cc0_stg2_1, cc0_stg3_0, cc0_stg3_1, cc0_scratch0] (by decide) (by decide)]
  simp only [accM2, owns_whole]; try rfl

/-! ## The body's run, case by case -/

set_option maxHeartbeats 4000000 in
/-- FIRST contraction block: the accumulator, held at anything, is zeroed and the partial product added; the output block,
    held at `xi3`, is handed back untouched. `LS0` is what the run stores into the accumulator, last store first. -/
noncomputable def runFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- A MIDDLE contraction block: the accumulator, held at what the block before left (`xs0`), gets the partial product added;
    the output block is handed back untouched. -/
noncomputable def runMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- The LAST contraction block: the partial product is added to the accumulator (held at `xs0`), and accumulator + bias row is
    stored over the whole output block (held at anything). `L3` is what the run stores into the output block. -/
noncomputable def runLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Lin2Frame.lean ====
/-
  The second tiled product with bias over its whole grid: what the accumulator and the output block hold after every point,
  by recursion on the point's position (a first contraction block starts afresh; every other block builds on what the point
  before left in the accumulator), the proof data of the pipeline that follows from it, and the body's obligation at every
  point: the case the point is in decides which run applies.
-/
import proofs.«415280_j32959579030013_3_alg».proof.Proof.Gen.KernelIdeal.Launch
import proofs.«415280_j32959579030013_3_alg».proof.Proof.Gen.KernelIdeal.Skeleton
import proofs.«415280_j32959579030013_3_alg».proof.Proof.Gen.KernelIdeal.Points
import proofs.«415280_j32959579030013_3_alg».proof.Proof.KI.Lin2Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first block stores nothing into the output block: a placeholder nothing consults (the block is idle there and not written back). -/
def outFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) : Vec F S1024x2048 .f32 :=
  VO2.read (Elt F) (VO2.writes (Elt F) VO2.junk (runFirst2 c i arg3 harg3 arg4 harg4 arg5 harg5 arg6 harg6 arg7 harg7 hc0 hc1 x0 x1 x2).1)

/-- The first block's stores into the accumulator cover it. -/
theorem accCoverFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) (y : S1024x2048.Idx) :
    ∃ pc ∈ (runFirst2 c i arg3 harg3 arg4 harg4 arg5 harg5 arg6 harg6 arg7 harg7 hc0 hc1 x0 x1 x2).2.1, y ∈ pc.1.set :=
  View.cover_of_tiledL (runFirst2 c i arg3 harg3 arg4 harg4 arg5 harg5 arg6 harg6 arg7 harg7 hc0 hc1 x0 x1 x2).2.1 S1024x2048.size (by sl_kernel_rfl) y

/-- What a first block leaves in the accumulator: its stores read back. -/
def accFirst2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) : Vec F S1024x2048 .f32 :=
  VA2.read (Elt F) (VA2.writes (Elt F) VA2.junk (runFirst2 c i arg3 harg3 arg4 harg4 arg5 harg5 arg6 harg6 arg7 harg7 hc0 hc1 x0 x1 x2).2.1)

/-- A middle block stores nothing into the output block either. -/
def outMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) : Vec F S1024x2048 .f32 :=
  VO2.read (Elt F) (VO2.writes (Elt F) VO2.junk (runMid2 c i arg3 harg3 arg4 harg4 arg5 harg5 arg6 harg6 arg7 harg7 hc0 hc1 x0 x1 x2 xs0).1)

/-- A middle block's store into the accumulator covers it. -/
theorem accCoverMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) (y : S1024x2048.Idx) :
    ∃ pc ∈ (runMid2 c i arg3 harg3 arg4 harg4 arg5 harg5 arg6 harg6 arg7 harg7 hc0 hc1 x0 x1 x2 xs0).2.1, y ∈ pc.1.set :=
  View.cover_of_tiledL (runMid2 c i arg3 harg3 arg4 harg4 arg5 harg5 arg6 harg6 arg7 harg7 hc0 hc1 x0 x1 x2 xs0).2.1 S1024x2048.size (by sl_kernel_rfl) y

/-- What a middle block leaves in the accumulator. -/
def accMid2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) : Vec F S1024x2048 .f32 :=
  VA2.read (Elt F) (VA2.writes (Elt F) VA2.junk (runMid2 c i arg3 harg3 arg4 harg4 arg5 harg5 arg6 harg6 arg7 harg7 hc0 hc1 x0 x1 x2 xs0).2.1)

/-- The last block's store into the output block covers it. -/
theorem outCoverLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) (y : S1024x2048.Idx) :
    ∃ pc ∈ (runLast2 c i arg3 harg3 arg4 harg4 arg5 harg5 arg6 harg6 arg7 harg7 hc0 hc1 x0 x1 x2 xs0).1, y ∈ pc.1.set :=
  View.cover_of_tiledL (runLast2 c i arg3 harg3 arg4 harg4 arg5 harg5 arg6 harg6 arg7 harg7 hc0 hc1 x0 x1 x2 xs0).1 S1024x2048.size (by sl_kernel_rfl) y

/-- What the last block leaves in the output block. -/
def outLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) : Vec F S1024x2048 .f32 :=
  VO2.read (Elt F) (VO2.writes (Elt F) VO2.junk (runLast2 c i arg3 harg3 arg4 harg4 arg5 harg5 arg6 harg6 arg7 harg7 hc0 hc1 x0 x1 x2 xs0).1)

/-- The last block's store into the accumulator covers it. -/
theorem accCoverLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) (y : S1024x2048.Idx) :
    ∃ pc ∈ (runLast2 c i arg3 harg3 arg4 harg4 arg5 harg5 arg6 harg6 arg7 harg7 hc0 hc1 x0 x1 x2 xs0).2.1, y ∈ pc.1.set :=
  View.cover_of_tiledL (runLast2 c i arg3 harg3 arg4 harg4 arg5 harg5 arg6 harg6 arg7 harg7 hc0 hc1 x0 x1 x2 xs0).2.1 S1024x2048.size (by sl_kernel_rfl) y

/-- What the last block leaves in the accumulator. -/
def accLast2 (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) : Vec F S1024x2048 .f32 :=
  VA2.read (Elt F) (VA2.writes (Elt F) VA2.junk (runLast2 c i arg3 harg3 arg4 harg4 arg5 harg5 arg6 harg6 arg7 harg7 hc0 hc1 x0 x1 x2 xs0).2.1)

/-! ## Point by point -/

/-- What the output block's staging buffer and the accumulator hold after the body at position `n` (a pair: output block,
    accumulator). A first block depends on nothing before it; the others on the accumulator the point before left. No
    position is both first and last. -/
def outsAt2 (c : Dev nD) : (n : ℕ) → n < cfg2.N → Vec F S1024x2048 .f32 × Vec F S1024x2048 .f32
  | 0, hn => (outFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((first2_iff ⟨0, hn⟩).mpr (Nat.zero_mod _)) (fun h => (fun h => by (try dsimp only at h); omega) ((last2_iff ⟨0, hn⟩).mp h)) (iblk2 V c 0 ⟨0, hn⟩) (iblk2 V c 1 ⟨0, hn⟩) (iblk2 V c 2 ⟨0, hn⟩), accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((first2_iff ⟨0, hn⟩).mpr (Nat.zero_mod _)) (fun h => (fun h => by (try dsimp only at h); omega) ((last2_iff ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (outFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((first2_iff ⟨n + 1, hn⟩).mpr h0) (fun h => h1 ((last2_iff ⟨n + 1, hn⟩).mp h)) (iblk2 V c 0 ⟨n + 1, hn⟩) (iblk2 V c 1 ⟨n + 1, hn⟩) (iblk2 V c 2 ⟨n + 1, hn⟩), accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((first2_iff ⟨n + 1, hn⟩).mpr h0) (fun h => h1 ((last2_iff ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (outLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) ((last2_iff ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) ((last2_iff ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (outMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) (fun h => h1 ((last2_iff ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((first2_iff ⟨n + 1, hn⟩).mp h)) (fun h => h1 ((last2_iff ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a first block. -/
theorem outsAt2_first (c : Dev nD) (t : Fin cfg2.N) (h0 : t.val % 8 = 0) (h1 : ¬t.val % 8 = 7) :
    outsAt2 V c t.val t.isLt = (outFirst2 c (grid2.coords t) (ms2_0 t) (hs2_0 t) (ms2_1 t) (hs2_1 t) (ms2_2 t) (hs2_2 t) (ms2_3 t) (hs2_3 t) accM2 (Memref.isWhole_whole _) ((first2_iff t).mpr h0) (fun h => h1 ((last2_iff t).mp h)) (iblk2 V c 0 t) (iblk2 V c 1 t) (iblk2 V c 2 t), accFirst2 c (grid2.coords t) (ms2_0 t) (hs2_0 t) (ms2_1 t) (hs2_1 t) (ms2_2 t) (hs2_2 t) (ms2_3 t) (hs2_3 t) accM2 (Memref.isWhole_whole _) ((first2_iff t).mpr h0) (fun h => h1 ((last2_iff t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a middle block: over what the point before left in the accumulator. -/
theorem outsAt2_mid (c : Dev nD) (t : Fin cfg2.N) (h0 : ¬t.val % 8 = 0) (h1 : ¬t.val % 8 = 7) :
    outsAt2 V c t.val t.isLt = (outMid2 c (grid2.coords t) (ms2_0 t) (hs2_0 t) (ms2_1 t) (hs2_1 t) (ms2_2 t) (hs2_2 t) (ms2_3 t) (hs2_3 t) accM2 (Memref.isWhole_whole _) (fun h => h0 ((first2_iff t).mp h)) (fun h => h1 ((last2_iff t).mp h)) (iblk2 V c 0 t) (iblk2 V c 1 t) (iblk2 V c 2 t) (outsAt2 V c (t.val - 1) (Nat.lt_of_le_of_lt (Nat.sub_le _ _) t.isLt)).2, accMid2 c (grid2.coords t) (ms2_0 t) (hs2_0 t) (ms2_1 t) (hs2_1 t) (ms2_2 t) (hs2_2 t) (ms2_3 t) (hs2_3 t) accM2 (Memref.isWhole_whole _) (fun h => h0 ((first2_iff t).mp h)) (fun h => h1 ((last2_iff t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last block: over what the point before left in the accumulator. -/
theorem outsAt2_last (c : Dev nD) (t : Fin cfg2.N) (h0 : ¬t.val % 8 = 0) (h1 : t.val % 8 = 7) :
    outsAt2 V c t.val t.isLt = (outLast2 c (grid2.coords t) (ms2_0 t) (hs2_0 t) (ms2_1 t) (hs2_1 t) (ms2_2 t) (hs2_2 t) (ms2_3 t) (hs2_3 t) accM2 (Memref.isWhole_whole _) (fun h => h0 ((first2_iff t).mp h)) ((last2_iff t).mpr h1) (iblk2 V c 0 t) (iblk2 V c 1 t) (iblk2 V c 2 t) (outsAt2 V c (t.val - 1) (Nat.lt_of_le_of_lt (Nat.sub_le _ _) t.isLt)).2, accLast2 c (grid2.coords t) (ms2_0 t) (hs2_0 t) (ms2_1 t) (hs2_1 t) (ms2_2 t) (hs2_2 t) (ms2_3 t) (hs2_3 t) accM2 (Memref.isWhole_whole _) (fun h => h0 ((first2_iff t).mp h)) ((last2_iff t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything; the generator register at some state. -/
def PhiS2 (c : Dev nD) : (n : ℕ) → n ≤ cfg2.N → sProp 𝕄
  | 0, _ => Pipeline.ΦA spec2 c
  | n + 1, hn => iprop(iprop(owns (c : Thread nD τ) accM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) accM2 fullShare ((outsAt2 V c n hn).2) ∗ others2 c) ∗ (∃ r, prngReg c r)) := rfl

theorem PhiS2_pos (c : Dev nD) (n : ℕ) (h : n ≤ cfg2.N) (hz : n ≠ 0) :
    PhiS2 V c n h = iprop(iprop(owns (c : Thread nD τ) accM2 fullShare ((outsAt2 V c (n - 1) (by omega)).2) ∗ others2 c) ∗ (∃ r, prngReg c r)) := by
  cases n with
  | zero => exact absurd rfl hz
  | succ n => rfl

/-! ## The pipeline's proof data -/

/-- The arrays as the region finds them; after the body at point `t` each input's buffer at its block and the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [live2_0 t, after2_0]
theorem leaves2_1 (c : Dev nD) (t : Fin cfg2.N) : (dat2 V c).leavesExact 1 t = owns (c : Thread nD τ) (ms2_1 t) fullShare (iblk2 V c 1 t) := by
  unfold Dat.leavesExact; rw [live2_1 t, after2_1]
theorem leaves2_2 (c : Dev nD) (t : Fin cfg2.N) : (dat2 V c).leavesExact 2 t = owns (c : Thread nD τ) (ms2_2 t) fullShare (iblk2 V c 2 t) := by
  unfold Dat.leavesExact; rw [live2_2 t, after2_2]

set_option maxHeartbeats 4800000 in
/-- The body at any point. The inputs' memrefs hold their blocks; the position modulo 8 says which case the point is in; the
    invariant hands the body the accumulator (at anything before the very first point, else at what the point before left) and
    takes it back at this point's contents; off the last block the output block is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 128 := lt_of_lt_of_eq t.isLt (show cfg2.N = 128 from N_2)
  by_cases h0 : t.val % 8 = 0
  · have h1 : ¬t.val % 8 = 7 := by omega
    rw [Dat.leavesExact_idle (dat2 V c) 3 t (idle2_3 t (fun h => h1 ((last2_iff t).mp h))) (noFlush2_3 t (fun h => h1 ((last2_iff t).mp h)))]
    rw [outsAt2_first V c t h0 h1]
    unfold accFirst2; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩⟩
      iapply ((runFirst2 c (grid2.coords t) _ _ _ _ _ _ _ _ _ _ ((first2_iff t).mpr h0) (fun h => h1 ((last2_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst2 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((runFirst2 c (grid2.coords t) _ _ _ _ _ _ _ _ _ _ ((first2_iff t).mpr h0) (fun h => h1 ((last2_iff t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverFirst2 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat2 V c).leavesExact 3 t = owns (c : Thread nD τ) (ms2_3 t) fullShare ((dat2 V c).after 3 t) from by
        unfold Dat.leavesExact; rw [live2_3 t ((last2_iff t).mpr h1)], after2_3]
      rw [outsAt2_last V c t h0 h1]
      unfold outLast2 accLast2; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((runLast2 c (grid2.coords t) _ _ _ _ _ _ _ _ _ _ (fun h => h0 ((first2_iff t).mp h)) ((last2_iff t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverLast2 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast2 c _ _ _ _ _ _ _ _ _ _ _ _ _ _ _ _ _)
    · rw [Dat.leavesExact_idle (dat2 V c) 3 t (idle2_3 t (fun h => h1 ((last2_iff t).mp h))) (noFlush2_3 t (fun h => h1 ((last2_iff t).mp h)))]
      rw [outsAt2_mid V c t h0 h1]
      unfold accMid2; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((runMid2 c (grid2.coords t) _ _ _ _ _ _ _ _ _ _ (fun h => h0 ((first2_iff t).mp h)) (fun h => h1 ((last2_iff t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCoverMid2 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

end Cert.KernelIdeal.Hand

end
-- ==== Proof.KI.Run.lean ====
/-
  The whole program: three host stretches and three kernel regions, in order. Between two items every unscoped buffer of
  the core is held at known contents — the launch memory, then each host stretch applied, then each region's arrays at
  what its pipeline leaves — so the run ends with every unscoped buffer at the last of these valuations; the argument
  arrays are written by no item and read back as launched.
-/
import proofs.«415280_j32959579030013_3_alg».proof.Proof.KI.Lin0Frame
import proofs.«415280_j32959579030013_3_alg».proof.Proof.KI.Attn
import proofs.«415280_j32959579030013_3_alg».proof.Proof.KI.Lin2Frame
import proofs.«415280_j32959579030013_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the first host stretch (the casts, the two concatenations, the bias reshaped to a row). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves (each input as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the three column slices, the cast, the three reshapes into heads). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves (each input as entered, the output's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (the heads flattened, the output bias reshaped to a row). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves (each input as entered, the output's write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What a host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## No item writes an argument -/

theorem W6_main_arg0 (c : Dev nD) : W6 m c (Proc.devRef .tc main_arg0) = m ((c : Thread nD τ).loc main_arg0) :=
  (W6_of_ne m c main_arg0 (by decide)).trans <| (W5_of m c main_arg0 (by decide)).trans <| (W4_of_ne m c main_arg0 (by decide)).trans <|
    (W3_of m c main_arg0 (by decide)).trans <| (W2_of_ne m c main_arg0 (by decide)).trans <| (W1_of m c main_arg0 (by decide)).trans rfl
theorem W6_main_arg1 (c : Dev nD) : W6 m c (Proc.devRef .tc main_arg1) = m ((c : Thread nD τ).loc main_arg1) :=
  (W6_of_ne m c main_arg1 (by decide)).trans <| (W5_of m c main_arg1 (by decide)).trans <| (W4_of_ne m c main_arg1 (by decide)).trans <|
    (W3_of m c main_arg1 (by decide)).trans <| (W2_of_ne m c main_arg1 (by decide)).trans <| (W1_of m c main_arg1 (by decide)).trans rfl
theorem W6_main_arg2 (c : Dev nD) : W6 m c (Proc.devRef .tc main_arg2) = m ((c : Thread nD τ).loc main_arg2) :=
  (W6_of_ne m c main_arg2 (by decide)).trans <| (W5_of m c main_arg2 (by decide)).trans <| (W4_of_ne m c main_arg2 (by decide)).trans <|
    (W3_of m c main_arg2 (by decide)).trans <| (W2_of_ne m c main_arg2 (by decide)).trans <| (W1_of m c main_arg2 (by decide)).trans rfl
theorem W6_main_arg3 (c : Dev nD) : W6 m c (Proc.devRef .tc main_arg3) = m ((c : Thread nD τ).loc main_arg3) :=
  (W6_of_ne m c main_arg3 (by decide)).trans <| (W5_of m c main_arg3 (by decide)).trans <| (W4_of_ne m c main_arg3 (by decide)).trans <|
    (W3_of m c main_arg3 (by decide)).trans <| (W2_of_ne m c main_arg3 (by decide)).trans <| (W1_of m c main_arg3 (by decide)).trans rfl
theorem W6_main_arg4 (c : Dev nD) : W6 m c (Proc.devRef .tc main_arg4) = m ((c : Thread nD τ).loc main_arg4) :=
  (W6_of_ne m c main_arg4 (by decide)).trans <| (W5_of m c main_arg4 (by decide)).trans <| (W4_of_ne m c main_arg4 (by decide)).trans <|
    (W3_of m c main_arg4 (by decide)).trans <| (W2_of_ne m c main_arg4 (by decide)).trans <| (W1_of m c main_arg4 (by decide)).trans rfl
theorem W6_main_arg5 (c : Dev nD) : W6 m c (Proc.devRef .tc main_arg5) = m ((c : Thread nD τ).loc main_arg5) :=
  (W6_of_ne m c main_arg5 (by decide)).trans <| (W5_of m c main_arg5 (by decide)).trans <| (W4_of_ne m c main_arg5 (by decide)).trans <|
    (W3_of m c main_arg5 (by decide)).trans <| (W2_of_ne m c main_arg5 (by decide)).trans <| (W1_of m c main_arg5 (by decide)).trans rfl
theorem W6_main_arg6 (c : Dev nD) : W6 m c (Proc.devRef .tc main_arg6) = m ((c : Thread nD τ).loc main_arg6) :=
  (W6_of_ne m c main_arg6 (by decide)).trans <| (W5_of m c main_arg6 (by decide)).trans <| (W4_of_ne m c main_arg6 (by decide)).trans <|
    (W3_of m c main_arg6 (by decide)).trans <| (W2_of_ne m c main_arg6 (by decide)).trans <| (W1_of m c main_arg6 (by decide)).trans rfl
theorem W6_main_arg7 (c : Dev nD) : W6 m c (Proc.devRef .tc main_arg7) = m ((c : Thread nD τ).loc main_arg7) :=
  (W6_of_ne m c main_arg7 (by decide)).trans <| (W5_of m c main_arg7 (by decide)).trans <| (W4_of_ne m c main_arg7 (by decide)).trans <|
    (W3_of m c main_arg7 (by decide)).trans <| (W2_of_ne m c main_arg7 (by decide)).trans <| (W1_of m c main_arg7 (by decide)).trans rfl
theorem W6_main_arg8 (c : Dev nD) : W6 m c (Proc.devRef .tc main_arg8) = m ((c : Thread nD τ).loc main_arg8) :=
  (W6_of_ne m c main_arg8 (by decide)).trans <| (W5_of m c main_arg8 (by decide)).trans <| (W4_of_ne m c main_arg8 (by decide)).trans <|
    (W3_of m c main_arg8 (by decide)).trans <| (W2_of_ne m c main_arg8 (by decide)).trans <| (W1_of m c main_arg8 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at `W6`, the generator register at some state. -/
abbrev Tₙ (c : Dev nD) : sProp 𝕄 := iprop(StableHlo.held (c : Thread nD τ) (Pipeline.ucRefs τ sig) (W6 m c) ∗ ∃ r, prngReg c r)

/-- The attention kernel keeps the launch's invariant at every point. -/
theorem hin1 (V : (c : Dev nD) → (b : Ref sig .tc) → Buf (Elt F) ((c : Thread nD τ).loc b)) (c : Dev nD) :
    (Pipeline.ΦA spec1 c : sProp 𝕄) ⊢ (dat1 V c).Φ 0 := Idealize.SL.BI.Entails.refl _
theorem hout1 (V : (c : Dev nD) → (b : Ref sig .tc) → Buf (Elt F) ((c : Thread nD τ).loc b)) (c : Dev nD) :
    (dat1 V c).Φ (Fin.last cfg1.N) ⊢ (Pipeline.ΦA spec1 c : sProp 𝕄) := Idealize.SL.BI.Entails.refl _

/-! ## The regions as segments -/

set_option backward.isDefEq.respectTransparency.types false in
/-- Kernel region 0 between its two thread states: entered with every unscoped buffer at `W1`, left with them at `W2`.
    Its arrays are split out of the unscoped buffers and put back at what the pipeline leaves; the scoped rest and the generator
    register enter the kernel's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 between its two thread states: entered with every unscoped buffer at `W3`, left with them at `W4`.
    Its arrays are split out of the unscoped buffers and put back at what the pipeline leaves; the scoped rest and the generator
    register enter the kernel's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 between its two thread states: entered with every unscoped buffer at `W5`, left with them at `W6`.
    Its arrays are split out of the unscoped buffers and put back at what the pipeline leaves; the scoped rest and the generator
    register enter the kernel's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of each core holds what the last valuation says. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c)⟩) (run_all m ρ)

end Cert.KernelIdeal.Hand

end
-- ==== Proof.Spec.lean ====
/-
  The mathematics both programs compute, as scalar formulas over the extended reals (a float is an extended real and
  every operation its exact one). A linear layer's entry is a row of the activations against a column of the weights plus
  the bias entry. One token's attention works on that token's 32 heads of 128 lanes: the score of head h against head g is
  their inner product scaled by 2^-6; a row of scores is shifted by its maximum, exponentiated and normalised by the row's
  sum; the output lane d of head h is the normalised row against lane d of the value heads. The whole layer: project the
  token's row three times, attend, flatten the heads back to one row, project once more.
-/
import Idealize.ShloMosaic.PureOps.Ideal
import Idealize.ShloMosaic.Lib.ValueIdx

noncomputable section

namespace Cert.Spec

open Idealize.ShloMosaic Idealize.ShloMosaic.ValueIdx

/-- A row against a column, plus a bias entry. -/
def linAt {K : ℕ} (xr wc : Fin K → EReal) (b : EReal) : EReal := (∑ k : Fin K, xr k * wc k) + b

/-- The scale 2^-6 (= 4096^(-1/2)) as both programs spell it: the same f32 word. -/
def scale : EReal := Ideal.ofBits .f32 0x3C800000#32
/-- The value a maximum starts from: the f32 word of -∞. -/
def negInf : EReal := Ideal.ofBits .f32 0xFF800000#32

/-- The scaled score of head `h` of `q` against head `g` of `k`. -/
def score (q k : Fin 32 → Fin 128 → EReal) (h g : Fin 32) : EReal := (∑ e : Fin 128, q h e * k g e) * scale
/-- A row's maximum, folded from -∞. -/
def rowMax (s : Fin 32 → EReal) : EReal := (Finset.univ : Finset (Fin 32)).fold max negInf s
/-- The shifted exponential of a score. -/
def pexp (q k : Fin 32 → Fin 128 → EReal) (h g : Fin 32) : EReal := Ideal.exp (score q k h g - rowMax (score q k h))
/-- One token's attention output at head `h`, lane `d`. -/
def attnAt (q k v : Fin 32 → Fin 128 → EReal) (h : Fin 32) (d : Fin 128) : EReal :=
  ∑ g : Fin 32, Ideal.div (pexp q k h g) (∑ g' : Fin 32, pexp q k h g') * v g d

/-- Head `h`, lane `e` in the flattened axis of 4096. -/
def col (h : Fin 32) (e : Fin 128) : Fin 4096 := ⟨h.val * 128 + e.val, by omega⟩
/-- The head and the lane of a flattened position. -/
def headOf (j : Fin 4096) : Fin 32 := ⟨j.val / 128, by omega⟩
def laneOf (j : Fin 4096) : Fin 128 := ⟨j.val % 128, Nat.mod_lt _ (by norm_num)⟩

abbrev Mat (a b : ℕ) : Type := (⟨2, ![a, b]⟩ : Shape).Idx → EReal
abbrev Row (a : ℕ) : Type := (⟨1, ![a]⟩ : Shape).Idx → EReal

/-- A projection x·W + b of token `s`, read at head `h`, lane `e`. -/
def proj (x : Mat 8192 4096) (W : Mat 4096 4096) (b : Row 4096) (s : Fin 8192) (h : Fin 32) (e : Fin 128) : EReal :=
  linAt (fun k : Fin 4096 => x (ix2 s k)) (fun k : Fin 4096 => W (ix2 k (col h e))) (b (ix1 (col h e)))

/-- The attention output of token `s` at head `h`, lane `d`, from the three projections of its row. -/
def heads (x : Mat 8192 4096) (Wq : Mat 4096 4096) (bq : Row 4096) (Wk : Mat 4096 4096) (bk : Row 4096)
    (Wv : Mat 4096 4096) (bv : Row 4096) (s : Fin 8192) (h : Fin 32) (d : Fin 128) : EReal :=
  attnAt (proj x Wq bq s) (proj x Wk bk s) (proj x Wv bv s) h d

/-- The layer's output at token `s`, column `c`: the flattened heads against a column of Wo, plus bo. -/
def layer (x : Mat 8192 4096) (Wq : Mat 4096 4096) (bq : Row 4096) (Wk : Mat 4096 4096) (bk : Row 4096)
    (Wv : Mat 4096 4096) (bv : Row 4096) (Wo : Mat 4096 4096) (bo : Row 4096) (s : Fin 8192) (c : Fin 4096) : EReal :=
  linAt (fun j : Fin 4096 => heads x Wq bq Wk bk Wv bv s (headOf j) (laneOf j)) (fun j : Fin 4096 => Wo (ix2 j c)) (bo (ix1 c))

end Cert.Spec

end
-- ==== Proof.KI.Bridge.lean ====
/-
  The kernel program's three results, read entry by entry as the scalar formulas of the specification, given what each
  of its three kernels computes. The first host stretch narrows the activations and the weights (the same extended reals),
  lays the three projection matrices side by side and the three biases end to end; the first kernel then computes all
  three projections at once, the a-th block of 4096 columns being the a-th projection. The second stretch cuts the three
  blocks out and splits each into 32 heads of 128 lanes: position (s, h, e) is column 128·h + e of row s. The attention
  kernel reads the three and leaves the keys and the values as it found them; its output, with the heads merged back
  (column j is head j / 128, lane j % 128), is the row the last kernel sets against the output weights, plus the output
  bias.
-/
import proofs.«415280_j32959579030013_3_alg».proof.Proof.KI.Run
import proofs.«415280_j32959579030013_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## What the three kernels compute, taken as given -/

/-- The first kernel: every entry of its output is a row of its first array against a column of its second, plus the
    entry of the bias row. -/
def Lin0Fact : Prop := ∀ (V : (c : Dev nD) → (b : Ref sig .tc) → Buf (Elt Ideal) ((c : Thread nD τ).loc b)) (c : Dev nD) (r : Fin 8192) (j : Fin 12288),
    (dat0 (F := Ideal) V c).arrAt 3 cfg0.N (ix2 r j)
      = Cert.Spec.linAt (fun k : Fin 4096 => V c main_v0 (ix2 r k)) (fun k : Fin 4096 => V c main_v5 (ix2 k j)) (V c main_v7 (ix2 0 j))

/-- The second kernel: one token's attention from its three arrays of heads. -/
def AttnFact : Prop := ∀ (V : (c : Dev nD) → (b : Ref sig .tc) → Buf (Elt Ideal) ((c : Thread nD τ).loc b)) (c : Dev nD) (s : Fin 8192) (h : Fin 32) (d : Fin 128),
    (dat1 (F := Ideal) V c).arrAt 3 cfg1.N (ix3 s h d)
      = Cert.Spec.attnAt (fun h' e => V c main_v13 (ix3 s h' e)) (fun g e => V c main_v14 (ix3 s g e)) (fun g e => V c main_v15 (ix3 s g e)) h d

/-- The third kernel: again a row against a column plus the bias row's entry. -/
def Lin2Fact : Prop := ∀ (V : (c : Dev nD) → (b : Ref sig .tc) → Buf (Elt Ideal) ((c : Thread nD τ).loc b)) (c : Dev nD) (r : Fin 8192) (j : Fin 4096),
    (dat2 (F := Ideal) V c).arrAt 3 cfg2.N (ix2 r j)
      = Cert.Spec.linAt (fun k : Fin 4096 => V c main_v17 (ix2 r k)) (fun k : Fin 4096 => V c main_v4 (ix2 k j)) (V c main_v18 (ix2 0 j))

section Read

variable (m : (ℓ : Loc nD τ sig) → Buf (Elt Ideal) ℓ) (c : Dev nD)

/-! ## The first host stretch: the operands the first kernel reads -/

/-- A host operation of three operands leaves, in its result's buffer, its function of the three operands' contents,
    each read at its own buffer. -/
theorem nary3_result (x a b y : Ref sig .tc)
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]
  refine congrArg f (funext fun k => ?_)
  match k with
  | ⟨0, _⟩ => rfl
  | ⟨1, _⟩ => rfl
  | ⟨2, _⟩ => rfl

/-- Reads a host stretch's valuation at one buffer: the writing operation's function of its operands' contents, every
    other operation passed over. -/
local macro "host_results" : tactic =>
  `(tactic| repeat (first
      | rw [StableHlo.unary_result] | rw [StableHlo.reshape_result] | rw [nary3_result]
      | (rw [StableHlo.unary_result_ne]; rotate_left; decide)
      | (rw [StableHlo.reshape_result_ne]; rotate_left; decide)
      | (rw [StableHlo.nary_result_ne]; rotate_left; decide)))

/-- The activations, narrowed: the same extended reals. -/
theorem W1_v0 : W1 (F := Ideal) m c (Proc.devRef .tc main_v0) = (m ((c.tc : Thread nD τ).loc main_arg0) : S8192x4096.Idx → EReal) := by
  show StableHlo.after hostOps0 _ (Proc.devRef .tc main_v0) = _
  simp only [StableHlo.after_cons, StableHlo.after_nil]
  host_results
  rfl

/-- The output weights, narrowed: the same extended reals. -/
theorem W1_v4 : W1 (F := Ideal) m c (Proc.devRef .tc main_v4) = (m ((c.tc : Thread nD τ).loc main_arg7) : S4096x4096.Idx → EReal) := by
  show StableHlo.after hostOps0 _ (Proc.devRef .tc main_v4) = _
  simp only [StableHlo.after_cons, StableHlo.after_nil]
  host_results
  rfl

/-- The three weight matrices side by side. -/
theorem W1_v5 : W1 (F := Ideal) m c (Proc.devRef .tc main_v5)
    = concatenate S4096x12288 1 [⟨S4096x4096, (m ((c.tc : Thread nD τ).loc main_arg1) : S4096x4096.Idx → EReal)⟩,
        ⟨S4096x4096, (m ((c.tc : Thread nD τ).loc main_arg3) : S4096x4096.Idx → EReal)⟩,
        ⟨S4096x4096, (m ((c.tc : Thread nD τ).loc main_arg5) : S4096x4096.Idx → EReal)⟩]
        Facts₀.concatenates_S4096x4096_S4096x4096_S4096x4096_S4096x12288_d1 := by
  show StableHlo.after hostOps0 _ (Proc.devRef .tc main_v5) = _
  simp only [StableHlo.after_cons, StableHlo.after_nil]
  host_results
  rfl

/-- The three biases end to end, as one row. -/
theorem W1_v7 : W1 (F := Ideal) m c (Proc.devRef .tc main_v7)
    = shapeCast S1x12288 (concatenate S12288 0 [⟨S4096, (m ((c.tc : Thread nD τ).loc main_arg2) : S4096.Idx → EReal)⟩,
        ⟨S4096, (m ((c.tc : Thread nD τ).loc main_arg4) : S4096.Idx → EReal)⟩,
        ⟨S4096, (m ((c.tc : Thread nD τ).loc main_arg6) : S4096.Idx → EReal)⟩]
        Facts₀.concatenates_S4096_S4096_S4096_S12288_d0) Facts₀.shapeCasts_S12288_S1x12288 := by
  show StableHlo.after hostOps0 _ (Proc.devRef .tc main_v7) = _
  simp only [StableHlo.after_cons, StableHlo.after_nil]
  host_results
  rfl

/-- Column j of the a-th of three blocks of 4096 columns laid side by side. -/
def wcol (a : Fin 3) (j : Fin 4096) : Fin 12288 := ⟨4096 * a.val + j.val, by have := a.isLt; have := j.isLt; omega⟩

/-- Three square matrices side by side, read in the a-th block of columns, are the a-th matrix. -/
theorem cat_cols (P0 P1 P2 : S4096x4096.Idx → EReal)
    (hc : Shape.Concatenates [S4096x4096, S4096x4096, S4096x4096] S4096x12288 1) (k j : Fin 4096) :
    concatenate S4096x12288 1 [⟨S4096x4096, P0⟩, ⟨S4096x4096, P1⟩, ⟨S4096x4096, P2⟩] hc (ix2 k (wcol 0 j)) = P0 (ix2 k j)
    ∧ concatenate S4096x12288 1 [⟨S4096x4096, P0⟩, ⟨S4096x4096, P1⟩, ⟨S4096x4096, P2⟩] hc (ix2 k (wcol 1 j)) = P1 (ix2 k j)
    ∧ concatenate S4096x12288 1 [⟨S4096x4096, P0⟩, ⟨S4096x4096, P1⟩, ⟨S4096x4096, P2⟩] hc (ix2 k (wcol 2 j)) = P2 (ix2 k j) := by
  have hi : ∀ (a : Fin 3) (b : Fin S4096x4096.rank), b.cast (rfl : S4096x4096.rank = S4096x12288.rank) ≠ (1 : Fin S4096x12288.rank) →
      ((ix2 k j : S4096x4096.Idx) b).val = ((ix2 k (wcol a j) : S4096x12288.Idx) (b.cast rfl)).val := fun a b hb => by
    match b with
    | ⟨0, _⟩ => rfl
    | ⟨1, _⟩ => exact absurd rfl hb
  refine ⟨?_, ?_, ?_⟩
  · exact concatenate_apply_piece (t := S4096x12288) 1 ([⟨S4096x4096, P0⟩, ⟨S4096x4096, P1⟩, ⟨S4096x4096, P2⟩] : List ((s : Shape) × (s.Idx → EReal)))
      hc (ix2 k (wcol 0 j)) 0 (by show 0 < 3; omega) S4096x4096 P0 rfl rfl 0 rfl (ix2 k j) (hi 0) (by show 0 + j.val = 4096 * 0 + j.val; omega)
  · exact concatenate_apply_piece (t := S4096x12288) 1 ([⟨S4096x4096, P0⟩, ⟨S4096x4096, P1⟩, ⟨S4096x4096, P2⟩] : List ((s : Shape) × (s.Idx → EReal)))
      hc (ix2 k (wcol 1 j)) 1 (by show 1 < 3; omega) S4096x4096 P1 rfl rfl 4096 rfl (ix2 k j) (hi 1) (by show 4096 + j.val = 4096 * 1 + j.val; omega)
  · exact concatenate_apply_piece (t := S4096x12288) 1 ([⟨S4096x4096, P0⟩, ⟨S4096x4096, P1⟩, ⟨S4096x4096, P2⟩] : List ((s : Shape) × (s.Idx → EReal)))
      hc (ix2 k (wcol 2 j)) 2 (by show 2 < 3; omega) S4096x4096 P2 rfl rfl 8192 rfl (ix2 k j) (hi 2) (by show 8192 + j.val = 4096 * 2 + j.val; omega)

/-- Three vectors end to end, read in the a-th stretch of 4096 entries, are the a-th vector. -/
theorem cat_vecs (p0 p1 p2 : S4096.Idx → EReal)
    (hc : Shape.Concatenates [S4096, S4096, S4096] S12288 0) (j : Fin 4096) :
    concatenate S12288 0 [⟨S4096, p0⟩, ⟨S4096, p1⟩, ⟨S4096, p2⟩] hc (ix1 (wcol 0 j)) = p0 (ix1 j)
    ∧ concatenate S12288 0 [⟨S4096, p0⟩, ⟨S4096, p1⟩, ⟨S4096, p2⟩] hc (ix1 (wcol 1 j)) = p1 (ix1 j)
    ∧ concatenate S12288 0 [⟨S4096, p0⟩, ⟨S4096, p1⟩, ⟨S4096, p2⟩] hc (ix1 (wcol 2 j)) = p2 (ix1 j) := by
  have hi : ∀ (a : Fin 3) (b : Fin S4096.rank), b.cast (rfl : S4096.rank = S12288.rank) ≠ (0 : Fin S12288.rank) →
      ((ix1 j : S4096.Idx) b).val = ((ix1 (wcol a j) : S12288.Idx) (b.cast rfl)).val := fun a b hb => by
    match b with
    | ⟨0, _⟩ => exact absurd rfl hb
  refine ⟨?_, ?_, ?_⟩
  · exact concatenate_apply_piece (t := S12288) 0 ([⟨S4096, p0⟩, ⟨S4096, p1⟩, ⟨S4096, p2⟩] : List ((s : Shape) × (s.Idx → EReal)))
      hc (ix1 (wcol 0 j)) 0 (by show 0 < 3; omega) S4096 p0 rfl rfl 0 rfl (ix1 j) (hi 0) (by show 0 + j.val = 4096 * 0 + j.val; omega)
  · exact concatenate_apply_piece (t := S12288) 0 ([⟨S4096, p0⟩, ⟨S4096, p1⟩, ⟨S4096, p2⟩] : List ((s : Shape) × (s.Idx → EReal)))
      hc (ix1 (wcol 1 j)) 1 (by show 1 < 3; omega) S4096 p1 rfl rfl 4096 rfl (ix1 j) (hi 1) (by show 4096 + j.val = 4096 * 1 + j.val; omega)
  · exact concatenate_apply_piece (t := S12288) 0 ([⟨S4096, p0⟩, ⟨S4096, p1⟩, ⟨S4096, p2⟩] : List ((s : Shape) × (s.Idx → EReal)))
      hc (ix1 (wcol 2 j)) 2 (by show 2 < 3; omega) S4096 p2 rfl rfl 8192 rfl (ix1 j) (hi 2) (by show 8192 + j.val = 4096 * 2 + j.val; omega)

/-! ## The fused projection and its three blocks of columns -/

/-- A row against a column plus a bias entry depends only on the row's, the column's and the bias's values. -/
theorem linAt_congr {K : ℕ} {xr xr' wc wc' : Fin K → EReal} {b b' : EReal} (h1 : ∀ k, xr k = xr' k) (h2 : ∀ k, wc k = wc' k)
    (h3 : b = b') : Cert.Spec.linAt xr wc b = Cert.Spec.linAt xr' wc' b' := by
  obtain rfl := funext h1
  obtain rfl := funext h2
  obtain rfl := h3
  rfl

/-- The first kernel's output at row s and column j of each block of columns: row s of the activations against column j
    of that block's weight matrix, plus entry j of that block's bias. -/
theorem fused_read (h0 : Lin0Fact) (s : Fin 8192) (j : Fin 4096) :
    W2 (F := Ideal) m c (Proc.devRef .tc main_v8) (ix2 s (wcol 0 j))
        = Cert.Spec.linAt (fun k : Fin 4096 => (m ((c.tc : Thread nD τ).loc main_arg0)) (ix2 s k)) (fun k : Fin 4096 => (m ((c.tc : Thread nD τ).loc main_arg1)) (ix2 k j)) ((m ((c.tc : Thread nD τ).loc main_arg2)) (ix1 j))
    ∧ W2 (F := Ideal) m c (Proc.devRef .tc main_v8) (ix2 s (wcol 1 j))
        = Cert.Spec.linAt (fun k : Fin 4096 => (m ((c.tc : Thread nD τ).loc main_arg0)) (ix2 s k)) (fun k : Fin 4096 => (m ((c.tc : Thread nD τ).loc main_arg3)) (ix2 k j)) ((m ((c.tc : Thread nD τ).loc main_arg4)) (ix1 j))
    ∧ W2 (F := Ideal) m c (Proc.devRef .tc main_v8) (ix2 s (wcol 2 j))
        = Cert.Spec.linAt (fun k : Fin 4096 => (m ((c.tc : Thread nD τ).loc main_arg0)) (ix2 s k)) (fun k : Fin 4096 => (m ((c.tc : Thread nD τ).loc main_arg5)) (ix2 k j)) ((m ((c.tc : Thread nD τ).loc main_arg6)) (ix1 j)) := by
  have e8 : W2 (F := Ideal) m c (Proc.devRef .tc main_v8) = (dat0 (F := Ideal) (V1 m) c).arrAt 3 cfg0.N := W2_arr m c 3
  have hx : ∀ k : Fin 4096, V1 (F := Ideal) m c main_v0 (ix2 s k) = (m ((c.tc : Thread nD τ).loc main_arg0)) (ix2 s k) := fun k => congrFun (W1_v0 m c) (ix2 s k)
  have hW := fun (a : Fin 3) (k : Fin 4096) => congrFun (W1_v5 m c) (ix2 k (wcol a j))
  have hb := fun (a : Fin 3) => (congrFun (W1_v7 m c) (ix2 (0 : Fin 1) (wcol a j))).trans
    (shapeCast_a_1a_apply _ Facts₀.shapeCasts_S12288_S1x12288 0 (wcol a j))
  refine ⟨?_, ?_, ?_⟩
  · exact (congrFun e8 _).trans ((h0 (V1 m) c s (wcol 0 j)).trans (linAt_congr hx
      (fun k => (hW 0 k).trans (cat_cols _ _ _ _ k j).1) ((hb 0).trans (cat_vecs _ _ _ _ j).1)))
  · exact (congrFun e8 _).trans ((h0 (V1 m) c s (wcol 1 j)).trans (linAt_congr hx
      (fun k => (hW 1 k).trans (cat_cols _ _ _ _ k j).2.1) ((hb 1).trans (cat_vecs _ _ _ _ j).2.1)))
  · exact (congrFun e8 _).trans ((h0 (V1 m) c s (wcol 2 j)).trans (linAt_congr hx
      (fun k => (hW 2 k).trans (cat_cols _ _ _ _ k j).2.2) ((hb 2).trans (cat_vecs _ _ _ _ j).2.2)))

/-! ## The second host stretch: the three blocks of columns cut out and split into heads -/

theorem W3_v13 : W3 (F := Ideal) m c (Proc.devRef .tc main_v13)
    = shapeCast S8192x32x128 (extractStridedSlice S8192x4096 ![0, 0] (W2 (F := Ideal) m c (Proc.devRef .tc main_v8) : S8192x12288.Idx → EReal)
        Facts₀.slices_S8192x12288_S8192x4096_0_0) Facts₀.shapeCasts_S8192x4096_S8192x32x128 := by
  show StableHlo.after hostOps1 _ (Proc.devRef .tc main_v13) = _
  simp only [StableHlo.after_cons, StableHlo.after_nil]
  host_results
  rfl

theorem W3_v14 : W3 (F := Ideal) m c (Proc.devRef .tc main_v14)
    = shapeCast S8192x32x128 (extractStridedSlice S8192x4096 ![0, 4096] (W2 (F := Ideal) m c (Proc.devRef .tc main_v8) : S8192x12288.Idx → EReal)
        Facts₀.slices_S8192x12288_S8192x4096_0_4096) Facts₀.shapeCasts_S8192x4096_S8192x32x128 := by
  show StableHlo.after hostOps1 _ (Proc.devRef .tc main_v14) = _
  simp only [StableHlo.after_cons, StableHlo.after_nil]
  host_results
  rfl

theorem W3_v15 : W3 (F := Ideal) m c (Proc.devRef .tc main_v15)
    = shapeCast S8192x32x128 (extractStridedSlice S8192x4096 ![0, 8192] (W2 (F := Ideal) m c (Proc.devRef .tc main_v8) : S8192x12288.Idx → EReal)
        Facts₀.slices_S8192x12288_S8192x4096_0_8192) Facts₀.shapeCasts_S8192x4096_S8192x32x128 := by
  show StableHlo.after hostOps1 _ (Proc.devRef .tc main_v15) = _
  simp only [StableHlo.after_cons, StableHlo.after_nil]
  host_results
  rfl

/-- A [8192, 4096] array split into 32 heads of 128 lanes reads, at (s, h, e), the flat array at (s, 128·h + e). -/
theorem split_apply (X : S8192x4096.Idx → EReal) (hsc : S8192x4096.ShapeCasts S8192x32x128) (s : Fin 8192) (h : Fin 32) (e : Fin 128) :
    shapeCast S8192x32x128 X hsc (ix3 s h e) = X (ix2 s (Cert.Spec.col h e)) :=
  shapeCast_apply X hsc _ _ (by
    have hs := s.isLt
    have hh := h.isLt
    have he := e.isLt
    rw [Shape.rowMajor_val_two, Shape.rowMajor_val_three]
    show s.val * 4096 + (h.val * 128 + e.val) = (s.val * 32 + h.val) * 128 + e.val
    omega)

/-- The three arrays of heads the attention kernel reads are the three projections of the specification. -/
theorem qkv_read (h0 : Lin0Fact) (s : Fin 8192) (h : Fin 32) (e : Fin 128) :
    W3 (F := Ideal) m c (Proc.devRef .tc main_v13) (ix3 s h e) = Cert.Spec.proj (m ((c.tc : Thread nD τ).loc main_arg0)) (m ((c.tc : Thread nD τ).loc main_arg1)) (m ((c.tc : Thread nD τ).loc main_arg2)) s h e
    ∧ W3 (F := Ideal) m c (Proc.devRef .tc main_v14) (ix3 s h e) = Cert.Spec.proj (m ((c.tc : Thread nD τ).loc main_arg0)) (m ((c.tc : Thread nD τ).loc main_arg3)) (m ((c.tc : Thread nD τ).loc main_arg4)) s h e
    ∧ W3 (F := Ideal) m c (Proc.devRef .tc main_v15) (ix3 s h e) = Cert.Spec.proj (m ((c.tc : Thread nD τ).loc main_arg0)) (m ((c.tc : Thread nD τ).loc main_arg5)) (m ((c.tc : Thread nD τ).loc main_arg6)) s h e := by
  have hf := fused_read m c h0 s (Cert.Spec.col h e)
  refine ⟨?_, ?_, ?_⟩
  · exact (congrFun (W3_v13 m c) _).trans ((split_apply _ _ s h e).trans
      ((slice2_axis1_apply 0 _ Facts₀.slices_S8192x12288_S8192x4096_0_0 s (Cert.Spec.col h e) (wcol 0 (Cert.Spec.col h e))
        (by show 4096 * 0 + (Cert.Spec.col h e).val = 0 + (Cert.Spec.col h e).val; omega)).trans hf.1))
  · exact (congrFun (W3_v14 m c) _).trans ((split_apply _ _ s h e).trans
      ((slice2_axis1_apply 4096 _ Facts₀.slices_S8192x12288_S8192x4096_0_4096 s (Cert.Spec.col h e) (wcol 1 (Cert.Spec.col h e))
        (by show 4096 * 1 + (Cert.Spec.col h e).val = 4096 + (Cert.Spec.col h e).val; omega)).trans hf.2.1))
  · exact (congrFun (W3_v15 m c) _).trans ((split_apply _ _ s h e).trans
      ((slice2_axis1_apply 8192 _ Facts₀.slices_S8192x12288_S8192x4096_0_8192 s (Cert.Spec.col h e) (wcol 2 (Cert.Spec.col h e))
        (by show 4096 * 2 + (Cert.Spec.col h e).val = 8192 + (Cert.Spec.col h e).val; omega)).trans hf.2.2))

/-! ## The keys and the values at the end of the run -/

/-- What the attention kernel leaves in an array it only reads is what it found there. -/
theorem W4_v14 : W4 (F := Ideal) m c (Proc.devRef .tc main_v14) = W3 (F := Ideal) m c (Proc.devRef .tc main_v14) :=
  (W4_arr m c 1).trans (((dat1 (F := Ideal) (V3 m) c).arrAt_in 1 rfl cfg1.N).trans (A_eq1 (V3 m) c 1))
theorem W4_v15 : W4 (F := Ideal) m c (Proc.devRef .tc main_v15) = W3 (F := Ideal) m c (Proc.devRef .tc main_v15) :=
  (W4_arr m c 2).trans (((dat1 (F := Ideal) (V3 m) c).arrAt_in 2 rfl cfg1.N).trans (A_eq1 (V3 m) c 2))

theorem k_read (h0 : Lin0Fact) (s : Fin 8192) (h : Fin 32) (e : Fin 128) :
    W6 (F := Ideal) m c (Proc.devRef .tc main_v14) (ix3 s h e) = Cert.Spec.proj (m ((c.tc : Thread nD τ).loc main_arg0)) (m ((c.tc : Thread nD τ).loc main_arg3)) (m ((c.tc : Thread nD τ).loc main_arg4)) s h e :=
  (congrFun ((W6_of_ne m c main_v14 (by decide)).trans ((W5_of m c main_v14 (by decide)).trans (W4_v14 m c))) _).trans
    (qkv_read m c h0 s h e).2.1

theorem v_read (h0 : Lin0Fact) (s : Fin 8192) (h : Fin 32) (e : Fin 128) :
    W6 (F := Ideal) m c (Proc.devRef .tc main_v15) (ix3 s h e) = Cert.Spec.proj (m ((c.tc : Thread nD τ).loc main_arg0)) (m ((c.tc : Thread nD τ).loc main_arg5)) (m ((c.tc : Thread nD τ).loc main_arg6)) s h e :=
  (congrFun ((W6_of_ne m c main_v15 (by decide)).trans ((W5_of m c main_v15 (by decide)).trans (W4_v15 m c))) _).trans
    (qkv_read m c h0 s h e).2.2

/-! ## The attention output, the last host stretch and the output layer -/

theorem W4_v13 : W4 (F := Ideal) m c (Proc.devRef .tc main_v13) = W3 (F := Ideal) m c (Proc.devRef .tc main_v13) :=
  (W4_arr m c 0).trans (((dat1 (F := Ideal) (V3 m) c).arrAt_in 0 rfl cfg1.N).trans (A_eq1 (V3 m) c 0))

/-- The attention kernel's output at token s, head h, lane d is the specification's attention of the three projections. -/
theorem attn_read (h0 : Lin0Fact) (h1 : AttnFact) (s : Fin 8192) (h : Fin 32) (d : Fin 128) :
    W4 (F := Ideal) m c (Proc.devRef .tc main_v16) (ix3 s h d) = Cert.Spec.heads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) s h d := by
  have e16 : W4 (F := Ideal) m c (Proc.devRef .tc main_v16) = (dat1 (F := Ideal) (V3 m) c).arrAt 3 cfg1.N := W4_arr m c 3
  have eq : (fun (h' : Fin 32) (e : Fin 128) => V3 (F := Ideal) m c main_v13 (ix3 s h' e)) = Cert.Spec.proj (m ((c.tc : Thread nD τ).loc main_arg0)) (m ((c.tc : Thread nD τ).loc main_arg1)) (m ((c.tc : Thread nD τ).loc main_arg2)) s :=
    funext fun h' => funext fun e => (qkv_read m c h0 s h' e).1
  have ek : (fun (g : Fin 32) (e : Fin 128) => V3 (F := Ideal) m c main_v14 (ix3 s g e)) = Cert.Spec.proj (m ((c.tc : Thread nD τ).loc main_arg0)) (m ((c.tc : Thread nD τ).loc main_arg3)) (m ((c.tc : Thread nD τ).loc main_arg4)) s :=
    funext fun g => funext fun e => (qkv_read m c h0 s g e).2.1
  have ev : (fun (g : Fin 32) (e : Fin 128) => V3 (F := Ideal) m c main_v15 (ix3 s g e)) = Cert.Spec.proj (m ((c.tc : Thread nD τ).loc main_arg0)) (m ((c.tc : Thread nD τ).loc main_arg5)) (m ((c.tc : Thread nD τ).loc main_arg6)) s :=
    funext fun g => funext fun e => (qkv_read m c h0 s g e).2.2
  refine (congrFun e16 _).trans ((h1 (V3 m) c s h d).trans ?_)
  unfold Cert.Spec.heads
  rw [← eq, ← ek, ← ev]

theorem W5_v17 : W5 (F := Ideal) m c (Proc.devRef .tc main_v17)
    = shapeCast S8192x4096 (W4 (F := Ideal) m c (Proc.devRef .tc main_v16) : S8192x32x128.Idx → EReal) Facts₀.shapeCasts_S8192x32x128_S8192x4096 := by
  show StableHlo.after hostOps2 _ (Proc.devRef .tc main_v17) = _
  simp only [StableHlo.after_cons, StableHlo.after_nil]
  host_results
  rfl

theorem W5_v18 : W5 (F := Ideal) m c (Proc.devRef .tc main_v18)
    = shapeCast S1x4096 (W4 (F := Ideal) m c (Proc.devRef .tc main_arg8) : S4096.Idx → EReal) Facts₀.shapeCasts_S4096_S1x4096 := by
  show StableHlo.after hostOps2 _ (Proc.devRef .tc main_v18) = _
  simp only [StableHlo.after_cons, StableHlo.after_nil]
  host_results
  rfl

/-- The narrowed output weights reach the last kernel as the first stretch left them. -/
theorem W5_v4 : W5 (F := Ideal) m c (Proc.devRef .tc main_v4) = ((m ((c.tc : Thread nD τ).loc main_arg7)) : S4096x4096.Idx → EReal) :=
  (W5_of m c main_v4 (by decide)).trans ((W4_of_ne m c main_v4 (by decide)).trans ((W3_of m c main_v4 (by decide)).trans
    ((W2_of_ne m c main_v4 (by decide)).trans (W1_v4 m c))))

/-- The output bias is as launched when the last stretch reads it. -/
theorem W4_arg8 : W4 (F := Ideal) m c (Proc.devRef .tc main_arg8) = (m ((c.tc : Thread nD τ).loc main_arg8)) :=
  (W4_of_ne m c main_arg8 (by decide)).trans ((W3_of m c main_arg8 (by decide)).trans
    ((W2_of_ne m c main_arg8 (by decide)).trans ((W1_of m c main_arg8 (by decide)).trans rfl)))

/-- The 32 heads of 128 lanes merged back into 4096 columns: column j is head j / 128, lane j % 128. -/
theorem merge_apply (X : S8192x32x128.Idx → EReal) (hsc : S8192x32x128.ShapeCasts S8192x4096) (s : Fin 8192) (j : Fin 4096) :
    shapeCast S8192x4096 X hsc (ix2 s j) = X (ix3 s (Cert.Spec.headOf j) (Cert.Spec.laneOf j)) :=
  shapeCast_apply X hsc _ _ (by
    have hs := s.isLt
    have hj := j.isLt
    rw [Shape.rowMajor_val_two, Shape.rowMajor_val_three]
    show (s.val * 32 + j.val / 128) * 128 + j.val % 128 = s.val * 4096 + j.val
    omega)

theorem out_read (h0 : Lin0Fact) (h1 : AttnFact) (h2 : Lin2Fact) (s : Fin 8192) (j : Fin 4096) :
    W6 (F := Ideal) m c (Proc.devRef .tc main_v19) (ix2 s j)
      = Cert.Spec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) s j := by
  have e19 : W6 (F := Ideal) m c (Proc.devRef .tc main_v19) = (dat2 (F := Ideal) (V5 m) c).arrAt 3 cfg2.N := W6_arr m c 3
  refine (congrFun e19 _).trans ((h2 (V5 m) c s j).trans ?_)
  exact linAt_congr
    (fun k => (congrFun (W5_v17 m c) (ix2 s k)).trans ((merge_apply _ _ s k).trans (attn_read m c h0 h1 s _ _)))
    (fun k => congrFun (W5_v4 m c) (ix2 k j))
    ((congrFun (W5_v18 m c) (ix2 (0 : Fin 1) j)).trans ((shapeCast_a_1a_apply _ Facts₀.shapeCasts_S4096_S1x4096 0 j).trans
      (congrFun (W4_arg8 m c) (ix1 j))))

end Read

/-! ## The three results -/

theorem k_value (h0 : Lin0Fact) (m : (ℓ : Loc nD τ sig) → Buf (Elt Ideal) ℓ) (c : Dev nD) (s : Fin 8192) (h : Fin 32) (e : Fin 128) :
    W6 (F := Ideal) m c (Proc.devRef .tc main_v14) (ix3 s h e) = Cert.Spec.proj (m ((c.tc : Thread nD τ).loc main_arg0)) (m ((c.tc : Thread nD τ).loc main_arg3)) (m ((c.tc : Thread nD τ).loc main_arg4)) s h e :=
  k_read m c h0 s h e

theorem v_value (h0 : Lin0Fact) (m : (ℓ : Loc nD τ sig) → Buf (Elt Ideal) ℓ) (c : Dev nD) (s : Fin 8192) (h : Fin 32) (e : Fin 128) :
    W6 (F := Ideal) m c (Proc.devRef .tc main_v15) (ix3 s h e) = Cert.Spec.proj (m ((c.tc : Thread nD τ).loc main_arg0)) (m ((c.tc : Thread nD τ).loc main_arg5)) (m ((c.tc : Thread nD τ).loc main_arg6)) s h e :=
  v_read m c h0 s h e

theorem out_value (h0 : Lin0Fact) (h1 : AttnFact) (h2 : Lin2Fact) (m : (ℓ : Loc nD τ sig) → Buf (Elt Ideal) ℓ) (c : Dev nD) (s : Fin 8192) (j : Fin 4096) :
    W6 (F := Ideal) m c (Proc.devRef .tc main_v19) (ix2 s j)
      = Cert.Spec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) s j :=
  out_read m c h0 h1 h2 s j

end Cert.KernelIdeal.Hand

end
-- ==== Proof.KI.Lin0Value.lean ====
/-
  The value of the first tiled product with bias, index by index, at the extended reals. The grid runs over
  (row tile, column tile, contraction block) with the contraction block fastest, so the positions come in runs of eight
  that share one row tile and one column tile. Within a run the accumulator starts from zero and gains, at each position,
  the product of a [1024, 512] tile of the activations with a [512, 2048] tile of the weights: after the position with
  contraction block k its entry (p, q) is the sum of the products over the first 512 × (k + 1) contraction indices of the
  row and the column that (p, q) sits at in the whole arrays. At the last position of a run that is the whole contraction
  of length 4096, and the block written back is this sum plus the bias entry of the column. The blocks written back tile the
  output array, so every entry of it is: the row of the activations against the column of the weights, plus the bias entry.
-/
import proofs.«415280_j32959579030013_3_alg».proof.Proof.KI.Lin0Frame
import proofs.«415280_j32959579030013_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Pieces
variable {F : FTy → Type} [FloatOps F]

theorem hz0 : (![0, 0] : Fin 2 → Nat) = fun _ => 0 := funext fun a => by fin_cases a <;> rfl

/-- A first contraction block leaves in the accumulator the tile product added to the zero splat. -/
theorem accFirst0_eq (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first0 i) (hc1 : ¬last0 i)
    (x0 : Vec F S1024x512 .bf16) (x1 : Vec F S512x2048 .bf16) (x2 : Vec F S1x2048 .f32) :
    accFirst0 c i arg3 harg3 arg4 harg4 arg5 harg5 arg6 harg6 arg7 harg7 hc0 hc1 x0 x1 x2 = k0_pay2 x0 x1 (k0_pay1 (F := F)) := by
  unfold accFirst0
  rw [View.read_writes_eq_canon _ _ _ (accCoverFirst0 c i arg3 harg3 arg4 harg4 arg5 harg5 arg6 harg6 arg7 harg7 hc0 hc1 x0 x1 x2)]
  unfold runFirst0
  dsimp only
  sl_unfold_words
  rw [View.canon_cons_unit_zero (S := S1024x2048) hz0]
  simp only [View.readAt_eq_ld, harg3.read_unread, harg4.read_unread, View.ld_unit_zero (S := S1024x512) hz0, View.ld_unit_zero (S := S512x2048) hz0, View.readCov_unit_zero (S := S1024x2048) _ hz0]

/-- A middle contraction block leaves in the accumulator the tile product added to what it held. -/
theorem accMid0_eq (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : ¬last0 i)
    (x0 : Vec F S1024x512 .bf16) (x1 : Vec F S512x2048 .bf16) (x2 : Vec F S1x2048 .f32) (xs0 : Vec F S1024x2048 .f32) :
    accMid0 c i arg3 harg3 arg4 harg4 arg5 harg5 arg6 harg6 arg7 harg7 hc0 hc1 x0 x1 x2 xs0 = k0_pay2 x0 x1 xs0 := by
  unfold accMid0
  rw [View.read_writes_eq_canon _ _ _ (accCoverMid0 c i arg3 harg3 arg4 harg4 arg5 harg5 arg6 harg6 arg7 harg7 hc0 hc1 x0 x1 x2 xs0)]
  unfold runMid0
  dsimp only
  sl_unfold_words
  rw [View.canon_unit_zero hz0]
  simp only [View.readAt_eq_ld, harg3.read_unread, harg4.read_unread, harg7.read_unread, View.ld_unit_zero (S := S1024x512) hz0, View.ld_unit_zero (S := S512x2048) hz0, View.ld_unit_zero (S := S1024x2048) hz0]

/-- The last contraction block leaves the same in the accumulator, -/
theorem accLast0_eq (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) :
    accLast0 c i arg3 harg3 arg4 harg4 arg5 harg5 arg6 harg6 arg7 harg7 hc0 hc1 x0 x1 x2 xs0 = k0_pay2 x0 x1 xs0 := by
  unfold accLast0
  rw [View.read_writes_eq_canon _ _ _ (accCoverLast0 c i arg3 harg3 arg4 harg4 arg5 harg5 arg6 harg6 arg7 harg7 hc0 hc1 x0 x1 x2 xs0)]
  unfold runLast0
  dsimp only
  sl_unfold_words
  rw [View.canon_unit_zero hz0]
  simp only [View.readAt_eq_ld, harg3.read_unread, harg4.read_unread, harg7.read_unread, View.ld_unit_zero (S := S1024x512) hz0, View.ld_unit_zero (S := S512x2048) hz0, View.ld_unit_zero (S := S1024x2048) hz0]

/-- and in the output block that accumulator plus the bias row broadcast down the rows. -/
theorem outLast0_eq (c : Dev nD) (i : grid0.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first0 i) (hc1 : last0 i)
    (x0 : Vec F S1024x512 .bf16) (x1 : Vec F S512x2048 .bf16) (x2 : Vec F S1x2048 .f32) (xs0 : Vec F S1024x2048 .f32) :
    outLast0 c i arg3 harg3 arg4 harg4 arg5 harg5 arg6 harg6 arg7 harg7 hc0 hc1 x0 x1 x2 xs0 = k0_pay3 (k0_pay2 x0 x1 xs0) x2 := by
  unfold outLast0
  rw [View.read_writes_eq_canon _ _ _ (outCoverLast0 c i arg3 harg3 arg4 harg4 arg5 harg5 arg6 harg6 arg7 harg7 hc0 hc1 x0 x1 x2 xs0)]
  unfold runLast0
  dsimp only
  sl_unfold_words
  rw [View.canon_unit_zero hz0]
  simp only [View.readAt_eq_ld, harg3.read_unread, harg4.read_unread, harg5.read_unread, harg7.read_unread, View.ld_unit_zero (S := S1024x512) hz0, View.ld_unit_zero (S := S512x2048) hz0, View.ld_unit_zero (S := S1024x2048) hz0, View.ld_unit_zero (S := S1x2048) hz0, View.readCov_unit_zero (S := S1024x2048) _ hz0]

end Pieces

section Payloads

/-- The matrix product's left operand is read at (output row, contraction index). -/
theorem mmLhsRow0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem mmLhsCol0 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
/-- The right operand is read at (contraction index, output column). -/
theorem mmRhsRow0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem mmRhsCol0 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The tile product into a zero accumulator, entry by entry: a row of the left tile against a column of the right. -/
theorem mm0_apply (x0 : FVec Ideal S1024x512 .bf16) (x1 : FVec Ideal S512x2048 .bf16) (p : Fin 1024) (q : Fin 2048) :
    matmul (F := Ideal) dot_S1024x512_S512x2048_S1024x2048_1_0_0_1_n_n none x0 x1 (constant (F := Ideal) S1024x2048 .f32 0x00000000#32) (ix2 p q)
      = ∑ kk : Fin 512, x0 (ix2 p kk) * x1 (ix2 kk q) := by
  refine (Ideal.matmul_constant_zero_apply dot_S1024x512_S512x2048_S1024x2048_1_0_0_1_n_n none x0 x1 (ix2 p q)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun a => Fin.ext (by
    match a with
    | ⟨0, _⟩ => exact mmLhsRow0 _ _
    | ⟨1, _⟩ => exact (mmLhsCol0 _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun a => Fin.ext (by
    match a with
    | ⟨0, _⟩ => exact (mmRhsRow0 _ _).trans hk
    | ⟨1, _⟩ => exact mmRhsCol0 _ _)
  rw [el, er]

/-- The accumulator's update, entry by entry: what it held plus the tile product's entry. -/
theorem pay2_at0 (x0 : FVec Ideal S1024x512 .bf16) (x1 : FVec Ideal S512x2048 .bf16) (xs : FVec Ideal S1024x2048 .f32) (p : Fin 1024) (q : Fin 2048) :
    k0_pay2 (F := Ideal) x0 x1 xs (ix2 p q) = xs (ix2 p q) + ∑ kk : Fin 512, x0 (ix2 p kk) * x1 (ix2 kk q) := by
  unfold k0_pay2
  simp only [shapeCast_self]
  exact congrArg (xs (ix2 p q) + ·) (mm0_apply x0 x1 p q)

/-- The zero splat, entry by entry. -/
theorem pay1_at0 (p : Fin 1024) (q : Fin 2048) : k0_pay1 (F := Ideal) (ix2 p q) = 0 := by
  unfold k0_pay1
  simp only [shapeCast_self]
  exact Ideal.ofBits_zero_f32

/-- The write-out, entry by entry: the accumulator's entry plus the bias row's entry of that column. -/
theorem pay3_at0 (a : FVec Ideal S1024x2048 .f32) (b : FVec Ideal S1x2048 .f32) (p : Fin 1024) (q : Fin 2048) :
    k0_pay3 (F := Ideal) a b (ix2 p q) = a (ix2 p q) + b (ix2 (0 : Fin 1) q) := by
  unfold k0_pay3
  simp only [shapeCast_self]
  exact congrArg (a (ix2 p q) + ·) (broadcastTo_1b_ab_apply b broadcasts_S1x2048_S1024x2048 p q)

end Payloads

section Blocks
variable {F : FTy → Type} [FloatOps F]
variable (V : (c : Dev nD) → (b : Ref sig .tc) → Buf (Elt F) ((c : Thread nD τ).loc b))

/-- The three input tiles at a grid position, and the three input arrays. -/
abbrev xblk0 (c : Dev nD) (t : Fin cfg0.N) : Vec F S1024x512 .bf16 := iblk0 V c 0 t
abbrev wblk0 (c : Dev nD) (t : Fin cfg0.N) : Vec F S512x2048 .bf16 := iblk0 V c 1 t
abbrev bblk0 (c : Dev nD) (t : Fin cfg0.N) : Vec F S1x2048 .f32 := iblk0 V c 2 t
abbrev xarr0 (c : Dev nD) : Vec F S8192x4096 .bf16 := V c main_v0
abbrev warr0 (c : Dev nD) : Vec F S4096x12288 .bf16 := V c main_v5
abbrev barr0 (c : Dev nD) : Vec F S1x12288 .f32 := V c main_v7

/-- The tiles' block indices at position t: the row tile is t / 48, the column tile t / 8 % 6, the contraction block t % 8. -/
theorem tileIdx0 : ∀ t : Fin cfg0.N, win0_0.index t (0 : Fin 2) = t.val / 48 ∧ win0_0.index t (1 : Fin 2) = t.val % 8
    ∧ win0_1.index t (0 : Fin 2) = t.val % 8 ∧ win0_1.index t (1 : Fin 2) = t.val / 8 % 6
    ∧ win0_2.index t (0 : Fin 2) = 0 ∧ win0_2.index t (1 : Fin 2) = t.val / 8 % 6
    ∧ win0_3.index t (0 : Fin 2) = t.val / 48 ∧ win0_3.index t (1 : Fin 2) = t.val / 8 % 6 :=
  (by decide +kernel : ∀ t : Fin grid0.N, _)

/-- An entry of the activations' tile is the array's entry at (row tile × 1024 + row, contraction block × 512 + index). -/
theorem xblk0_at (c : Dev nD) (t : Fin cfg0.N) (p : Fin 1024) (kk : Fin 512) (r : Fin 8192) (k : Fin 4096)
    (hr : r.val = 1024 * (t.val / 48) + p.val) (hk : k.val = 512 * (t.val % 8) + kk.val) :
    xblk0 V c t (ix2 p kk) = xarr0 V c (ix2 r k) := by
  obtain ⟨e0, e1, -⟩ := tileIdx0 t
  unfold xblk0 xarr0 iblk0
  rw [View.read_apply]
  show V c main_v0 _ = V c main_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * kk.val = k.val; rw [e1, hk]; omega

/-- An entry of the weights' tile is the array's entry at (contraction block × 512 + index, column tile × 2048 + column). -/
theorem wblk0_at (c : Dev nD) (t : Fin cfg0.N) (kk : Fin 512) (q : Fin 2048) (k : Fin 4096) (j : Fin 12288)
    (hk : k.val = 512 * (t.val % 8) + kk.val) (hj : j.val = 2048 * (t.val / 8 % 6) + q.val) :
    wblk0 V c t (ix2 kk q) = warr0 V c (ix2 k j) := by
  obtain ⟨-, -, e0, e1, -⟩ := tileIdx0 t
  unfold wblk0 warr0 iblk0
  rw [View.read_apply]
  show V c main_v5 _ = V c main_v5 _
  congr 1
  funext a
  apply Fin.ext
  match a with
  | ⟨0, _⟩ => show win0_1.index t (0 : Fin 2) * 512 + 1 * kk.val = k.val; rw [e0, hk]; omega
  | ⟨1, _⟩ => show win0_1.index t (1 : Fin 2) * 2048 + 1 * q.val = j.val; rw [e1, hj]; omega

/-- An entry of the bias tile is the bias row's entry at column tile × 2048 + column. -/
theorem bblk0_at (c : Dev nD) (t : Fin cfg0.N) (q : Fin 2048) (j : Fin 12288)
    (hj : j.val = 2048 * (t.val / 8 % 6) + q.val) :
    bblk0 V c t (ix2 (0 : Fin 1) q) = barr0 V c (ix2 (0 : Fin 1) j) := by
  obtain ⟨-, -, -, -, e0, e1, -⟩ := tileIdx0 t
  unfold bblk0 barr0 iblk0
  rw [View.read_apply]
  show V c main_v7 _ = V c main_v7 _
  congr 1
  funext a
  apply Fin.ext
  match a with
  | ⟨0, _⟩ => show win0_2.index t (0 : Fin 2) * 1 + 1 * 0 = 0; rw [e0]
  | ⟨1, _⟩ => show win0_2.index t (1 : Fin 2) * 2048 + 1 * q.val = j.val; rw [e1, hj]; omega

end Blocks

section Steps
variable {F : FTy → Type} [FloatOps F]
variable (V : (c : Dev nD) → (b : Ref sig .tc) → Buf (Elt F) ((c : Thread nD τ).loc b))

/-- The accumulator and the output block after position n. -/
abbrev acc0 (c : Dev nD) (n : ℕ) (hn : n < cfg0.N) : Vec F S1024x2048 .f32 := (outsAt0 V c n hn).2
abbrev res0 (c : Dev nD) (n : ℕ) (hn : n < cfg0.N) : Vec F S1024x2048 .f32 := (outsAt0 V c n hn).1

/-- At a first contraction block the accumulator restarts from the zero splat. -/
theorem acc0_first (c : Dev nD) (t : Fin cfg0.N) (h0 : t.val % 8 = 0) :
    acc0 V c t.val t.isLt = k0_pay2 (xblk0 V c t) (wblk0 V c t) (k0_pay1 (F := F)) := by
  have h1 : ¬t.val % 8 = 7 := by omega
  show (outsAt0 V c t.val t.isLt).2 = _
  rw [outsAt0_first V c t h0 h1]
  dsimp only
  exact accFirst0_eq (F := F) c (grid0.coords t) (ms0_0 t) (hs0_0 t) (ms0_1 t) (hs0_1 t) (ms0_2 t) (hs0_2 t) (ms0_3 t) (hs0_3 t) accM0 (Memref.isWhole_whole _) ((first0_iff t).mpr h0) (fun h => h1 ((last0_iff t).mp h)) (iblk0 V c 0 t) (iblk0 V c 1 t) (iblk0 V c 2 t)

/-- At every other contraction block it continues from what the position before left. -/
theorem acc0_next (c : Dev nD) (t : Fin cfg0.N) (h0 : ¬t.val % 8 = 0) :
    acc0 V c t.val t.isLt = k0_pay2 (xblk0 V c t) (wblk0 V c t) (acc0 V c (t.val - 1) (Nat.lt_of_le_of_lt (Nat.sub_le _ _) t.isLt)) := by
  show (outsAt0 V c t.val t.isLt).2 = _
  by_cases h1 : t.val % 8 = 7
  · rw [outsAt0_last V c t h0 h1]
    dsimp only
    exact accLast0_eq (F := F) c (grid0.coords t) (ms0_0 t) (hs0_0 t) (ms0_1 t) (hs0_1 t) (ms0_2 t) (hs0_2 t) (ms0_3 t) (hs0_3 t) accM0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2
  · rw [outsAt0_mid V c t h0 h1]
    dsimp only
    exact accMid0_eq (F := F) c (grid0.coords t) (ms0_0 t) (hs0_0 t) (ms0_1 t) (hs0_1 t) (ms0_2 t) (hs0_2 t) (ms0_3 t) (hs0_3 t) accM0 (Memref.isWhole_whole _) (fun h => h0 ((first0_iff t).mp h)) (fun h => h1 ((last0_iff t).mp h)) (iblk0 V c 0 t) (iblk0 V c 1 t) (iblk0 V c 2 t) (outsAt0 V c (t.val - 1) (Nat.lt_of_le_of_lt (Nat.sub_le _ _) t.isLt)).2

/-- At the last contraction block the output block is the accumulator plus the bias row. -/
theorem res0_last (c : Dev nD) (t : Fin cfg0.N) (h1 : t.val % 8 = 7) :
    res0 V c t.val t.isLt = k0_pay3 (acc0 V c t.val t.isLt) (bblk0 V c t) := by
  have h0 : ¬t.val % 8 = 0 := by omega
  rw [acc0_next V c t h0]
  show (outsAt0 V c t.val t.isLt).1 = _
  rw [outsAt0_last V c t h0 h1]
  dsimp only
  exact outLast0_eq (F := F) c (grid0.coords t) (ms0_0 t) (hs0_0 t) (ms0_1 t) (hs0_1 t) (ms0_2 t) (hs0_2 t) (ms0_3 t) (hs0_3 t) accM0 (Memref.isWhole_whole _) (fun h => h0 ((first0_iff t).mp h)) ((last0_iff t).mpr h1) (iblk0 V c 0 t) (iblk0 V c 1 t) (iblk0 V c 2 t) (outsAt0 V c (t.val - 1) (Nat.lt_of_le_of_lt (Nat.sub_le _ _) t.isLt)).2

end Steps

section Value
variable (V : (c : Dev nD) → (b : Ref sig .tc) → Buf (Elt Ideal) ((c : Thread nD τ).loc b))

/-- The product of the activations' entry (r, k) and the weights' entry (k, j), for k below the contraction length 4096;
    zero beyond it. -/
def prodAt0 (c : Dev nD) (r : Fin 8192) (j : Fin 12288) (k : ℕ) : EReal :=
  if h : k < 4096 then (xarr0 V c (ix2 r ⟨k, h⟩) : EReal) * (warr0 V c (ix2 ⟨k, h⟩ j) : EReal) else 0

/-- One tile product's entry is the stretch of 512 products that belongs to its contraction block. -/
theorem tileTerm0 (c : Dev nD) (t : Fin cfg0.N) (p : Fin 1024) (q : Fin 2048) (r : Fin 8192) (j : Fin 12288)
    (hr : r.val = 1024 * (t.val / 48) + p.val) (hj : j.val = 2048 * (t.val / 8 % 6) + q.val) :
    (∑ kk : Fin 512, (xblk0 V c t (ix2 p kk) : EReal) * (wblk0 V c t (ix2 kk q) : EReal))
      = ∑ s ∈ Finset.range 512, prodAt0 V c r j (512 * (t.val % 8) + s) := by
  rw [Finset.sum_range]
  refine Finset.sum_congr rfl fun kk _ => ?_
  have hlt : 512 * (t.val % 8) + kk.val < 4096 := by have := kk.isLt; omega
  unfold prodAt0
  rw [dif_pos hlt]
  exact congrArg₂ (· * ·) (xblk0_at V c t p kk r ⟨_, hlt⟩ hr rfl) (wblk0_at V c t kk q ⟨_, hlt⟩ j rfl hj)

/-- After position n the accumulator's entry (p, q) is the sum of the products over the contraction indices of the blocks
    done so far in this run of eight: the first 512 × (n % 8 + 1) of them. -/
theorem acc0_sum (c : Dev nD) (n : ℕ) : ∀ (hn : n < cfg0.N) (p : Fin 1024) (q : Fin 2048) (r : Fin 8192) (j : Fin 12288),
    r.val = 1024 * (n / 48) + p.val → j.val = 2048 * (n / 8 % 6) + q.val →
    (acc0 V c n hn (ix2 p q) : EReal) = ∑ s ∈ Finset.range (512 * (n % 8) + 512), prodAt0 V c r j s := by
  induction n using Nat.strong_induction_on with
  | _ n ih =>
    intro hn p q r j hr hj
    rw [Finset.sum_range_add, ← tileTerm0 V c ⟨n, hn⟩ p q r j hr hj]
    by_cases h0 : n % 8 = 0
    · refine (congrFun (acc0_first V c ⟨n, hn⟩ h0) (ix2 p q)).trans ?_
      refine (pay2_at0 (xblk0 V c ⟨n, hn⟩) (wblk0 V c ⟨n, hn⟩) (k0_pay1 (F := Ideal)) p q).trans ?_
      rw [pay1_at0, h0, Nat.mul_zero, Finset.range_zero, Finset.sum_empty]
    · refine (congrFun (acc0_next V c ⟨n, hn⟩ h0) (ix2 p q)).trans ?_
      refine (pay2_at0 (xblk0 V c ⟨n, hn⟩) (wblk0 V c ⟨n, hn⟩) (acc0 V c (n - 1) (Nat.lt_of_le_of_lt (Nat.sub_le _ _) hn)) p q).trans ?_
      have e : 512 * ((n - 1) % 8) + 512 = 512 * (n % 8) := by omega
      rw [← e]
      exact congrArg₂ (· + ·) (ih (n - 1) (by omega) _ p q r j (by omega) (by omega)) rfl

/-- The specification's array: entry (r, j) is row r of the activations against column j of the weights, plus the bias
    row's entry j. -/
def G0 (c : Dev nD) : Buf (Elt Ideal) ((c : Thread nD τ).loc main_v8) := fun i =>
  Cert.Spec.linAt (fun k : Fin 4096 => (xarr0 V c (ix2 (i 0) k) : EReal)) (fun k : Fin 4096 => (warr0 V c (ix2 k (i 1)) : EReal))
    (barr0 V c (ix2 (0 : Fin 1) (i 1)))

/-- At the last contraction block the output block's entry (p, q) is the specification's entry of its place in the array. -/
theorem res0_at (c : Dev nD) (t : Fin cfg0.N) (h7 : t.val % 8 = 7) (p : Fin 1024) (q : Fin 2048) (r : Fin 8192) (j : Fin 12288)
    (hr : r.val = 1024 * (t.val / 48) + p.val) (hj : j.val = 2048 * (t.val / 8 % 6) + q.val) :
    (res0 V c t.val t.isLt (ix2 p q) : EReal) = G0 V c (ix2 r j) := by
  refine (congrFun (res0_last V c t h7) (ix2 p q)).trans ?_
  refine (pay3_at0 (acc0 V c t.val t.isLt) (bblk0 V c t) p q).trans ?_
  rw [acc0_sum V c t.val t.isLt p q r j hr hj, bblk0_at V c t q j hj, h7]
  have e : 512 * 7 + 512 = 4096 := by norm_num
  rw [e, Finset.sum_range]
  unfold G0 Cert.Spec.linAt
  refine congrArg₂ (· + ·) (Finset.sum_congr rfl fun k _ => ?_) rfl
  unfold prodAt0
  rw [dif_pos k.isLt]
  rfl

/-- The same over any index of the block and the index of the array it sits at. -/
theorem res0_entry (c : Dev nD) (t : Fin cfg0.N) (h7 : t.val % 8 = 7) (y : S1024x2048.Idx) (i : S8192x12288.Idx)
    (h0 : (i 0).val = 1024 * (t.val / 48) + (y 0).val) (h1 : (i 1).val = 2048 * (t.val / 8 % 6) + (y 1).val) :
    res0 V c t.val t.isLt y = G0 V c i := by
  obtain ⟨p, q, rfl⟩ : ∃ (p : Fin 1024) (q : Fin 2048), y = ix2 p q := ⟨y 0, y 1, eq_ix2 y⟩
  obtain ⟨r, j, rfl⟩ : ∃ (r : Fin 8192) (j : Fin 12288), i = ix2 r j := ⟨i 0, i 1, eq_ix2 i⟩
  exact res0_at V c t h7 p q r j h0 h1

/-- What a last contraction block writes back is its block of the specification's array. -/
theorem flushed0_eq (c : Dev nD) (t : Fin cfg0.N) (hf : (cfg0.win 3).flush t = true) :
    (dat0 (F := Ideal) V c).flushed 3 t = ((cfg0.win 3).blk t).view.read (Elt Ideal) (G0 V c) := by
  have h7 : t.val % 8 = 7 := (flush0_3 t).mp hf
  obtain ⟨-, -, -, -, -, -, e0, e1⟩ := tileIdx0 t
  show (cfg0.win 3).cut (grid0.coords t) ((dat0 V c).after 3 t) = _
  rw [after0_3]
  funext y
  show res0 V c t.val t.isLt y = G0 V c (((cfg0.win 3).blk t).view.emb y)
  refine res0_entry V c t h7 y _ ?_ ?_
  · show win0_3.index t (0 : Fin 2) * 1024 + 1 * (y 0).val = _
    rw [e0]; omega
  · show win0_3.index t (1 : Fin 2) * 2048 + 1 * (y 1).val = _
    rw [e1]; omega

/-- Every index of the output array is in the block some last contraction block writes back: the one of its row tile
    and column tile. -/
theorem cover0 (i : S8192x12288.Idx) :
    ∃ t : Fin cfg0.N, (cfg0.win 3).flush t = true ∧ i ∈ ((cfg0.win 3).blk t).view.set := by
  have hi0 : (i 0).val < 8192 := (i 0).isLt
  have hi1 : (i 1).val < 12288 := (i 1).isLt
  have hN : cfg0.N = 384 := N_0
  have ht : 48 * ((i 0).val / 1024) + 8 * ((i 1).val / 2048) + 7 < cfg0.N := by rw [hN]; omega
  refine ⟨⟨_, ht⟩, (flush0_3 ⟨_, ht⟩).mpr (by show (48 * ((i 0).val / 1024) + 8 * ((i 1).val / 2048) + 7) % 8 = 7; omega), ?_⟩
  obtain ⟨-, -, -, -, -, -, e0, e1⟩ := tileIdx0 ⟨_, ht⟩
  show i ∈ ((View.whole main_v8).slice (win0_3.rect ⟨_, ht⟩)).set
  rw [View.set_slice_whole, Rect.mem_set_unit]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [e0]; dsimp only; omega
  | ⟨1, _⟩ =>
    show win0_3.index ⟨_, ht⟩ (1 : Fin 2) * 2048 ≤ (i 1).val ∧ (i 1).val < win0_3.index ⟨_, ht⟩ (1 : Fin 2) * 2048 + 2048
    rw [e1]; dsimp only; omega

/-- So after the whole grid the output array is the specification's. -/
theorem final0 (c : Dev nD) : (dat0 (F := Ideal) V c).arrAt 3 cfg0.N = G0 V c :=
  (dat0 (F := Ideal) V c).arrAt_eq_of_cover 3 (G0 V c) (flushed0_eq V c) (cover0)

/-- Entry by entry: row r of the activations against column j of the weights, plus the bias entry j. -/
theorem lin0_value (c : Dev nD) (r : Fin 8192) (j : Fin 12288) :
    (dat0 (F := Ideal) V c).arrAt 3 cfg0.N (ix2 r j)
      = Cert.Spec.linAt (fun k : Fin 4096 => V c main_v0 (ix2 r k)) (fun k : Fin 4096 => V c main_v5 (ix2 k j)) (V c main_v7 (ix2 0 j)) := by
  rw [final0 V c]
  rfl

end Value

end Cert.KernelIdeal.Hand

end
-- ==== Proof.KI.AttnValue.lean ====
/-
  The value of the per-token attention region, entry by entry. A grid point handles 256 consecutive tokens; for each
  token the body takes its 32 query heads against its 32 key heads over the 128 lanes, scales the scores by 2^-6,
  shifts each row of scores by its maximum, exponentiates, divides by the row's sum, and takes the normalised row
  against the token's value heads. Each step is read at an index: a contraction as a finite sum over the contracted
  coordinate, a row maximum as a fold of max from -∞ over the row, a row sum as a finite sum, and a per-row value
  spread back along the row as that row's value at every column. Nothing in a token's output depends on another token,
  so block t of the output is the attention of tokens 256·t … 256·t + 255 of the three input arrays, the 32 blocks
  tile the 8192 tokens, and the output array ends holding every token's attention.
-/
import proofs.«415280_j32959579030013_3_alg».proof.Proof.KI.Attn
import proofs.«415280_j32959579030013_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The two contractions at an index

  Both contractions carry the token axis along as a batch axis. The first contracts the lane axis of both operands and
  keeps each operand's head axis; the second contracts the left operand's last axis against the right operand's head
  axis and keeps the left's head axis and the right's lane axis. The six lemmas before each say, axis by axis, which
  coordinate of the output index or of the contraction index each operand is read at. -/

theorem qk_lhs_0 (i : S256x32x32.Idx) (q : dot_S256x32x128_S256x32x128_S256x32x32_2_2_1_1_0_0.contr.Idx) :
    (dot_S256x32x128_S256x32x128_S256x32x32_2_2_1_1_0_0.lhsIdx i q 0).val = (i 0).val := by
  unfold DotDims.lhsIdx
  rw [dif_pos (show (0 : Fin S256x32x128.rank) ∈ dot_S256x32x128_S256x32x128_S256x32x32_2_2_1_1_0_0.lhsBatch by decide)]
  rfl
theorem qk_lhs_1 (i : S256x32x32.Idx) (q : dot_S256x32x128_S256x32x128_S256x32x32_2_2_1_1_0_0.contr.Idx) :
    (dot_S256x32x128_S256x32x128_S256x32x32_2_2_1_1_0_0.lhsIdx i q 1).val = (i 1).val := by
  unfold DotDims.lhsIdx
  rw [dif_neg (show ¬(1 : Fin S256x32x128.rank) ∈ dot_S256x32x128_S256x32x128_S256x32x32_2_2_1_1_0_0.lhsBatch by decide), dif_pos (show (1 : Fin S256x32x128.rank) ∈ dot_S256x32x128_S256x32x128_S256x32x32_2_2_1_1_0_0.lhsNonContracting by decide)]
  rfl
theorem qk_lhs_2 (i : S256x32x32.Idx) (q : dot_S256x32x128_S256x32x128_S256x32x32_2_2_1_1_0_0.contr.Idx) :
    (dot_S256x32x128_S256x32x128_S256x32x32_2_2_1_1_0_0.lhsIdx i q 2).val = (q ⟨0, by decide⟩).val :=
  dot_S256x32x128_S256x32x128_S256x32x32_2_2_1_1_0_0.lhsIdx_val_of_single rfl i q
theorem qk_rhs_0 (i : S256x32x32.Idx) (q : dot_S256x32x128_S256x32x128_S256x32x32_2_2_1_1_0_0.contr.Idx) :
    (dot_S256x32x128_S256x32x128_S256x32x32_2_2_1_1_0_0.rhsIdx i q 0).val = (i 0).val := by
  unfold DotDims.rhsIdx
  rw [dif_pos (show (0 : Fin S256x32x128.rank) ∈ dot_S256x32x128_S256x32x128_S256x32x32_2_2_1_1_0_0.rhsBatch by decide)]
  rfl
theorem qk_rhs_1 (i : S256x32x32.Idx) (q : dot_S256x32x128_S256x32x128_S256x32x32_2_2_1_1_0_0.contr.Idx) :
    (dot_S256x32x128_S256x32x128_S256x32x32_2_2_1_1_0_0.rhsIdx i q 1).val = (i 2).val := by
  unfold DotDims.rhsIdx
  rw [dif_neg (show ¬(1 : Fin S256x32x128.rank) ∈ dot_S256x32x128_S256x32x128_S256x32x32_2_2_1_1_0_0.rhsBatch by decide), dif_pos (show (1 : Fin S256x32x128.rank) ∈ dot_S256x32x128_S256x32x128_S256x32x32_2_2_1_1_0_0.rhsNonContracting by decide)]
  rfl
theorem qk_rhs_2 (i : S256x32x32.Idx) (q : dot_S256x32x128_S256x32x128_S256x32x32_2_2_1_1_0_0.contr.Idx) :
    (dot_S256x32x128_S256x32x128_S256x32x32_2_2_1_1_0_0.rhsIdx i q 2).val = (q ⟨0, by decide⟩).val :=
  dot_S256x32x128_S256x32x128_S256x32x32_2_2_1_1_0_0.rhsIdx_val_of_single rfl i q

/-- The first contraction: entry (a, h, g) is head h of the left operand against head g of the right, over the lanes. -/
theorem matmul_qk_apply (x y : FVec Ideal S256x32x128 .bf16) (a : Fin 256) (h g : Fin 32) :
    matmul dot_S256x32x128_S256x32x128_S256x32x32_2_2_1_1_0_0 none x y (constant (F := Ideal) S256x32x32 .f32 0x00000000#32) (ix3 a h g)
      = ∑ e : Fin 128, x (ix3 a h e) * y (ix3 a g e) := by
  show FloatOps.matmul _ _ _ _ _ _ = _
  rw [Ideal.matmul_constant_zero_apply, ← Equiv.sum_comp (contrEquiv1 dot_S256x32x128_S256x32x128_S256x32x32_2_2_1_1_0_0 128 rfl rfl).symm]
  refine Finset.sum_congr rfl fun k _ => ?_
  have hk := contrEquiv1_symm_val dot_S256x32x128_S256x32x128_S256x32x32_2_2_1_1_0_0 128 rfl rfl k
  have el : dot_S256x32x128_S256x32x128_S256x32x32_2_2_1_1_0_0.lhsIdx (ix3 a h g) ((contrEquiv1 dot_S256x32x128_S256x32x128_S256x32x32_2_2_1_1_0_0 128 rfl rfl).symm k) = ix3 a h k := funext fun c => Fin.ext (by
    match c with
    | ⟨0, _⟩ => exact qk_lhs_0 _ _
    | ⟨1, _⟩ => exact qk_lhs_1 _ _
    | ⟨2, _⟩ => exact (qk_lhs_2 _ _).trans hk)
  have er : dot_S256x32x128_S256x32x128_S256x32x32_2_2_1_1_0_0.rhsIdx (ix3 a h g) ((contrEquiv1 dot_S256x32x128_S256x32x128_S256x32x32_2_2_1_1_0_0 128 rfl rfl).symm k) = ix3 a g k := funext fun c => Fin.ext (by
    match c with
    | ⟨0, _⟩ => exact qk_rhs_0 _ _
    | ⟨1, _⟩ => exact qk_rhs_1 _ _
    | ⟨2, _⟩ => exact (qk_rhs_2 _ _).trans hk)
  rw [el, er]

theorem pv_lhs_0 (i : S256x32x128.Idx) (q : dot_S256x32x32_S256x32x128_S256x32x128_2_1_1_2_0_0.contr.Idx) :
    (dot_S256x32x32_S256x32x128_S256x32x128_2_1_1_2_0_0.lhsIdx i q 0).val = (i 0).val := by
  unfold DotDims.lhsIdx
  rw [dif_pos (show (0 : Fin S256x32x32.rank) ∈ dot_S256x32x32_S256x32x128_S256x32x128_2_1_1_2_0_0.lhsBatch by decide)]
  rfl
theorem pv_lhs_1 (i : S256x32x128.Idx) (q : dot_S256x32x32_S256x32x128_S256x32x128_2_1_1_2_0_0.contr.Idx) :
    (dot_S256x32x32_S256x32x128_S256x32x128_2_1_1_2_0_0.lhsIdx i q 1).val = (i 1).val := by
  unfold DotDims.lhsIdx
  rw [dif_neg (show ¬(1 : Fin S256x32x32.rank) ∈ dot_S256x32x32_S256x32x128_S256x32x128_2_1_1_2_0_0.lhsBatch by decide), dif_pos (show (1 : Fin S256x32x32.rank) ∈ dot_S256x32x32_S256x32x128_S256x32x128_2_1_1_2_0_0.lhsNonContracting by decide)]
  rfl
theorem pv_lhs_2 (i : S256x32x128.Idx) (q : dot_S256x32x32_S256x32x128_S256x32x128_2_1_1_2_0_0.contr.Idx) :
    (dot_S256x32x32_S256x32x128_S256x32x128_2_1_1_2_0_0.lhsIdx i q 2).val = (q ⟨0, by decide⟩).val :=
  dot_S256x32x32_S256x32x128_S256x32x128_2_1_1_2_0_0.lhsIdx_val_of_single rfl i q
theorem pv_rhs_0 (i : S256x32x128.Idx) (q : dot_S256x32x32_S256x32x128_S256x32x128_2_1_1_2_0_0.contr.Idx) :
    (dot_S256x32x32_S256x32x128_S256x32x128_2_1_1_2_0_0.rhsIdx i q 0).val = (i 0).val := by
  unfold DotDims.rhsIdx
  rw [dif_pos (show (0 : Fin S256x32x128.rank) ∈ dot_S256x32x32_S256x32x128_S256x32x128_2_1_1_2_0_0.rhsBatch by decide)]
  rfl
theorem pv_rhs_1 (i : S256x32x128.Idx) (q : dot_S256x32x32_S256x32x128_S256x32x128_2_1_1_2_0_0.contr.Idx) :
    (dot_S256x32x32_S256x32x128_S256x32x128_2_1_1_2_0_0.rhsIdx i q 1).val = (q ⟨0, by decide⟩).val :=
  dot_S256x32x32_S256x32x128_S256x32x128_2_1_1_2_0_0.rhsIdx_val_of_single rfl i q
theorem pv_rhs_2 (i : S256x32x128.Idx) (q : dot_S256x32x32_S256x32x128_S256x32x128_2_1_1_2_0_0.contr.Idx) :
    (dot_S256x32x32_S256x32x128_S256x32x128_2_1_1_2_0_0.rhsIdx i q 2).val = (i 2).val := by
  unfold DotDims.rhsIdx
  rw [dif_neg (show ¬(2 : Fin S256x32x128.rank) ∈ dot_S256x32x32_S256x32x128_S256x32x128_2_1_1_2_0_0.rhsBatch by decide), dif_pos (show (2 : Fin S256x32x128.rank) ∈ dot_S256x32x32_S256x32x128_S256x32x128_2_1_1_2_0_0.rhsNonContracting by decide)]
  rfl

/-- The second contraction: entry (a, h, d) is row h of the left operand against lane d of the right's heads. -/
theorem matmul_pv_apply (p : FVec Ideal S256x32x32 .bf16) (y : FVec Ideal S256x32x128 .bf16) (a : Fin 256) (h : Fin 32) (d : Fin 128) :
    matmul dot_S256x32x32_S256x32x128_S256x32x128_2_1_1_2_0_0 none p y (constant (F := Ideal) S256x32x128 .f32 0x00000000#32) (ix3 a h d)
      = ∑ g : Fin 32, p (ix3 a h g) * y (ix3 a g d) := by
  show FloatOps.matmul _ _ _ _ _ _ = _
  rw [Ideal.matmul_constant_zero_apply, ← Equiv.sum_comp (contrEquiv1 dot_S256x32x32_S256x32x128_S256x32x128_2_1_1_2_0_0 32 rfl rfl).symm]
  refine Finset.sum_congr rfl fun k _ => ?_
  have hk := contrEquiv1_symm_val dot_S256x32x32_S256x32x128_S256x32x128_2_1_1_2_0_0 32 rfl rfl k
  have el : dot_S256x32x32_S256x32x128_S256x32x128_2_1_1_2_0_0.lhsIdx (ix3 a h d) ((contrEquiv1 dot_S256x32x32_S256x32x128_S256x32x128_2_1_1_2_0_0 32 rfl rfl).symm k) = ix3 a h k := funext fun c => Fin.ext (by
    match c with
    | ⟨0, _⟩ => exact pv_lhs_0 _ _
    | ⟨1, _⟩ => exact pv_lhs_1 _ _
    | ⟨2, _⟩ => exact (pv_lhs_2 _ _).trans hk)
  have er : dot_S256x32x32_S256x32x128_S256x32x128_2_1_1_2_0_0.rhsIdx (ix3 a h d) ((contrEquiv1 dot_S256x32x32_S256x32x128_S256x32x128_2_1_1_2_0_0 32 rfl rfl).symm k) = ix3 a k d := funext fun c => Fin.ext (by
    match c with
    | ⟨0, _⟩ => exact pv_rhs_0 _ _
    | ⟨1, _⟩ => exact (pv_rhs_1 _ _).trans hk
    | ⟨2, _⟩ => exact pv_rhs_2 _ _)
  rw [el, er]

/-! ## The two row reductions and the keepdims layout at an index -/

/-- A coordinate of the score block inserted on the reduced axis. -/
theorem lift_row (a : Fin 256) (h g : Fin 32) :
    (reduces_S256x32x32_S256x32).lift (ix2 a h) g = ix3 a h g :=
  funext fun c => Fin.ext (by
    match c with
    | ⟨0, _⟩ => rfl
    | ⟨1, _⟩ => rfl
    | ⟨2, _⟩ => rfl)

/-- The maximum over the last axis, at a row: the fold of max from the f32 word of -∞ over the row's 32 entries. -/
theorem rowmax_apply (x : FVec Ideal S256x32x32 .f32) (a : Fin 256) (h : Fin 32) :
    multiReduction (F := Ideal) .maximumf [2] S256x32 x 0xFF800000#32 reduces_S256x32x32_S256x32 (.inl rfl) rfl (ix2 a h)
      = (Finset.univ : Finset (Fin 32)).fold max Cert.Spec.negInf (fun g => x (ix3 a h g)) := by
  refine (Ideal.multiReduction_maximumf_single x 0xFF800000#32 reduces_S256x32x32_S256x32 (.inl rfl) rfl (ix2 a h)).trans ?_
  show (Finset.univ : Finset (Fin 32)).fold max Cert.Spec.negInf (x ∘ (reduces_S256x32x32_S256x32).lift (ix2 a h)) = _
  congr 1
  funext g
  exact congrArg x (lift_row a h g)

/-- The sum over the last axis, at a row. -/
theorem rowsum_apply (x : FVec Ideal S256x32x32 .f32) (a : Fin 256) (h : Fin 32) :
    multiReduction (F := Ideal) .add [2] S256x32 x 0x00000000#32 reduces_S256x32x32_S256x32 (.inl rfl) rfl (ix2 a h)
      = ∑ g : Fin 32, x (ix3 a h g) := by
  refine (Ideal.multiReduction_add_single x 0x00000000#32 reduces_S256x32x32_S256x32 (.inl rfl) rfl (ix2 a h)).trans ?_
  show ∑ g : Fin 32, x ((reduces_S256x32x32_S256x32).lift (ix2 a h) g) = _
  refine Finset.sum_congr rfl fun g _ => ?_
  rw [lift_row]

/-- A per-row value given a trailing unit axis and then spread along it reads the row's value at every column. -/
theorem keepdims_apply {α : Type} (v : S256x32.Idx → α) (a : Fin 256) (h g : Fin 32) :
    broadcastTo S256x32x32 (shapeCast S256x32x1 v shapeCasts_S256x32_S256x32x1) broadcasts_S256x32x1_S256x32x32 (ix3 a h g) = v (ix2 a h) := by
  rw [broadcastTo_apply _ broadcasts_S256x32x1_S256x32x32 (ix3 a h g) (ix3 a h (0 : Fin 1)) (by
    intro c
    match c with
    | ⟨0, _⟩ => rfl
    | ⟨1, _⟩ => rfl
    | ⟨2, _⟩ => rfl)]
  exact shapeCast_apply v shapeCasts_S256x32_S256x32x1 (ix3 a h (0 : Fin 1)) (ix2 a h) (by
    rw [Shape.rowMajor_val_two, Shape.rowMajor_val_three]
    show a.val * 32 + h.val = (a.val * 32 + h.val) * 1 + 0
    omega)

/-- The vector exponential is the scalar one at every entry. -/
theorem exp_apply {s : Shape} {φ : FTy} (x : FVec Ideal s φ) (i : s.Idx) : exp x i = Ideal.exp (x i) := rfl

/-! ## The body's arithmetic, stage by stage -/

/-- The scaled scores of a block: every head of the left block against every head of the right, times the scale. -/
def scoreB (x0 : FVec Ideal S256x32x128 .bf16) (x1 : FVec Ideal S256x32x128 .f32) : FVec Ideal S256x32x32 .f32 :=
  mulf (matmul dot_S256x32x128_S256x32x128_S256x32x32_2_2_1_1_0_0 none x0 (truncf .bf16 x1 bitsLt_bf16_f32) (constant (F := Ideal) S256x32x32 .f32 0x00000000#32))
    (broadcast S256x32x32 (Scalar.ofBits .f32 0x3C800000#32))

/-- The shifted exponentials of a block: each score less its row's maximum, exponentiated. -/
def pexpB (x0 : FVec Ideal S256x32x128 .bf16) (x1 : FVec Ideal S256x32x128 .f32) : FVec Ideal S256x32x32 .f32 :=
  exp (subf (scoreB x0 x1) (broadcastTo S256x32x32 (shapeCast S256x32x1
    (multiReduction (F := Ideal) .maximumf [2] S256x32 (scoreB x0 x1) 0xFF800000#32 reduces_S256x32x32_S256x32 (.inl rfl) rfl)
    shapeCasts_S256x32_S256x32x1) broadcasts_S256x32x1_S256x32x32))

/-- The body's value is the normalised exponentials against the value block. -/
theorem pay_eq (x0 : FVec Ideal S256x32x128 .bf16) (x1 x2 : FVec Ideal S256x32x128 .f32) :
    k1_pay1 x0 x1 x2 = truncf .bf16 (matmul dot_S256x32x32_S256x32x128_S256x32x128_2_1_1_2_0_0 none
      (truncf .bf16 (divf (pexpB x0 x1) (broadcastTo S256x32x32 (shapeCast S256x32x1
        (multiReduction (F := Ideal) .add [2] S256x32 (pexpB x0 x1) 0x00000000#32 reduces_S256x32x32_S256x32 (.inl rfl) rfl)
        shapeCasts_S256x32_S256x32x1) broadcasts_S256x32x1_S256x32x32)) bitsLt_bf16_f32)
      (truncf .bf16 x2 bitsLt_bf16_f32) (constant (F := Ideal) S256x32x128 .f32 0x00000000#32)) bitsLt_bf16_f32 := by
  unfold k1_pay1 pexpB scoreB
  simp only [shapeCast_self]

/-- A scaled score at an entry. -/
theorem scoreB_apply (x0 : FVec Ideal S256x32x128 .bf16) (x1 : FVec Ideal S256x32x128 .f32) (a : Fin 256) (h g : Fin 32) :
    scoreB x0 x1 (ix3 a h g) = Cert.Spec.score (fun h' e => x0 (ix3 a h' e)) (fun g' e => x1 (ix3 a g' e)) h g := by
  unfold scoreB Cert.Spec.score
  rw [mulf_apply, broadcast_apply, matmul_qk_apply]
  rfl

/-- A shifted exponential at an entry. -/
theorem pexpB_apply (x0 : FVec Ideal S256x32x128 .bf16) (x1 : FVec Ideal S256x32x128 .f32) (a : Fin 256) (h g : Fin 32) :
    pexpB x0 x1 (ix3 a h g) = Cert.Spec.pexp (fun h' e => x0 (ix3 a h' e)) (fun g' e => x1 (ix3 a g' e)) h g := by
  unfold pexpB Cert.Spec.pexp Cert.Spec.rowMax
  rw [exp_apply, subf_apply, keepdims_apply, rowmax_apply, scoreB_apply]
  simp only [scoreB_apply]

/-- The body's value at an entry of the block: one token's attention at a head and a lane. -/
theorem pay_apply (x0 : Vec Ideal S256x32x128 .bf16) (x1 x2 : Vec Ideal S256x32x128 .f32) (a : Fin 256) (h : Fin 32) (d : Fin 128) :
    k1_pay1 x0 x1 x2 (ix3 a h d)
      = Cert.Spec.attnAt (fun h' e => x0 (ix3 a h' e)) (fun g e => x1 (ix3 a g e)) (fun g e => x2 (ix3 a g e)) h d := by
  rw [pay_eq, truncf_apply, matmul_pv_apply]
  unfold Cert.Spec.attnAt
  refine Finset.sum_congr rfl fun g _ => ?_
  rw [truncf_apply, truncf_apply, divf_apply, keepdims_apply, rowsum_apply, pexpB_apply]
  simp only [pexpB_apply]

/-! ## From the blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl

/-- The attention of every token of the three arrays: entry (s, h, d) is token s's output at head h, lane d. -/
def attnG (q k v : S8192x32x128.Idx → EReal) : S8192x32x128.Idx → EReal := fun i =>
  Cert.Spec.attnAt (fun h' e => q (ix3 (i 0 : Fin 8192) h' e)) (fun g e => k (ix3 (i 0 : Fin 8192) g e))
    (fun g e => v (ix3 (i 0 : Fin 8192) g e)) (i 1 : Fin 32) (i 2 : Fin 128)

/-- The index maps over the grid: every window's block index is the point's number on the token axis
    and zero on the two others. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

theorem point_lt (t : Fin cfg1.N) : t.val < 32 := by
  have hN : cfg1.N = 32 := N_1
  have := t.isLt
  omega

/-- Token 256·t + a: row a of point t's block. -/
def rowOf (t : Fin cfg1.N) (a : Fin 256) : Fin 8192 := ⟨256 * t.val + a.val, by have := point_lt t; have := a.isLt; omega⟩

/-- Where entry (a, h, e) of point t's block of the query array sits in the array. -/
theorem emb1_0 (t : Fin cfg1.N) (a : Fin 256) (h : Fin 32) (e : Fin 128) :
    ((cfg1.win 0).blk t).view.emb (ix3 a h e) = ix3 (rowOf t a) h e := by
  obtain ⟨⟨e0, e1, e2⟩, -, -, -⟩ := idx_facts1 t
  funext x; apply Fin.ext
  match x with
  | ⟨0, _⟩ => show win1_0.index t (0 : Fin 3) * 256 + 1 * a.val = 256 * t.val + a.val; omega
  | ⟨1, _⟩ => show win1_0.index t (1 : Fin 3) * 32 + 1 * h.val = h.val; omega
  | ⟨2, _⟩ => show win1_0.index t (2 : Fin 3) * 128 + 1 * e.val = e.val; omega

/-- The same for the key array, -/
theorem emb1_1 (t : Fin cfg1.N) (a : Fin 256) (h : Fin 32) (e : Fin 128) :
    ((cfg1.win 1).blk t).view.emb (ix3 a h e) = ix3 (rowOf t a) h e := by
  obtain ⟨-, ⟨e0, e1, e2⟩, -, -⟩ := idx_facts1 t
  funext x; apply Fin.ext
  match x with
  | ⟨0, _⟩ => show win1_1.index t (0 : Fin 3) * 256 + 1 * a.val = 256 * t.val + a.val; omega
  | ⟨1, _⟩ => show win1_1.index t (1 : Fin 3) * 32 + 1 * h.val = h.val; omega
  | ⟨2, _⟩ => show win1_1.index t (2 : Fin 3) * 128 + 1 * e.val = e.val; omega

/-- the value array, -/
theorem emb1_2 (t : Fin cfg1.N) (a : Fin 256) (h : Fin 32) (e : Fin 128) :
    ((cfg1.win 2).blk t).view.emb (ix3 a h e) = ix3 (rowOf t a) h e := by
  obtain ⟨-, -, ⟨e0, e1, e2⟩, -⟩ := idx_facts1 t
  funext x; apply Fin.ext
  match x with
  | ⟨0, _⟩ => show win1_2.index t (0 : Fin 3) * 256 + 1 * a.val = 256 * t.val + a.val; omega
  | ⟨1, _⟩ => show win1_2.index t (1 : Fin 3) * 32 + 1 * h.val = h.val; omega
  | ⟨2, _⟩ => show win1_2.index t (2 : Fin 3) * 128 + 1 * e.val = e.val; omega

/-- and the output array. -/
theorem emb1_3 (t : Fin cfg1.N) (a : Fin 256) (h : Fin 32) (e : Fin 128) :
    ((cfg1.win 3).blk t).view.emb (ix3 a h e) = ix3 (rowOf t a) h e := by
  obtain ⟨-, -, -, ⟨e0, e1, e2⟩⟩ := idx_facts1 t
  funext x; apply Fin.ext
  match x with
  | ⟨0, _⟩ => show win1_3.index t (0 : Fin 3) * 256 + 1 * a.val = 256 * t.val + a.val; omega
  | ⟨1, _⟩ => show win1_3.index t (1 : Fin 3) * 32 + 1 * h.val = h.val; omega
  | ⟨2, _⟩ => show win1_3.index t (2 : Fin 3) * 128 + 1 * e.val = e.val; omega

/-- Entry (a, h, e) of point t's query block is the query array's entry at token 256·t + a. -/
theorem iblk1_0_apply (c : Dev nD) (t : Fin cfg1.N) (a : Fin 256) (h : Fin 32) (e : Fin 128) :
    (iblk1 V c 0 t : Vec Ideal S256x32x128 .bf16) (ix3 a h e) = V c main_v13 (ix3 (rowOf t a) h e) := by
  unfold iblk1
  rw [View.read_apply]
  show V c main_v13 _ = V c main_v13 _
  exact congrArg (V c main_v13) (emb1_0 t a h e)

/-- The same for the key block, -/
theorem iblk1_1_apply (c : Dev nD) (t : Fin cfg1.N) (a : Fin 256) (h : Fin 32) (e : Fin 128) :
    (iblk1 V c 1 t : Vec Ideal S256x32x128 .f32) (ix3 a h e) = V c main_v14 (ix3 (rowOf t a) h e) := by
  unfold iblk1
  rw [View.read_apply]
  show V c main_v14 _ = V c main_v14 _
  exact congrArg (V c main_v14) (emb1_1 t a h e)

/-- and the value block. -/
theorem iblk1_2_apply (c : Dev nD) (t : Fin cfg1.N) (a : Fin 256) (h : Fin 32) (e : Fin 128) :
    (iblk1 V c 2 t : Vec Ideal S256x32x128 .f32) (ix3 a h e) = V c main_v15 (ix3 (rowOf t a) h e) := by
  unfold iblk1
  rw [View.read_apply]
  show V c main_v15 _ = V c main_v15 _
  exact congrArg (V c main_v15) (emb1_2 t a h e)

/-- An array read through point t's output block, at entry (a, h, d): the array at token 256·t + a. -/
theorem read_blk1_3 (G : S8192x32x128.Idx → EReal) (t : Fin cfg1.N) (a : Fin 256) (h : Fin 32) (d : Fin 128) :
    ((cfg1.win 3).blk t).view.read (Elt Ideal) G (ix3 a h d) = G (ix3 (rowOf t a) h d) := by
  rw [View.read_apply]
  show G _ = G _
  exact congrArg G (emb1_3 t a h d)

/-- What point t writes back is block t of the attention of the three arrays as the region finds them. -/
theorem flushed1_3_eq (c : Dev nD) (t : Fin cfg1.N) :
    (dat1 (F := Ideal) V c).flushed 3 t
      = ((cfg1.win 3).blk t).view.read (Elt Ideal) (attnG (V c main_v13) (V c main_v14) (V c main_v15)) := by
  show (cfg1.win 3).cut (grid1.coords t) ((dat1 (F := Ideal) V c).after 3 t) = _
  rw [after1_3]
  unfold out1_3
  rw [View.canon_unit_zero hz3]
  simp only [View.ld_unit_zero (S := S256x32x128) hz3]
  funext j
  obtain ⟨a, h, d, rfl⟩ : ∃ (a : Fin 256) (h : Fin 32) (d : Fin 128), j = ix3 a h d := ⟨j 0, j 1, j 2, eq_ix3 j⟩
  refine (pay_apply (iblk1 V c 0 t) (iblk1 V c 1 t) (iblk1 V c 2 t) a h d).trans ?_
  refine Eq.trans ?_ (read_blk1_3 (attnG (V c main_v13) (V c main_v14) (V c main_v15)) t a h d).symm
  simp only [iblk1_0_apply, iblk1_1_apply, iblk1_2_apply]
  rfl

/-- An index of the array is in point t's block iff each coordinate is in the block's range on its axis. -/
theorem mem_blk1_3 (t : Fin cfg1.N) (i : S8192x32x128.Idx) :
    i ∈ ((cfg1.win 3).blk t).view.set ↔ ∀ a : Fin 3, win1_3.index t a * S256x32x128.size a ≤ (i a).val ∧ (i a).val < win1_3.index t a * S256x32x128.size a + S256x32x128.size a := by
  show i ∈ ((View.whole main_v16).slice (win1_3.rect t)).set ↔ _
  rw [View.set_slice_whole, Rect.mem_set_unit]
  exact Iff.rfl

/-- Every token is in some point's block: token s in block s / 256. -/
theorem cover1_3_arr (i : S8192x32x128.Idx) :
    ∃ t : Fin cfg1.N, (cfg1.win 3).flush t = true ∧ i ∈ ((cfg1.win 3).blk t).view.set := by
  have hi0 : (i 0).val < 8192 := (i 0).isLt
  have hi1 : (i 1).val < 32 := (i 1).isLt
  have hi2 : (i 2).val < 128 := (i 2).isLt
  have hN : grid1.N = 32 := N_1
  let t : Fin cfg1.N := ⟨(i 0).val / 256, by show (i 0).val / 256 < grid1.N; omega⟩
  obtain ⟨-, -, -, ⟨e0, e1, e2⟩⟩ := idx_facts1 t
  have ht : t.val = (i 0).val / 256 := rfl
  refine ⟨t, flush1_3 t, ?_⟩
  rw [mem_blk1_3]
  intro a
  match a with
  | ⟨0, _⟩ => show win1_3.index t (0 : Fin 3) * 256 ≤ (i 0).val ∧ (i 0).val < win1_3.index t (0 : Fin 3) * 256 + 256; omega
  | ⟨1, _⟩ => show win1_3.index t (1 : Fin 3) * 32 ≤ (i 1).val ∧ (i 1).val < win1_3.index t (1 : Fin 3) * 32 + 32; omega
  | ⟨2, _⟩ => show win1_3.index t (2 : Fin 3) * 128 ≤ (i 2).val ∧ (i 2).val < win1_3.index t (2 : Fin 3) * 128 + 128; omega

/-- The output array after the region: the attention of every token. -/
theorem attn_array (c : Dev nD) :
    (dat1 (F := Ideal) V c).arrAt 3 cfg1.N = attnG (V c main_v13) (V c main_v14) (V c main_v15) :=
  (dat1 (F := Ideal) V c).arrAt_eq_of_cover 3 (attnG (V c main_v13) (V c main_v14) (V c main_v15))
    (fun t _ => flushed1_3_eq V c t) cover1_3_arr

/-- The output array after the region, entry by entry: token s's attention at head h, lane d, from its own query, key
    and value heads. -/
theorem attn_value (c : Dev nD) (s : Fin 8192) (h : Fin 32) (d : Fin 128) :
    (dat1 (F := Ideal) V c).arrAt 3 cfg1.N (ix3 s h d)
      = Cert.Spec.attnAt (fun h' e => V c main_v13 (ix3 s h' e)) (fun g e => V c main_v14 (ix3 s g e))
          (fun g e => V c main_v15 (ix3 s g e)) h d := by
  rw [attn_array]
  rfl

end Cert.KernelIdeal.Hand

end
-- ==== Proof.KI.Lin2Value.lean ====
/-
  The value of the second tiled product with bias, index by index, at the extended reals. The grid runs over
  (row tile, column tile, contraction block) with the contraction block fastest, so the positions come in runs of eight
  that share one row tile and one column tile. Within a run the accumulator starts from zero and gains, at each position,
  the product of a [1024, 512] tile of the activations with a [512, 2048] tile of the weights: after the position with
  contraction block k its entry (p, q) is the sum of the products over the first 512 × (k + 1) contraction indices of the
  row and the column that (p, q) sits at in the whole arrays. At the last position of a run that is the whole contraction
  of length 4096, and the block written back is this sum plus the bias entry of the column. The blocks written back tile the
  output array, so every entry of it is: the row of the activations against the column of the weights, plus the bias entry.
-/
import proofs.«415280_j32959579030013_3_alg».proof.Proof.KI.Lin2Frame
import proofs.«415280_j32959579030013_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Pieces
variable {F : FTy → Type} [FloatOps F]

theorem hz2 : (![0, 0] : Fin 2 → Nat) = fun _ => 0 := funext fun a => by fin_cases a <;> rfl

/-- A first contraction block leaves in the accumulator the tile product added to the zero splat. -/
theorem accFirst2_eq (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first2 i) (hc1 : ¬last2 i)
    (x0 : Vec F S1024x512 .bf16) (x1 : Vec F S512x2048 .bf16) (x2 : Vec F S1x2048 .f32) :
    accFirst2 c i arg3 harg3 arg4 harg4 arg5 harg5 arg6 harg6 arg7 harg7 hc0 hc1 x0 x1 x2 = k2_pay2 x0 x1 (k2_pay1 (F := F)) := by
  unfold accFirst2
  rw [View.read_writes_eq_canon _ _ _ (accCoverFirst2 c i arg3 harg3 arg4 harg4 arg5 harg5 arg6 harg6 arg7 harg7 hc0 hc1 x0 x1 x2)]
  unfold runFirst2
  dsimp only
  sl_unfold_words
  rw [View.canon_cons_unit_zero (S := S1024x2048) hz2]
  simp only [View.readAt_eq_ld, harg3.read_unread, harg4.read_unread, View.ld_unit_zero (S := S1024x512) hz2, View.ld_unit_zero (S := S512x2048) hz2, View.readCov_unit_zero (S := S1024x2048) _ hz2]

/-- A middle contraction block leaves in the accumulator the tile product added to what it held. -/
theorem accMid2_eq (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : ¬last2 i)
    (x0 : Vec F S1024x512 .bf16) (x1 : Vec F S512x2048 .bf16) (x2 : Vec F S1x2048 .f32) (xs0 : Vec F S1024x2048 .f32) :
    accMid2 c i arg3 harg3 arg4 harg4 arg5 harg5 arg6 harg6 arg7 harg7 hc0 hc1 x0 x1 x2 xs0 = k2_pay2 x0 x1 xs0 := by
  unfold accMid2
  rw [View.read_writes_eq_canon _ _ _ (accCoverMid2 c i arg3 harg3 arg4 harg4 arg5 harg5 arg6 harg6 arg7 harg7 hc0 hc1 x0 x1 x2 xs0)]
  unfold runMid2
  dsimp only
  sl_unfold_words
  rw [View.canon_unit_zero hz2]
  simp only [View.readAt_eq_ld, harg3.read_unread, harg4.read_unread, harg7.read_unread, View.ld_unit_zero (S := S1024x512) hz2, View.ld_unit_zero (S := S512x2048) hz2, View.ld_unit_zero (S := S1024x2048) hz2]

/-- The last contraction block leaves the same in the accumulator, -/
theorem accLast2_eq (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) :
    accLast2 c i arg3 harg3 arg4 harg4 arg5 harg5 arg6 harg6 arg7 harg7 hc0 hc1 x0 x1 x2 xs0 = k2_pay2 x0 x1 xs0 := by
  unfold accLast2
  rw [View.read_writes_eq_canon _ _ _ (accCoverLast2 c i arg3 harg3 arg4 harg4 arg5 harg5 arg6 harg6 arg7 harg7 hc0 hc1 x0 x1 x2 xs0)]
  unfold runLast2
  dsimp only
  sl_unfold_words
  rw [View.canon_unit_zero hz2]
  simp only [View.readAt_eq_ld, harg3.read_unread, harg4.read_unread, harg7.read_unread, View.ld_unit_zero (S := S1024x512) hz2, View.ld_unit_zero (S := S512x2048) hz2, View.ld_unit_zero (S := S1024x2048) hz2]

/-- and in the output block that accumulator plus the bias row broadcast down the rows. -/
theorem outLast2_eq (c : Dev nD) (i : grid2.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first2 i) (hc1 : last2 i)
    (x0 : Vec F S1024x512 .bf16) (x1 : Vec F S512x2048 .bf16) (x2 : Vec F S1x2048 .f32) (xs0 : Vec F S1024x2048 .f32) :
    outLast2 c i arg3 harg3 arg4 harg4 arg5 harg5 arg6 harg6 arg7 harg7 hc0 hc1 x0 x1 x2 xs0 = k2_pay3 (k2_pay2 x0 x1 xs0) x2 := by
  unfold outLast2
  rw [View.read_writes_eq_canon _ _ _ (outCoverLast2 c i arg3 harg3 arg4 harg4 arg5 harg5 arg6 harg6 arg7 harg7 hc0 hc1 x0 x1 x2 xs0)]
  unfold runLast2
  dsimp only
  sl_unfold_words
  rw [View.canon_unit_zero hz2]
  simp only [View.readAt_eq_ld, harg3.read_unread, harg4.read_unread, harg5.read_unread, harg7.read_unread, View.ld_unit_zero (S := S1024x512) hz2, View.ld_unit_zero (S := S512x2048) hz2, View.ld_unit_zero (S := S1024x2048) hz2, View.ld_unit_zero (S := S1x2048) hz2, View.readCov_unit_zero (S := S1024x2048) _ hz2]

end Pieces

section Payloads

/-- The matrix product's left operand is read at (output row, contraction index). -/
theorem mmLhsRow2 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem mmLhsCol2 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
/-- The right operand is read at (contraction index, output column). -/
theorem mmRhsRow2 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem mmRhsCol2 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The tile product into a zero accumulator, entry by entry: a row of the left tile against a column of the right. -/
theorem mm2_apply (x0 : FVec Ideal S1024x512 .bf16) (x1 : FVec Ideal S512x2048 .bf16) (p : Fin 1024) (q : Fin 2048) :
    matmul (F := Ideal) dot_S1024x512_S512x2048_S1024x2048_1_0_0_1_n_n none x0 x1 (constant (F := Ideal) S1024x2048 .f32 0x00000000#32) (ix2 p q)
      = ∑ kk : Fin 512, x0 (ix2 p kk) * x1 (ix2 kk q) := by
  refine (Ideal.matmul_constant_zero_apply dot_S1024x512_S512x2048_S1024x2048_1_0_0_1_n_n none x0 x1 (ix2 p q)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun a => Fin.ext (by
    match a with
    | ⟨0, _⟩ => exact mmLhsRow2 _ _
    | ⟨1, _⟩ => exact (mmLhsCol2 _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun a => Fin.ext (by
    match a with
    | ⟨0, _⟩ => exact (mmRhsRow2 _ _).trans hk
    | ⟨1, _⟩ => exact mmRhsCol2 _ _)
  rw [el, er]

/-- The accumulator's update, entry by entry: what it held plus the tile product's entry. -/
theorem pay2_at2 (x0 : FVec Ideal S1024x512 .bf16) (x1 : FVec Ideal S512x2048 .bf16) (xs : FVec Ideal S1024x2048 .f32) (p : Fin 1024) (q : Fin 2048) :
    k2_pay2 (F := Ideal) x0 x1 xs (ix2 p q) = xs (ix2 p q) + ∑ kk : Fin 512, x0 (ix2 p kk) * x1 (ix2 kk q) := by
  unfold k2_pay2
  simp only [shapeCast_self]
  exact congrArg (xs (ix2 p q) + ·) (mm2_apply x0 x1 p q)

/-- The zero splat, entry by entry. -/
theorem pay1_at2 (p : Fin 1024) (q : Fin 2048) : k2_pay1 (F := Ideal) (ix2 p q) = 0 := by
  unfold k2_pay1
  simp only [shapeCast_self]
  exact Ideal.ofBits_zero_f32

/-- The write-out, entry by entry: the accumulator's entry plus the bias row's entry of that column. -/
theorem pay3_at2 (a : FVec Ideal S1024x2048 .f32) (b : FVec Ideal S1x2048 .f32) (p : Fin 1024) (q : Fin 2048) :
    k2_pay3 (F := Ideal) a b (ix2 p q) = a (ix2 p q) + b (ix2 (0 : Fin 1) q) := by
  unfold k2_pay3
  simp only [shapeCast_self]
  exact congrArg (a (ix2 p q) + ·) (broadcastTo_1b_ab_apply b broadcasts_S1x2048_S1024x2048 p q)

end Payloads

section Blocks
variable {F : FTy → Type} [FloatOps F]
variable (V : (c : Dev nD) → (b : Ref sig .tc) → Buf (Elt F) ((c : Thread nD τ).loc b))

/-- The three input tiles at a grid position, and the three input arrays. -/
abbrev xblk2 (c : Dev nD) (t : Fin cfg2.N) : Vec F S1024x512 .bf16 := iblk2 V c 0 t
abbrev wblk2 (c : Dev nD) (t : Fin cfg2.N) : Vec F S512x2048 .bf16 := iblk2 V c 1 t
abbrev bblk2 (c : Dev nD) (t : Fin cfg2.N) : Vec F S1x2048 .f32 := iblk2 V c 2 t
abbrev xarr2 (c : Dev nD) : Vec F S8192x4096 .bf16 := V c main_v17
abbrev warr2 (c : Dev nD) : Vec F S4096x4096 .bf16 := V c main_v4
abbrev barr2 (c : Dev nD) : Vec F S1x4096 .f32 := V c main_v18

/-- The tiles' block indices at position t: the row tile is t / 16, the column tile t / 8 % 2, the contraction block t % 8. -/
theorem tileIdx2 : ∀ t : Fin cfg2.N, win2_0.index t (0 : Fin 2) = t.val / 16 ∧ win2_0.index t (1 : Fin 2) = t.val % 8
    ∧ win2_1.index t (0 : Fin 2) = t.val % 8 ∧ win2_1.index t (1 : Fin 2) = t.val / 8 % 2
    ∧ win2_2.index t (0 : Fin 2) = 0 ∧ win2_2.index t (1 : Fin 2) = t.val / 8 % 2
    ∧ win2_3.index t (0 : Fin 2) = t.val / 16 ∧ win2_3.index t (1 : Fin 2) = t.val / 8 % 2 :=
  (by decide +kernel : ∀ t : Fin grid2.N, _)

/-- An entry of the activations' tile is the array's entry at (row tile × 1024 + row, contraction block × 512 + index). -/
theorem xblk2_at (c : Dev nD) (t : Fin cfg2.N) (p : Fin 1024) (kk : Fin 512) (r : Fin 8192) (k : Fin 4096)
    (hr : r.val = 1024 * (t.val / 16) + p.val) (hk : k.val = 512 * (t.val % 8) + kk.val) :
    xblk2 V c t (ix2 p kk) = xarr2 V c (ix2 r k) := by
  obtain ⟨e0, e1, -⟩ := tileIdx2 t
  unfold xblk2 xarr2 iblk2
  rw [View.read_apply]
  show V c main_v17 _ = V c main_v17 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 512 + 1 * kk.val = k.val; rw [e1, hk]; omega

/-- An entry of the weights' tile is the array's entry at (contraction block × 512 + index, column tile × 2048 + column). -/
theorem wblk2_at (c : Dev nD) (t : Fin cfg2.N) (kk : Fin 512) (q : Fin 2048) (k : Fin 4096) (j : Fin 4096)
    (hk : k.val = 512 * (t.val % 8) + kk.val) (hj : j.val = 2048 * (t.val / 8 % 2) + q.val) :
    wblk2 V c t (ix2 kk q) = warr2 V c (ix2 k j) := by
  obtain ⟨-, -, e0, e1, -⟩ := tileIdx2 t
  unfold wblk2 warr2 iblk2
  rw [View.read_apply]
  show V c main_v4 _ = V c main_v4 _
  congr 1
  funext a
  apply Fin.ext
  match a with
  | ⟨0, _⟩ => show win2_1.index t (0 : Fin 2) * 512 + 1 * kk.val = k.val; rw [e0, hk]; omega
  | ⟨1, _⟩ => show win2_1.index t (1 : Fin 2) * 2048 + 1 * q.val = j.val; rw [e1, hj]; omega

/-- An entry of the bias tile is the bias row's entry at column tile × 2048 + column. -/
theorem bblk2_at (c : Dev nD) (t : Fin cfg2.N) (q : Fin 2048) (j : Fin 4096)
    (hj : j.val = 2048 * (t.val / 8 % 2) + q.val) :
    bblk2 V c t (ix2 (0 : Fin 1) q) = barr2 V c (ix2 (0 : Fin 1) j) := by
  obtain ⟨-, -, -, -, e0, e1, -⟩ := tileIdx2 t
  unfold bblk2 barr2 iblk2
  rw [View.read_apply]
  show V c main_v18 _ = V c main_v18 _
  congr 1
  funext a
  apply Fin.ext
  match a with
  | ⟨0, _⟩ => show win2_2.index t (0 : Fin 2) * 1 + 1 * 0 = 0; rw [e0]
  | ⟨1, _⟩ => show win2_2.index t (1 : Fin 2) * 2048 + 1 * q.val = j.val; rw [e1, hj]; omega

end Blocks

section Steps
variable {F : FTy → Type} [FloatOps F]
variable (V : (c : Dev nD) → (b : Ref sig .tc) → Buf (Elt F) ((c : Thread nD τ).loc b))

/-- The accumulator and the output block after position n. -/
abbrev acc2 (c : Dev nD) (n : ℕ) (hn : n < cfg2.N) : Vec F S1024x2048 .f32 := (outsAt2 V c n hn).2
abbrev res2 (c : Dev nD) (n : ℕ) (hn : n < cfg2.N) : Vec F S1024x2048 .f32 := (outsAt2 V c n hn).1

/-- At a first contraction block the accumulator restarts from the zero splat. -/
theorem acc2_first (c : Dev nD) (t : Fin cfg2.N) (h0 : t.val % 8 = 0) :
    acc2 V c t.val t.isLt = k2_pay2 (xblk2 V c t) (wblk2 V c t) (k2_pay1 (F := F)) := by
  have h1 : ¬t.val % 8 = 7 := by omega
  show (outsAt2 V c t.val t.isLt).2 = _
  rw [outsAt2_first V c t h0 h1]
  dsimp only
  exact accFirst2_eq (F := F) c (grid2.coords t) (ms2_0 t) (hs2_0 t) (ms2_1 t) (hs2_1 t) (ms2_2 t) (hs2_2 t) (ms2_3 t) (hs2_3 t) accM2 (Memref.isWhole_whole _) ((first2_iff t).mpr h0) (fun h => h1 ((last2_iff t).mp h)) (iblk2 V c 0 t) (iblk2 V c 1 t) (iblk2 V c 2 t)

/-- At every other contraction block it continues from what the position before left. -/
theorem acc2_next (c : Dev nD) (t : Fin cfg2.N) (h0 : ¬t.val % 8 = 0) :
    acc2 V c t.val t.isLt = k2_pay2 (xblk2 V c t) (wblk2 V c t) (acc2 V c (t.val - 1) (Nat.lt_of_le_of_lt (Nat.sub_le _ _) t.isLt)) := by
  show (outsAt2 V c t.val t.isLt).2 = _
  by_cases h1 : t.val % 8 = 7
  · rw [outsAt2_last V c t h0 h1]
    dsimp only
    exact accLast2_eq (F := F) c (grid2.coords t) (ms2_0 t) (hs2_0 t) (ms2_1 t) (hs2_1 t) (ms2_2 t) (hs2_2 t) (ms2_3 t) (hs2_3 t) accM2 (Memref.isWhole_whole _) (fun h => h0 ((first2_iff t).mp h)) ((last2_iff t).mpr h1) (iblk2 V c 0 t) (iblk2 V c 1 t) (iblk2 V c 2 t) (outsAt2 V c (t.val - 1) (Nat.lt_of_le_of_lt (Nat.sub_le _ _) t.isLt)).2
  · rw [outsAt2_mid V c t h0 h1]
    dsimp only
    exact accMid2_eq (F := F) c (grid2.coords t) (ms2_0 t) (hs2_0 t) (ms2_1 t) (hs2_1 t) (ms2_2 t) (hs2_2 t) (ms2_3 t) (hs2_3 t) accM2 (Memref.isWhole_whole _) (fun h => h0 ((first2_iff t).mp h)) (fun h => h1 ((last2_iff t).mp h)) (iblk2 V c 0 t) (iblk2 V c 1 t) (iblk2 V c 2 t) (outsAt2 V c (t.val - 1) (Nat.lt_of_le_of_lt (Nat.sub_le _ _) t.isLt)).2

/-- At the last contraction block the output block is the accumulator plus the bias row. -/
theorem res2_last (c : Dev nD) (t : Fin cfg2.N) (h1 : t.val % 8 = 7) :
    res2 V c t.val t.isLt = k2_pay3 (acc2 V c t.val t.isLt) (bblk2 V c t) := by
  have h0 : ¬t.val % 8 = 0 := by omega
  rw [acc2_next V c t h0]
  show (outsAt2 V c t.val t.isLt).1 = _
  rw [outsAt2_last V c t h0 h1]
  dsimp only
  exact outLast2_eq (F := F) c (grid2.coords t) (ms2_0 t) (hs2_0 t) (ms2_1 t) (hs2_1 t) (ms2_2 t) (hs2_2 t) (ms2_3 t) (hs2_3 t) accM2 (Memref.isWhole_whole _) (fun h => h0 ((first2_iff t).mp h)) ((last2_iff t).mpr h1) (iblk2 V c 0 t) (iblk2 V c 1 t) (iblk2 V c 2 t) (outsAt2 V c (t.val - 1) (Nat.lt_of_le_of_lt (Nat.sub_le _ _) t.isLt)).2

end Steps

section Value
variable (V : (c : Dev nD) → (b : Ref sig .tc) → Buf (Elt Ideal) ((c : Thread nD τ).loc b))

/-- The product of the activations' entry (r, k) and the weights' entry (k, j), for k below the contraction length 4096;
    zero beyond it. -/
def prodAt2 (c : Dev nD) (r : Fin 8192) (j : Fin 4096) (k : ℕ) : EReal :=
  if h : k < 4096 then (xarr2 V c (ix2 r ⟨k, h⟩) : EReal) * (warr2 V c (ix2 ⟨k, h⟩ j) : EReal) else 0

/-- One tile product's entry is the stretch of 512 products that belongs to its contraction block. -/
theorem tileTerm2 (c : Dev nD) (t : Fin cfg2.N) (p : Fin 1024) (q : Fin 2048) (r : Fin 8192) (j : Fin 4096)
    (hr : r.val = 1024 * (t.val / 16) + p.val) (hj : j.val = 2048 * (t.val / 8 % 2) + q.val) :
    (∑ kk : Fin 512, (xblk2 V c t (ix2 p kk) : EReal) * (wblk2 V c t (ix2 kk q) : EReal))
      = ∑ s ∈ Finset.range 512, prodAt2 V c r j (512 * (t.val % 8) + s) := by
  rw [Finset.sum_range]
  refine Finset.sum_congr rfl fun kk _ => ?_
  have hlt : 512 * (t.val % 8) + kk.val < 4096 := by have := kk.isLt; omega
  unfold prodAt2
  rw [dif_pos hlt]
  exact congrArg₂ (· * ·) (xblk2_at V c t p kk r ⟨_, hlt⟩ hr rfl) (wblk2_at V c t kk q ⟨_, hlt⟩ j rfl hj)

/-- After position n the accumulator's entry (p, q) is the sum of the products over the contraction indices of the blocks
    done so far in this run of eight: the first 512 × (n % 8 + 1) of them. -/
theorem acc2_sum (c : Dev nD) (n : ℕ) : ∀ (hn : n < cfg2.N) (p : Fin 1024) (q : Fin 2048) (r : Fin 8192) (j : Fin 4096),
    r.val = 1024 * (n / 16) + p.val → j.val = 2048 * (n / 8 % 2) + q.val →
    (acc2 V c n hn (ix2 p q) : EReal) = ∑ s ∈ Finset.range (512 * (n % 8) + 512), prodAt2 V c r j s := by
  induction n using Nat.strong_induction_on with
  | _ n ih =>
    intro hn p q r j hr hj
    rw [Finset.sum_range_add, ← tileTerm2 V c ⟨n, hn⟩ p q r j hr hj]
    by_cases h0 : n % 8 = 0
    · refine (congrFun (acc2_first V c ⟨n, hn⟩ h0) (ix2 p q)).trans ?_
      refine (pay2_at2 (xblk2 V c ⟨n, hn⟩) (wblk2 V c ⟨n, hn⟩) (k2_pay1 (F := Ideal)) p q).trans ?_
      rw [pay1_at2, h0, Nat.mul_zero, Finset.range_zero, Finset.sum_empty]
    · refine (congrFun (acc2_next V c ⟨n, hn⟩ h0) (ix2 p q)).trans ?_
      refine (pay2_at2 (xblk2 V c ⟨n, hn⟩) (wblk2 V c ⟨n, hn⟩) (acc2 V c (n - 1) (Nat.lt_of_le_of_lt (Nat.sub_le _ _) hn)) p q).trans ?_
      have e : 512 * ((n - 1) % 8) + 512 = 512 * (n % 8) := by omega
      rw [← e]
      exact congrArg₂ (· + ·) (ih (n - 1) (by omega) _ p q r j (by omega) (by omega)) rfl

/-- The specification's array: entry (r, j) is row r of the activations against column j of the weights, plus the bias
    row's entry j. -/
def G2 (c : Dev nD) : Buf (Elt Ideal) ((c : Thread nD τ).loc main_v19) := fun i =>
  Cert.Spec.linAt (fun k : Fin 4096 => (xarr2 V c (ix2 (i 0) k) : EReal)) (fun k : Fin 4096 => (warr2 V c (ix2 k (i 1)) : EReal))
    (barr2 V c (ix2 (0 : Fin 1) (i 1)))

/-- At the last contraction block the output block's entry (p, q) is the specification's entry of its place in the array. -/
theorem res2_at (c : Dev nD) (t : Fin cfg2.N) (h7 : t.val % 8 = 7) (p : Fin 1024) (q : Fin 2048) (r : Fin 8192) (j : Fin 4096)
    (hr : r.val = 1024 * (t.val / 16) + p.val) (hj : j.val = 2048 * (t.val / 8 % 2) + q.val) :
    (res2 V c t.val t.isLt (ix2 p q) : EReal) = G2 V c (ix2 r j) := by
  refine (congrFun (res2_last V c t h7) (ix2 p q)).trans ?_
  refine (pay3_at2 (acc2 V c t.val t.isLt) (bblk2 V c t) p q).trans ?_
  rw [acc2_sum V c t.val t.isLt p q r j hr hj, bblk2_at V c t q j hj, h7]
  have e : 512 * 7 + 512 = 4096 := by norm_num
  rw [e, Finset.sum_range]
  unfold G2 Cert.Spec.linAt
  refine congrArg₂ (· + ·) (Finset.sum_congr rfl fun k _ => ?_) rfl
  unfold prodAt2
  rw [dif_pos k.isLt]
  rfl

/-- The same over any index of the block and the index of the array it sits at. -/
theorem res2_entry (c : Dev nD) (t : Fin cfg2.N) (h7 : t.val % 8 = 7) (y : S1024x2048.Idx) (i : S8192x4096.Idx)
    (h0 : (i 0).val = 1024 * (t.val / 16) + (y 0).val) (h1 : (i 1).val = 2048 * (t.val / 8 % 2) + (y 1).val) :
    res2 V c t.val t.isLt y = G2 V c i := by
  obtain ⟨p, q, rfl⟩ : ∃ (p : Fin 1024) (q : Fin 2048), y = ix2 p q := ⟨y 0, y 1, eq_ix2 y⟩
  obtain ⟨r, j, rfl⟩ : ∃ (r : Fin 8192) (j : Fin 4096), i = ix2 r j := ⟨i 0, i 1, eq_ix2 i⟩
  exact res2_at V c t h7 p q r j h0 h1

/-- What a last contraction block writes back is its block of the specification's array. -/
theorem flushed2_eq (c : Dev nD) (t : Fin cfg2.N) (hf : (cfg2.win 3).flush t = true) :
    (dat2 (F := Ideal) V c).flushed 3 t = ((cfg2.win 3).blk t).view.read (Elt Ideal) (G2 V c) := by
  have h7 : t.val % 8 = 7 := (flush2_3 t).mp hf
  obtain ⟨-, -, -, -, -, -, e0, e1⟩ := tileIdx2 t
  show (cfg2.win 3).cut (grid2.coords t) ((dat2 V c).after 3 t) = _
  rw [after2_3]
  funext y
  show res2 V c t.val t.isLt y = G2 V c (((cfg2.win 3).blk t).view.emb y)
  refine res2_entry V c t h7 y _ ?_ ?_
  · show win2_3.index t (0 : Fin 2) * 1024 + 1 * (y 0).val = _
    rw [e0]; omega
  · show win2_3.index t (1 : Fin 2) * 2048 + 1 * (y 1).val = _
    rw [e1]; omega

/-- Every index of the output array is in the block some last contraction block writes back: the one of its row tile
    and column tile. -/
theorem cover2 (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 128 := N_2
  have ht : 16 * ((i 0).val / 1024) + 8 * ((i 1).val / 2048) + 7 < cfg2.N := by rw [hN]; omega
  refine ⟨⟨_, ht⟩, (flush2_3 ⟨_, ht⟩).mpr (by show (16 * ((i 0).val / 1024) + 8 * ((i 1).val / 2048) + 7) % 8 = 7; omega), ?_⟩
  obtain ⟨-, -, -, -, -, -, e0, e1⟩ := tileIdx2 ⟨_, ht⟩
  show i ∈ ((View.whole main_v19).slice (win2_3.rect ⟨_, ht⟩)).set
  rw [View.set_slice_whole, Rect.mem_set_unit]
  intro a
  match a with
  | ⟨0, _⟩ =>
    show win2_3.index ⟨_, ht⟩ (0 : Fin 2) * 1024 ≤ (i 0).val ∧ (i 0).val < win2_3.index ⟨_, ht⟩ (0 : Fin 2) * 1024 + 1024
    rw [e0]; dsimp only; omega
  | ⟨1, _⟩ =>
    show win2_3.index ⟨_, ht⟩ (1 : Fin 2) * 2048 ≤ (i 1).val ∧ (i 1).val < win2_3.index ⟨_, ht⟩ (1 : Fin 2) * 2048 + 2048
    rw [e1]; dsimp only; omega

/-- So after the whole grid the output array is the specification's. -/
theorem final2 (c : Dev nD) : (dat2 (F := Ideal) V c).arrAt 3 cfg2.N = G2 V c :=
  (dat2 (F := Ideal) V c).arrAt_eq_of_cover 3 (G2 V c) (flushed2_eq V c) (cover2)

/-- Entry by entry: row r of the activations against column j of the weights, plus the bias entry j. -/
theorem lin2_value (c : Dev nD) (r : Fin 8192) (j : Fin 4096) :
    (dat2 (F := Ideal) V c).arrAt 3 cfg2.N (ix2 r j)
      = Cert.Spec.linAt (fun k : Fin 4096 => V c main_v17 (ix2 r k)) (fun k : Fin 4096 => V c main_v4 (ix2 k j)) (V c main_v18 (ix2 0 j)) := by
  rw [final2 V c]
  rfl

end Value

end Cert.KernelIdeal.Hand

end
-- ==== Proof.RefValue.lean ====
/-
  The reference program's three results, read entry by entry as the scalar formulas of the specification. A linear layer's
  entry (s, j) is row s of the activations against column j of the weights plus entry j of the bias; splitting the 4096
  columns into 32 heads of 128 lanes sends (s, h, e) to column 128·h + e. For one token, the score of head h against head
  g is their inner product over the lanes times 2^-6; the row maximum from -∞ (taken once more against -∞, which changes
  nothing) is subtracted, the exponentials are normalised by their sum taken from zero, and the normalised row is set
  against lane d of the value heads. Merging the heads back sends column j to head j / 128, lane j % 128, and the last
  linear layer reads that row.
-/
import proofs.«415280_j32959579030013_3_alg».proof.Proof.Gen.ReferenceIdeal.Run
import proofs.«415280_j32959579030013_3_alg».proof.Proof.Gen.ReferenceIdeal.Read
import proofs.«415280_j32959579030013_3_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## A linear layer read at one entry -/

/-- The entry (s, j) of x·W + b: row s of x against column j of W, plus entry j of b. -/
theorem lin_flat (x : (⟨S8192x4096, .f32⟩ : BufTy).Contents (Elt Ideal)) (W : (⟨S4096x4096, .f32⟩ : BufTy).Contents (Elt Ideal))
    (b : (⟨S4096, .f32⟩ : BufTy).Contents (Elt Ideal)) (s : Fin 8192) (j : Fin 4096) :
    val_main_v3 (F := Ideal) x W b (ix2 s j)
      = Cert.Spec.linAt (fun k : Fin 4096 => x (ix2 s k)) (fun k : Fin 4096 => W (ix2 k j)) (b (ix1 j)) := by
  have el : ∀ k : Fin 4096, lidx_main_v0 (ix2 s j) k = ix2 s k := fun k =>
    funext fun a => by match a with | ⟨0, _⟩ => rfl | ⟨1, _⟩ => rfl
  have er : ∀ k : Fin 4096, ridx_main_v0 (ix2 s j) k = ix2 k j := fun k =>
    funext fun a => by match a with | ⟨0, _⟩ => rfl | ⟨1, _⟩ => rfl
  have eb : idx_main_v1 (idx_main_v2 (ix2 s j)) = ix1 j :=
    funext fun a => by match a with | ⟨0, _⟩ => rfl
  rw [val_main_v3_apply, val_main_v0_apply, val_main_v2_apply, val_main_v1_apply]
  simp only [el, er, eb, Ideal.addf_def]
  rfl

/-- Position (s, h, e) of the [8192, 32, 128] arrangement is position (s, 128·h + e) of the flat one. -/
theorem split_idx (s : Fin 8192) (h : Fin 32) (e : Fin 128) :
    idx_main_v4 (ix3 s h e) = ix2 s (Cert.Spec.col h e) := by
  have hs := s.isLt
  have hh := h.isLt
  have he := e.isLt
  funext a
  apply Fin.ext
  match a with
  | ⟨0, _⟩ => show ((s.val * 32 + h.val) * 128 + e.val) / 4096 = s.val; omega
  | ⟨1, _⟩ => show ((s.val * 32 + h.val) * 128 + e.val) % 4096 = h.val * 128 + e.val; omega

/-- A projection split into heads, read at token s, head h, lane e. -/
theorem proj_read (x : (⟨S8192x4096, .f32⟩ : BufTy).Contents (Elt Ideal)) (W : (⟨S4096x4096, .f32⟩ : BufTy).Contents (Elt Ideal))
    (b : (⟨S4096, .f32⟩ : BufTy).Contents (Elt Ideal)) (s : Fin 8192) (h : Fin 32) (e : Fin 128) :
    val_main_v4 (F := Ideal) x W b (ix3 s h e) = Cert.Spec.proj x W b s h e := by
  rw [val_main_v4_apply, split_idx, lin_flat]
  rfl

theorem val_k (x0 : (⟨S8192x4096, .f32⟩ : BufTy).Contents (Elt Ideal)) (x3 : (⟨S4096x4096, .f32⟩ : BufTy).Contents (Elt Ideal))
    (x4 : (⟨S4096, .f32⟩ : BufTy).Contents (Elt Ideal)) (s : Fin 8192) (h : Fin 32) (e : Fin 128) :
    val_main_v9 (F := Ideal) x0 x3 x4 (ix3 s h e) = Cert.Spec.proj x0 x3 x4 s h e :=
  proj_read x0 x3 x4 s h e

theorem val_v (x0 : (⟨S8192x4096, .f32⟩ : BufTy).Contents (Elt Ideal)) (x5 : (⟨S4096x4096, .f32⟩ : BufTy).Contents (Elt Ideal))
    (x6 : (⟨S4096, .f32⟩ : BufTy).Contents (Elt Ideal)) (s : Fin 8192) (h : Fin 32) (e : Fin 128) :
    val_main_v14 (F := Ideal) x0 x5 x6 (ix3 s h e) = Cert.Spec.proj x0 x5 x6 s h e :=
  proj_read x0 x5 x6 s h e

/-! ## One token's attention -/

/-- Token s of a [8192, 32, 128] array, as its 32 heads of 128 lanes. -/
def tok (y : (⟨S8192x32x128, .f32⟩ : BufTy).Contents (Elt Ideal)) (s : Fin 8192) : Fin 32 → Fin 128 → EReal :=
  fun h e => y (ix3 s h e)

/-- The scaled score of head h against head g at token s. -/
theorem score_read (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (s : Fin 8192) (h g : Fin 32) :
    val_main_v17 (F := Ideal) x0 x1 x2 x3 x4 (ix3 s h g)
      = Cert.Spec.score (tok (val_main_v4 (F := Ideal) x0 x1 x2) s) (tok (val_main_v9 (F := Ideal) x0 x3 x4) s) h g := by
  have el : ∀ k : Fin 128, lidx_main_v15 (ix3 s h g) k = ix3 s h k := fun k =>
    funext fun a => by match a with | ⟨0, _⟩ => rfl | ⟨1, _⟩ => rfl | ⟨2, _⟩ => rfl
  have er : ∀ k : Fin 128, ridx_main_v15 (ix3 s h g) k = ix3 s g k := fun k =>
    funext fun a => by match a with | ⟨0, _⟩ => rfl | ⟨1, _⟩ => rfl | ⟨2, _⟩ => rfl
  rw [val_main_v17_apply, val_main_v15_apply, val_main_v16_apply, val_main_cst_apply]
  simp only [el, er, Ideal.mulf_def, Ideal.ofBits_def]
  rfl

/-- A reduced position (s, h) with the coordinate g put back on the last axis is (s, h, g). -/
theorem lift_last (hr : S8192x32x32.Reduces [2] S8192x32) (s : Fin 8192) (h : Fin 32) (g : Fin (S8192x32x32.size 2)) :
    hr.lift (ix2 s h) g = ix3 s h (⟨g.val, g.isLt⟩ : Fin 32) := by
  funext c; apply Fin.ext
  fin_cases c <;> rfl

/-- The maximum with -∞ on the left is the other operand: -∞ is the least extended real. -/
theorem max_negInf (y : EReal) : max (Ideal.ofBits .f32 0xFF800000#32) y = y := by
  simp [Ideal.ofBits, Ideal.ieee]

/-- A maximum over the last axis from -∞, at (s, h), is the fold of the maximum over that row. -/
theorem hostMax_last (x : FVec Ideal S8192x32x32 .f32) (s : Fin 8192) (h : Fin 32) :
    Host.reduce (s := S8192x32x32) (axes := [2]) (t := S8192x32) (u := S_) (α := Ideal .f32) FloatOps.maximumf x
        (constant S_ .f32 0xFF800000#32) Facts₀.reducesTo_S8192x32x32_S8192x32_d2 Facts₀.h_S_ (ix2 s h)
      = (Finset.univ : Finset (Fin 32)).fold max (Ideal.ofBits .f32 0xFF800000#32) (fun g : Fin 32 => x (ix3 s h g)) := by
  have hr : S8192x32x32.Reduces [2] S8192x32 := by decide
  rw [Host.reduce_eq_fold_single (s := S8192x32x32) (t := S8192x32) (a := 2) (u := S_) (α := Ideal .f32) FloatOps.maximumf x _
    Facts₀.reducesTo_S8192x32x32_S8192x32_d2 hr Facts₀.h_S_]
  have hf : (x ∘ hr.lift (ix2 s h)) = fun g : Fin 32 => x (ix3 s h g) :=
    funext fun g => congrArg x (lift_last hr s h g)
  exact congrArg (fun f => Finset.fold max (Ideal.ofBits .f32 0xFF800000#32) f (Finset.univ : Finset (Fin 32))) hf

/-- The row maximum of the scores of head h at token s. -/
theorem rowMax_read (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (s : Fin 8192) (h : Fin 32) :
    val_main_v20 (F := Ideal) x0 x1 x2 x3 x4 (ix2 s h)
      = Cert.Spec.rowMax (fun g : Fin 32 => val_main_v17 (F := Ideal) x0 x1 x2 x3 x4 (ix3 s h g)) := by
  rw [val_main_v20_apply, val_main_v19_apply, val_main_cst_1_apply]
  show max (Ideal.ofBits .f32 0xFF800000#32) (val_main_v18 (F := Ideal) x0 x1 x2 x3 x4 (ix2 s h)) = _
  rw [max_negInf]
  exact hostMax_last (val_main_v17 (F := Ideal) x0 x1 x2 x3 x4) s h

/-- The shifted exponential of the score of head h against head g at token s. -/
theorem pexp_read (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (s : Fin 8192) (h g : Fin 32) :
    val_main_v24 (F := Ideal) x0 x1 x2 x3 x4 (ix3 s h g)
      = Cert.Spec.pexp (tok (val_main_v4 (F := Ideal) x0 x1 x2) s) (tok (val_main_v9 (F := Ideal) x0 x3 x4) s) h g := by
  have ei : idx_main_v21 (idx_main_v22 (ix3 s h g)) = ix2 s h :=
    funext fun a => by match a with | ⟨0, _⟩ => rfl | ⟨1, _⟩ => rfl
  have hs : (fun g' : Fin 32 => val_main_v17 (F := Ideal) x0 x1 x2 x3 x4 (ix3 s h g'))
      = Cert.Spec.score (tok (val_main_v4 (F := Ideal) x0 x1 x2) s) (tok (val_main_v9 (F := Ideal) x0 x3 x4) s) h :=
    funext fun g' => score_read x0 x1 x2 x3 x4 s h g'
  rw [val_main_v24_apply, val_main_v23_apply, val_main_v22_apply, val_main_v21_apply, ei, rowMax_read, hs, score_read]
  simp only [Ideal.hostUnary_exp_def, Ideal.subf_def]
  rfl

/-- The sum of a row of shifted exponentials, read at any position of the row. -/
theorem denom_read (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (s : Fin 8192) (h g : Fin 32) :
    val_main_v27 (F := Ideal) x0 x1 x2 x3 x4 (ix3 s h g)
      = ∑ g' : Fin 32, Cert.Spec.pexp (tok (val_main_v4 (F := Ideal) x0 x1 x2) s) (tok (val_main_v9 (F := Ideal) x0 x3 x4) s) h g' := by
  have ei : idx_main_v26 (idx_main_v27 (ix3 s h g)) = ix2 s h :=
    funext fun a => by match a with | ⟨0, _⟩ => rfl | ⟨1, _⟩ => rfl
  have ek : ∀ k : Fin 32, idx_main_v25 (ix2 s h) k = ix3 s h k := fun k =>
    funext fun a => by match a with | ⟨0, _⟩ => rfl | ⟨1, _⟩ => rfl | ⟨2, _⟩ => rfl
  rw [val_main_v27_apply, val_main_v26_apply, ei, val_main_v25_apply, val_main_cst_2_apply]
  simp only [ek, pexp_read, Ideal.ofBits_def, Ideal.ofBits_zero_f32, zero_add]

/-- The attention output of token s at head h, lane d. -/
theorem attn_read (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x4096, .f32⟩ : BufTy).Contents (Elt Ideal))
    (x6 : (⟨S4096, .f32⟩ : BufTy).Contents (Elt Ideal)) (s : Fin 8192) (h : Fin 32) (d : Fin 128) :
    val_main_v29 (F := Ideal) x0 x1 x2 x3 x4 x5 x6 (ix3 s h d)
      = Cert.Spec.attnAt (tok (val_main_v4 (F := Ideal) x0 x1 x2) s) (tok (val_main_v9 (F := Ideal) x0 x3 x4) s) (tok (val_main_v14 (F := Ideal) x0 x5 x6) s) h d := by
  have el : ∀ k : Fin 32, lidx_main_v29 (ix3 s h d) k = ix3 s h k := fun k =>
    funext fun a => by match a with | ⟨0, _⟩ => rfl | ⟨1, _⟩ => rfl | ⟨2, _⟩ => rfl
  have er : ∀ k : Fin 32, ridx_main_v29 (ix3 s h d) k = ix3 s k d := fun k =>
    funext fun a => by match a with | ⟨0, _⟩ => rfl | ⟨1, _⟩ => rfl | ⟨2, _⟩ => rfl
  rw [val_main_v29_apply]
  simp only [el, er, val_main_v28_apply, pexp_read, denom_read, Ideal.hostDivf_def]
  rfl

/-! ## The whole layer -/

/-- The three projections of token s, as heads, are the specification's. -/
theorem tok_proj (x : (⟨S8192x4096, .f32⟩ : BufTy).Contents (Elt Ideal)) (W : (⟨S4096x4096, .f32⟩ : BufTy).Contents (Elt Ideal))
    (b : (⟨S4096, .f32⟩ : BufTy).Contents (Elt Ideal)) (s : Fin 8192) :
    tok (val_main_v4 (F := Ideal) x W b) s = Cert.Spec.proj x W b s :=
  funext fun h => funext fun e => proj_read x W b s h e

/-- Position (s, j) of the flat arrangement is head j / 128, lane j % 128 of token s. -/
theorem merge_idx (s : Fin 8192) (j : Fin 4096) :
    idx_main_v30 (ix2 s j) = ix3 s (Cert.Spec.headOf j) (Cert.Spec.laneOf j) := by
  have hs := s.isLt
  have hj := j.isLt
  funext a
  apply Fin.ext
  match a with
  | ⟨0, _⟩ => show (s.val * 4096 + j.val) / 4096 = s.val; omega
  | ⟨1, _⟩ => show (s.val * 4096 + j.val) / 128 % 32 = j.val / 128; omega
  | ⟨2, _⟩ => show (s.val * 4096 + j.val) % 128 = j.val % 128; omega

theorem val_out (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x4096, .f32⟩ : BufTy).Contents (Elt Ideal))
    (x6 : (⟨S4096, .f32⟩ : BufTy).Contents (Elt Ideal)) (x7 : (⟨S4096x4096, .f32⟩ : BufTy).Contents (Elt Ideal))
    (x8 : (⟨S4096, .f32⟩ : BufTy).Contents (Elt Ideal)) (s : Fin 8192) (c : Fin 4096) :
    val_main_v34 (F := Ideal) x0 x1 x2 x3 x4 x5 x6 x7 x8 (ix2 s c) = Cert.Spec.layer x0 x1 x2 x3 x4 x5 x6 x7 x8 s c := by
  have e34 : val_main_v34 (F := Ideal) x0 x1 x2 x3 x4 x5 x6 x7 x8
      = val_main_v3 (F := Ideal) (val_main_v30 (F := Ideal) x0 x1 x2 x3 x4 x5 x6) x7 x8 := rfl
  have ek : val_main_v9 (F := Ideal) x0 x3 x4 = val_main_v4 (F := Ideal) x0 x3 x4 := rfl
  have ev : val_main_v14 (F := Ideal) x0 x5 x6 = val_main_v4 (F := Ideal) x0 x5 x6 := rfl
  have hh : ∀ j : Fin 4096, val_main_v30 (F := Ideal) x0 x1 x2 x3 x4 x5 x6 (ix2 s j)
      = Cert.Spec.heads x0 x1 x2 x3 x4 x5 x6 s (Cert.Spec.headOf j) (Cert.Spec.laneOf j) := fun j => by
    rw [val_main_v30_apply, merge_idx, attn_read, ek, ev, tok_proj, tok_proj, tok_proj]
    rfl
  rw [e34, lin_flat]
  simp only [hh]
  rfl

end Cert.ReferenceIdeal.RefValue

end
-- ==== Proof.lean ====
/-
  The claim: the word-level kernel program and its idealization run and leave their arguments as launched; the
  reference runs likewise; the idealization rewrote nothing; and at the ideal values the kernel's three results equal the
  reference's, entry by entry: both are the attention layer of Spec.lean of the same nine arguments.
-/
import proofs.«415280_j32959579030013_3_alg».proof.Defs
import proofs.«415280_j32959579030013_3_alg».proof.Proof.Gen.Kernel
import proofs.«415280_j32959579030013_3_alg».proof.Proof.Gen.KernelIdeal
import proofs.«415280_j32959579030013_3_alg».proof.Proof.Gen.ReferenceIdeal
import proofs.«415280_j32959579030013_3_alg».proof.Proof.Gen.Pre_finite_inputs
import proofs.«415280_j32959579030013_3_alg».proof.Proof.K.Run
import proofs.«415280_j32959579030013_3_alg».proof.Proof.KI.Run
import proofs.«415280_j32959579030013_3_alg».proof.Proof.KI.Bridge
import proofs.«415280_j32959579030013_3_alg».proof.Proof.KI.Lin0Value
import proofs.«415280_j32959579030013_3_alg».proof.Proof.KI.AttnValue
import proofs.«415280_j32959579030013_3_alg».proof.Proof.KI.Lin2Value
import proofs.«415280_j32959579030013_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program's frame. -/
theorem frame_k : Cert.frame_Kernel := fun m ρ _ => Cert.Kernel.Hand.frame m ρ

/-- The idealized program's frame. -/
theorem frame_ki : Cert.frame_KernelIdeal := fun m ρ _ => Cert.KernelIdeal.Hand.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

section
open Cert.KernelIdeal Cert.KernelIdeal.Gen Cert.KernelIdeal.Hand

/-- The idealized kernel program's run with its three results named: what the last valuation holds at the three result
    buffers, the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = W6 m c (Proc.devRef .tc main_v19)
      ∧ r.2.mem ((c.tc : Thread nD τ).loc main_v14) = W6 m c (Proc.devRef .tc main_v14)
      ∧ r.2.mem ((c.tc : Thread nD τ).loc main_v15) = W6 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v19 (by decide)), h c _ (mem_uc main_v14 (by decide)), h c _ (mem_uc main_v15 (by decide)),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c)⟩) (run_all m ρ)

end

/-- At the ideal values: the kernel program's output, keys and values are the layer, the key projection and the value
    projection of its arguments (the three regions' values chained through the host stretches), and so are the reference's
    (its run read back operation by operation); the arguments agree, so the results do. -/
theorem algebraic : Cert.algebraic_KernelIdeal_ReferenceIdeal := by
  intro m ρ m' ρ' _ hagree
  refine ⟨fun c => Cert.KernelIdeal.Hand.W6 m c (Proc.devRef .tc Cert.KernelIdeal.main_v19),
    fun c => Cert.KernelIdeal.Hand.W6 m c (Proc.devRef .tc Cert.KernelIdeal.main_v14),
    fun c => Cert.KernelIdeal.Hand.W6 m c (Proc.devRef .tc Cert.KernelIdeal.main_v15), kernel_run m ρ, ?_⟩
  refine (θ_run Cert.ReferenceIdeal.defs _ _).mono (fun _ h c => ⟨(h c).1.trans ((Cert.ReferenceIdeal.Read.val_main_v34_eq (F := Ideal) m' c).trans ?_),
      (h c).2.1.trans ((Cert.ReferenceIdeal.Read.val_main_v9_eq (F := Ideal) _ _ _).trans ?_),
      (h c).2.2.1.trans ((Cert.ReferenceIdeal.Read.val_main_v14_eq (F := Ideal) _ _ _).trans ?_), (h c).2.2.2⟩)
    (Cert.ReferenceIdeal.Value.run (F := Ideal) m' ρ')
  · funext i
    obtain ⟨s, j, rfl⟩ : ∃ (s : Fin 8192) (j : Fin 4096), i = ix2 s j := ⟨i 0, i 1, eq_ix2 i⟩
    rw [Cert.ReferenceIdeal.RefValue.val_out,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.KernelIdeal.Hand.out_value Cert.KernelIdeal.Hand.lin0_value Cert.KernelIdeal.Hand.attn_value Cert.KernelIdeal.Hand.lin2_value m c s j).symm
  · funext i
    obtain ⟨s, h, e, rfl⟩ : ∃ (s : Fin 8192) (h : Fin 32) (e : Fin 128), i = ix3 s h e := ⟨i 0, i 1, i 2, eq_ix3 i⟩
    rw [Cert.ReferenceIdeal.RefValue.val_k, (hagree c).1, (hagree c).2.2.2.1, (hagree c).2.2.2.2.1]
    exact (Cert.KernelIdeal.Hand.k_value Cert.KernelIdeal.Hand.lin0_value m c s h e).symm
  · funext i
    obtain ⟨s, h, e, rfl⟩ : ∃ (s : Fin 8192) (h : Fin 32) (e : Fin 128), i = ix3 s h e := ⟨i 0, i 1, i 2, eq_ix3 i⟩
    rw [Cert.ReferenceIdeal.RefValue.val_v, (hagree c).1, (hagree c).2.2.2.2.2.1, (hagree c).2.2.2.2.2.2.1]
    exact (Cert.KernelIdeal.Hand.v_value Cert.KernelIdeal.Hand.lin0_value m c s h e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
